-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x128 .f32) (main_arg1 : IVec S1048576 32) (main_arg2 : IVec S1048576 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg1 main_v4
  let main_c_1 : IVec S_ 1 := constantI S_ 1 1#1
  let main_v6 : IVec S_ 1 := (fun x v => Host.reduce IntOp.andi x v reducesTo_S1048576_S_d0 h_S_) main_v5 main_c_1
  let main_v7 : IVec S_ 1 := andi main_v3 main_v6
  let main_c_2 : IVec S_ 32 := constantI S_ 32 128#32
  let main_v8 : IVec S1048576 32 := broadcastInDim S1048576 ![] bcast_S_S1048576 main_c_2
  let main_v9 : IVec S1048576 1 := cmpi .slt main_arg1 main_v8
  let main_c_3 : IVec S_ 1 := constantI S_ 1 1#1
  let main_v10 : IVec S_ 1 := (fun x v => Host.reduce IntOp.andi x v reducesTo_S1048576_S_d0 h_S_) main_v9 main_c_3
  let main_v11 : IVec S_ 1 := andi main_v7 main_v10
  main_v11
-- ==== Kernel.lean ====
abbrev S1048576x128 : Shape := ⟨2, ![1048576, 128]⟩
abbrev S1048576 : Shape := ⟨1, ![1048576]⟩
abbrev S_ : Shape := ⟨0, ![]⟩
abbrev S1048576x1 : Shape := ⟨2, ![1048576, 1]⟩
abbrev S1x512 : Shape := ⟨2, ![1, 512]⟩
abbrev S8192x1 : Shape := ⟨2, ![8192, 1]⟩
abbrev S8192x512 : Shape := ⟨2, ![8192, 512]⟩
abbrev S512 : Shape := ⟨1, ![512]⟩
abbrev S8192x128 : Shape := ⟨2, ![8192, 128]⟩
abbrev S8192 : Shape := ⟨1, ![8192]⟩

abbrev nBuf : Space → Nat
  | .hbm => 25
  | .vmem => 10
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S1048576, .i32⟩
  | .hbm, ⟨3, _⟩ => ⟨S_, .i32⟩
  | .hbm, ⟨4, _⟩ => ⟨S1048576, .i32⟩
  | .hbm, ⟨5, _⟩ => ⟨S1048576, .i32⟩
  | .hbm, ⟨6, _⟩ => ⟨S1048576, .i32⟩
  | .hbm, ⟨7, _⟩ => ⟨S1048576x1, .i32⟩
  | .hbm, ⟨8, _⟩ => ⟨S1x512, .f32⟩
  | .hbm, ⟨9, _⟩ => ⟨S512, .f32⟩
  | .hbm, ⟨10, _⟩ => ⟨S1048576x1, .i32⟩
  | .hbm, ⟨11, _⟩ => ⟨S1048576x1, .f32⟩
  | .hbm, ⟨12, _⟩ => ⟨S1048576, .f32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576, .f32⟩
  | .hbm, ⟨22, _⟩ => ⟨S1048576, .f32⟩
  | .hbm, ⟨23, _⟩ => ⟨S_, .f32⟩
  | .hbm, ⟨24, _⟩ => ⟨S_, .f32⟩
  | .local _ .vmem, ⟨0, _⟩ => ⟨S8192x1, .i32⟩
  | .local _ .vmem, ⟨1, _⟩ => ⟨S8192x1, .i32⟩
  | .local _ .vmem, ⟨2, _⟩ => ⟨S1x512, .f32⟩
  | .local _ .vmem, ⟨3, _⟩ => ⟨S1x512, .f32⟩
  | .local _ .vmem, ⟨4, _⟩ => ⟨S8192x128, .f32⟩
  | .local _ .vmem, ⟨5, _⟩ => ⟨S8192x128, .f32⟩
  | .local _ .vmem, ⟨6, _⟩ => ⟨S8192x1, .i32⟩
  | .local _ .vmem, ⟨7, _⟩ => ⟨S8192x1, .i32⟩
  | .local _ .vmem, ⟨8, _⟩ => ⟨S8192x1, .f32⟩
  | .local _ .vmem, ⟨9, _⟩ => ⟨S8192x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v17 : BitVec 1 := Scalar.cmpi .eq arg0 c127_i32
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1048576 : S_.BroadcastsInDim S1048576 (![] : Fin 0 → Fin S1048576.rank)
  shapeCasts_S1048576_S1048576x1 : S1048576.ShapeCasts S1048576x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x512_d1_w32 : S8192x512.Iotas .tc 32 [1]
  broadcasts_S8192x1_S8192x512 : S8192x1.Broadcasts S8192x512
  natLt_1_32 : 1 < 32
  reduces_S8192x512_S512 : S8192x512.Reduces [0] S512
  shapeCasts_S512_S1x512 : S512.ShapeCasts S1x512
  shapeCasts_S1x512_S512 : S1x512.ShapeCasts S512
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  iota_S8192x128_d1_w32 : S8192x128.Iotas .tc 32 [1]
  shapeCasts_S1048576x1_S1048576 : S1048576x1.ShapeCasts S1048576
  bcast_S1048576_S1048576x1_0 : S1048576.BroadcastsInDim S1048576x1 (![0] : Fin 1 → Fin S1048576x1.rank)
  reducesTo_S1048576_S_d0 : S1048576.ReducesTo [0] S_
  h_S_ : 0 < S_.numel
  gather_S512_S1048576x1_S1048576_n_0_n_n_0_1_1_wf : GatherDims.WF S512 S1048576x1 S1048576 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S1048576x1.size a
  hwx0_0 : ∀ i : grid0.Coords, EltTy.bits .i32 = 32 ∨ (Rect.block (s := S1048576x1) S8192x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1048576x128.size a
  hwx1_0 : ∀ i : grid1.Coords, EltTy.bits .f32 = 32 ∨ (Rect.block (s := S1048576x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1048576x1.size a
  hwx1_1 : ∀ i : grid1.Coords, EltTy.bits .i32 = 32 ∨ (Rect.block (s := S1048576x1) S8192x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S1048576x1.size a
  hwx1_2 : ∀ i : grid1.Coords, EltTy.bits .f32 = 32 ∨ (Rect.block (s := S1048576x1) S8192x1.size (cc1_transform_2 i) (hinb1_2 i)).WholeWords (EltTy.packing .f32)

variable [Facts₀]

def gather_S512_S1048576x1_S1048576_n_0_n_n_0_1_1 : GatherDims S512 S1048576x1 S1048576 where
  offsetDims := []
  collapsedSliceDims := [0]
  operandBatchingDims := []
  startIndicesBatchingDims := []
  startIndexMap := [0]
  indexVectorDim := 1
  sliceSizes := ![1]
  wf := gather_S512_S1048576x1_S1048576_n_0_n_n_0_1_1_wf

abbrev win0_0 : Pipeline.Window sig grid0 :=
  Pipeline.Window.ofSpec (Memref.whole main_v3) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S8192x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1048576x128 : Shape := ⟨2, ![1048576, 128]⟩
abbrev S1048576 : Shape := ⟨1, ![1048576]⟩
abbrev S_ : Shape := ⟨0, ![]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩
abbrev S512 : Shape := ⟨1, ![512]⟩

abbrev nBuf : Space → Nat
  | .hbm => 65
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S1048576, .i32⟩
  | .hbm, ⟨3, _⟩ => ⟨S_, .f32⟩
  | .hbm, ⟨4, _⟩ => ⟨S1048576, .f32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S1048576x1, .f32⟩
  | .hbm, ⟨9, _⟩ => ⟨S1048576x128, .f32⟩
  | .hbm, ⟨10, _⟩ => ⟨S1048576x128, .f32⟩
  | .hbm, ⟨11, _⟩ => ⟨S1048576x128, .f32⟩
  | .hbm, ⟨12, _⟩ => ⟨S_, .f32⟩
  | .hbm, ⟨13, _⟩ => ⟨S1048576, .f32⟩
  | .hbm, ⟨14, _⟩ => ⟨S1048576x1, .f32⟩
  | .hbm, ⟨15, _⟩ => ⟨S1048576x1, .f32⟩
  | .hbm, ⟨16, _⟩ => ⟨S1048576x128, .f32⟩
  | .hbm, ⟨17, _⟩ => ⟨S1048576x128, .f32⟩
  | .hbm, ⟨18, _⟩ => ⟨S1048576x1, .i32⟩
  | .hbm, ⟨19, _⟩ => ⟨S_, .i32⟩
  | .hbm, ⟨20, _⟩ => ⟨S1048576x1, .i32⟩
  | .hbm, ⟨21, _⟩ => ⟨S1048576x1, .i1⟩
  | .hbm, ⟨22, _⟩ => ⟨S_, .i32⟩
  | .hbm, ⟨23, _⟩ => ⟨S1048576x1, .i32⟩
  | .hbm, ⟨24, _⟩ => ⟨S1048576x1, .i32⟩
  | .hbm, ⟨25, _⟩ => ⟨S1048576x1, .i32⟩
  | .hbm, ⟨26, _⟩ => ⟨S1048576x1x1, .i32⟩
  | .hbm, ⟨27, _⟩ => ⟨S1, .i32⟩
  | .hbm, ⟨28, _⟩ => ⟨S_, .i32⟩
  | .hbm, ⟨29, _⟩ => ⟨S1048576x1x1, .i32⟩
  | .hbm, ⟨30, _⟩ => ⟨S1048576x1x1, .i1⟩
  | .hbm, ⟨31, _⟩ => ⟨S1x1x1, .i32⟩
  | .hbm, ⟨32, _⟩ => ⟨S1048576x1x1, .i32⟩
  | .hbm, ⟨33, _⟩ => ⟨S1048576x1x1, .i1⟩
  | .hbm, ⟨34, _⟩ => ⟨S1048576x1x1, .i1⟩
  | .hbm, ⟨35, _⟩ => ⟨S_, .i1⟩
  | .hbm, ⟨36, _⟩ => ⟨S1048576x1, .i1⟩
  | .hbm, ⟨37, _⟩ => ⟨S1048576x1, .f32⟩
  | .hbm, ⟨38, _⟩ => ⟨S_, .f32⟩
  | .hbm, ⟨39, _⟩ => ⟨S1048576x1, .f32⟩
  | .hbm, ⟨40, _⟩ => ⟨S1048576x1, .f32⟩
  | .hbm, ⟨41, _⟩ => ⟨S1048576, .f32⟩
  | .hbm, ⟨42, _⟩ => ⟨S1048576, .f32⟩
  | .hbm, ⟨43, _⟩ => ⟨S_, .i32⟩
  | .hbm, ⟨44, _⟩ => ⟨S1048576, .i32⟩
  | .hbm, ⟨45, _⟩ => ⟨S1048576, .i32⟩
  | .hbm, ⟨46, _⟩ => ⟨S1048576, .i32⟩
  | .hbm, ⟨47, _⟩ => ⟨S_, .f32⟩
  | .hbm, ⟨48, _⟩ => ⟨S1048576, .f32⟩
  | .hbm, ⟨49, _⟩ => ⟨S_, .f32⟩
  | .hbm, ⟨50, _⟩ => ⟨S512, .f32⟩
  | .hbm, ⟨51, _⟩ => ⟨S1048576x1, .i32⟩
  | .hbm, ⟨52, _⟩ => ⟨S512, .f32⟩
  | .hbm, ⟨53, _⟩ => ⟨S_, .i32⟩
  | .hbm, ⟨54, _⟩ => ⟨S1048576, .i32⟩
  | .hbm, ⟨55, _⟩ => ⟨S1048576, .i1⟩
  | .hbm, ⟨56, _⟩ => ⟨S_, .i32⟩
  | .hbm, ⟨57, _⟩ => ⟨S1048576, .i32⟩
  | .hbm, ⟨58, _⟩ => ⟨S1048576, .i32⟩
  | .hbm, ⟨59, _⟩ => ⟨S1048576, .i32⟩
  | .hbm, ⟨60, _⟩ => ⟨S1048576x1, .i32⟩
  | .hbm, ⟨61, _⟩ => ⟨S1048576, .f32⟩
  | .hbm, ⟨62, _⟩ => ⟨S1048576, .f32⟩
  | .hbm, ⟨63, _⟩ => ⟨S_, .f32⟩
  | .hbm, ⟨64, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst : Ref sig .tc := ⟨.hbm, 47, rfl⟩
abbrev main_v8 : Ref sig .tc := ⟨.hbm, 48, rfl⟩
abbrev main_cst_0 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_c_1 : Ref sig .tc := ⟨.hbm, 53, rfl⟩
abbrev main_v12 : Ref sig .tc := ⟨.hbm, 54, rfl⟩
abbrev main_v13 : Ref sig .tc := ⟨.hbm, 55, rfl⟩
abbrev main_c_2 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_3 : Ref sig .tc := ⟨.hbm, 63, rfl⟩
abbrev main_v20 : Ref sig .tc := ⟨.hbm, 64, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  shapeCasts_S1048576x1_S1048576 : S1048576x1.ShapeCasts S1048576
  bcast_S_S512 : S_.BroadcastsInDim S512 (![] : Fin 0 → Fin S512.rank)
  reducesTo_S1048576_S_d0 : S1048576.ReducesTo [0] S_
  gather_S1048576x128_S1048576x1x1_S1048576x1_n_1_0_0_1_2_11_wf : GatherDims.WF S1048576x128 S1048576x1x1 S1048576x1 [] [1] [0] [1] [0] 2 ![1, 1]
  scatter_S512_S1048576x1_S1048576_n_0_0_1_wf : ScatterDims.WF S512 S1048576x1 S1048576 [] [0] [0] 1
  gather_S512_S1048576x1_S1048576_n_0_n_n_0_1_1_wf : GatherDims.WF S512 S1048576x1 S1048576 [] [0] [] [0] [] 1 ![1]

variable [Facts₀]

def gather_S1048576x128_S1048576x1x1_S1048576x1_n_1_0_0_1_2_11 : GatherDims S1048576x128 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x128_S1048576x1x1_S1048576x1_n_1_0_0_1_2_11_wf
def scatter_S512_S1048576x1_S1048576_n_0_0_1 : ScatterDims S512 S1048576x1 S1048576 where
  updateWindowDims := []
  insertedWindowDims := [0]
  scatterDimsToOperandDims := [0]
  indexVectorDim := 1
  wf := scatter_S512_S1048576x1_S1048576_n_0_0_1_wf
def gather_S512_S1048576x1_S1048576_n_0_n_n_0_1_1 : GatherDims S512 S1048576x1 S1048576 where
  offsetDims := []
  collapsedSliceDims := [0]
  operandBatchingDims := []
  startIndicesBatchingDims := []
  startIndexMap := [0]
  indexVectorDim := 1
  sliceSizes := ![1]
  wf := gather_S512_S1048576x1_S1048576_n_0_n_n_0_1_1_wf

class Facts : Prop extends Facts₀ where

variable [Facts]
-- ==== Proof.HistFrameB.lean ====
/-
  The histogram region (the first of the program's two kernel calls), at any float instance: what its body leaves in the output block and in the accumulator it carries from one grid point to the next, the pipeline's proof data at the contents the region is entered with, and the body obligation.
-/
import proofs.«400365_j6073083757069_2_alg».proof.Proof.Gen.Kernel.Launch
import proofs.«400365_j6073083757069_2_alg».proof.Proof.Gen.Kernel.Skeleton
import proofs.«400365_j6073083757069_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid coordinate -/

/-- The first conditional's condition ("this is the first point"), from the grid coordinate. -/
abbrev cond0_0 (i : grid0.Coords) : Prop :=
  (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second conditional's condition ("this is the last point"). -/
abbrev cond0_1 (i : grid0.Coords) : Prop := k0_cond2 i = 1#1
/-- It holds at point 127 only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

/-- The labels window is an input: never idle. -/
theorem liveAt0_0 : ∀ t : Fin cfg0.N, cfg0.idle 0 (grid0.coords t) = false := by decide +kernel
/-- Where the second conditional is not taken the output window is idle, -/
theorem idleAt0_1 : ∀ t : Fin cfg0.N, ¬cond0_1 (grid0.coords t) → cfg0.idle 1 (grid0.coords t) = true := by decide +kernel
/-- and its block is not written back there. -/
theorem noFlush0_1 : ∀ t : Fin cfg0.N, ¬cond0_1 (grid0.coords t) → (cfg0.win 1).flush t = false := by decide +kernel
/-- Where it is taken the output window is live. -/
theorem liveAt0_1 : ∀ t : Fin cfg0.N, cond0_1 (grid0.coords t) → cfg0.idle 1 (grid0.coords t) = false := by decide +kernel

/-! ## The memrefs the body is called with -/

/-- The output window's one staging buffer as a view: what the body leaves in the window is stated through it. -/
abbrev VO0_1 : View sig .tc .vmem S1x512 .f32 := (Memref.whole cc0_stg1_0 : Memref sig .tc .vmem S1x512 .f32).view
/-- Each window's current staging memref at point `t`, with its wholeness. -/
abbrev ms0_0 (t : Fin cfg0.N) : Memref sig .tc .vmem S8192x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
/-- The accumulator: a whole scoped buffer of the kernel's own, passed beside the windows. -/
abbrev scM0_0 : Memref sig .tc .vmem S1x512 .f32 := Memref.whole cc0_scratch0
/-- The same as a view. -/
abbrev VS0_0 : View sig .tc .vmem S1x512 .f32 := scM0_0.view

/-- The second call's staging buffers, each whole at some contents: scoped buffers this region never touches. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's entry invariant with the accumulator split off as a memref owned at some contents, beside the scoped
    buffers the region never touches and the generator register. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

/-! ## The body on any whole memrefs, case by case: the pieces its stores leave -/

set_option maxHeartbeats 1000000 in
/-- THE FIRST POINT (first conditional taken, second not). On whole memrefs — the labels' at its block `x0`, the output's at
    contents `xi1` handed back untouched, the accumulator's at anything — the body runs to the continuation holding the labels'
    buffer as it was, the output's as it was, and the accumulator with the pieces `LS0` written (last first); no piece
    goes to the output. The pieces are found by running the body. -/
noncomputable def kernelRun0_A (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) :
    Σ' (L1 : List (View.Piece (Elt F) S1x512 .f32)), { LS0 : List (View.Piece (Elt F) S1x512 .f32) //
      ∀ (xi1 : Vec F S1x512 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__hist_kernel i arg1 harg1 arg2 harg2 arg3 harg3) K } := by
  refine ⟨[], ?_, fun xi1 E K => ?run⟩
  case run =>
    simp only [cc0__hist_kernel_eq_skeleton]; unfold cc0__hist_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT (neither conditional taken). As at the first point, but the accumulator comes in at the contents
    `xs0` the point before left. -/
noncomputable def kernelRun0_B (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) :
    Σ' (L1 : List (View.Piece (Elt F) S1x512 .f32)), { LS0 : List (View.Piece (Elt F) S1x512 .f32) //
      ∀ (xi1 : Vec F S1x512 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__hist_kernel i arg1 harg1 arg2 harg2 arg3 harg3) K } := by
  refine ⟨[], ?_, fun xi1 E K => ?run⟩
  case run =>
    simp only [cc0__hist_kernel_eq_skeleton]; unfold cc0__hist_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST POINT (second conditional taken only). The output's buffer comes in at anything and leaves with the pieces
    `L1` written; the accumulator comes in at `xs0` and leaves with `LS0` written. -/
noncomputable def kernelRun0_C (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) :
    Σ' (L1 : List (View.Piece (Elt F) S1x512 .f32)), { LS0 : List (View.Piece (Elt F) S1x512 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__hist_kernel i arg1 harg1 arg2 harg2 arg3 harg3) K } := by
  refine ⟨?_, ?_, fun E K => ?run⟩
  case run =>
    simp only [cc0__hist_kernel_eq_skeleton]; unfold cc0__hist_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

/-! ## What each case leaves in the output's buffer and in the accumulator -/

/-- The first point stores nothing into the output window (idle there and not written back): junk read back, a placeholder
    nothing consults. -/
def out0_A_1 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) : Vec F S1x512 .f32 :=
  VO0_1.read (Elt F) (VO0_1.writes (Elt F) VO0_1.junk (kernelRun0_A c i arg1 harg1 arg2 harg2 arg3 harg3 hc0 hc1 x0).1)

/-- The first point's pieces for the accumulator cover it (two whole-rectangle stores). -/
theorem scover0_A_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) (y : S1x512.Idx) :
    ∃ pc ∈ (kernelRun0_A (F := F) c i arg1 harg1 arg2 harg2 arg3 harg3 hc0 hc1 x0).2.1, y ∈ pc.1.set :=
  View.cover_of_tiledL (kernelRun0_A c i arg1 harg1 arg2 harg2 arg3 harg3 hc0 hc1 x0).2.1 S1x512.size (by sl_kernel_rfl) y

/-- What the first point leaves in the accumulator: its pieces read back over junk. -/
def sout0_A_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) : Vec F S1x512 .f32 :=
  VS0_0.read (Elt F) (VS0_0.writes (Elt F) VS0_0.junk (kernelRun0_A c i arg1 harg1 arg2 harg2 arg3 harg3 hc0 hc1 x0).2.1)

/-- A middle point stores nothing into the output window either. -/
def out0_B_1 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) : Vec F S1x512 .f32 :=
  VO0_1.read (Elt F) (VO0_1.writes (Elt F) VO0_1.junk (kernelRun0_B c i arg1 harg1 arg2 harg2 arg3 harg3 hc0 hc1 x0 xs0).1)

/-- A middle point's one piece for the accumulator covers it. -/
theorem scover0_B_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) (y : S1x512.Idx) :
    ∃ pc ∈ (kernelRun0_B (F := F) c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x512.size (by sl_kernel_rfl) y

/-- What a middle point leaves in the accumulator. -/
def sout0_B_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) : Vec F S1x512 .f32 :=
  VS0_0.read (Elt F) (VS0_0.writes (Elt F) VS0_0.junk (kernelRun0_B c i arg1 harg1 arg2 harg2 arg3 harg3 hc0 hc1 x0 xs0).2.1)

/-- The last point's one piece for the output window covers its block. -/
theorem cover0_C_1 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) (y : S1x512.Idx) :
    ∃ pc ∈ (kernelRun0_C (F := F) c i arg1 harg1 arg2 harg2 arg3 harg3 hc0 hc1 x0 xs0).1, y ∈ pc.1.set :=
  View.cover_of_tiledL (kernelRun0_C c i arg1 harg1 arg2 harg2 arg3 harg3 hc0 hc1 x0 xs0).1 S1x512.size (by sl_kernel_rfl) y

/-- What the last point leaves in the output window's buffer. -/
def out0_C_1 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) : Vec F S1x512 .f32 :=
  VO0_1.read (Elt F) (VO0_1.writes (Elt F) VO0_1.junk (kernelRun0_C c i arg1 harg1 arg2 harg2 arg3 harg3 hc0 hc1 x0 xs0).1)

/-- The last point's one piece for the accumulator covers it. -/
theorem scover0_C_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) (y : S1x512.Idx) :
    ∃ pc ∈ (kernelRun0_C (F := F) c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x512.size (by sl_kernel_rfl) y

/-- What the last point leaves in the accumulator. -/
def sout0_C_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) : Vec F S1x512 .f32 :=
  VS0_0.read (Elt F) (VS0_0.writes (Elt F) VS0_0.junk (kernelRun0_C c i arg1 harg1 arg2 harg2 arg3 harg3 hc0 hc1 x0 xs0).2.1)

-- the core's buffer contents when the region is entered: every statement below is made at this parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The labels window's current staging buffer holds its block at every point, for any proof data whose array is the
    entry contents and whose body leaves the block in place: the window is fetched at every point and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the accumulator hold after each point -/

/-- What the output block (first component) and the carried accumulator (second component) hold after the body at
    position `n`: the first point's case at 0; afterwards the last point's case at 127 and the middle case elsewhere, each
    run at the point's memrefs and labels block with the accumulator at what the point before left. -/
def outsAt0 (c : Dev nD) : (n : ℕ) → n < cfg0.N → Vec F S1x512 .f32 × Vec F S1x512 .f32
  | 0, hn =>
    (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => absurd ((hcond0_1 ⟨0, hn⟩).mp h) (by decide : (0 : ℕ) ≠ 127)) (iblk0 V c 0 ⟨0, hn⟩),
     sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => absurd ((hcond0_1 ⟨0, hn⟩).mp h) (by decide : (0 : ℕ) ≠ 127)) (iblk0 V c 0 ⟨0, hn⟩))
  | n + 1, hn =>
    if h1 : n + 1 = 127 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2)

/-- `outsAt0` at the first point. -/
theorem outsAt0_A (c : Dev nD) (t : Fin cfg0.N) (h0 : t.val = 0) (h1 : ¬t.val = 127) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

/-- `outsAt0` at a middle point: that case over what the point before left. -/
theorem outsAt0_B (c : Dev nD) (t : Fin cfg0.N) (h0 : ¬t.val = 0) (h1 : ¬t.val = 127) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: that case over what the point before left. -/
theorem outsAt0_C (c : Dev nD) (t : Fin cfg0.N) (h0 : ¬t.val = 0) (h1 : t.val = 127) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant and the pipeline's proof data -/

/-- The region's invariant before position `n`: before the first point what the launch hands over (every scoped buffer at
    anything); afterwards the same with the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz0 : n = 0) : PhiS V c n h = Pipeline.ΦA spec0 c := by
  subst hz0; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz0 : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz0
  | succ n => rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The labels window's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The labels' memref holds its block; the point's position says which of the three cases it is in,
    so that case's run applies; the invariant hands the body the accumulator at what the point before left (at anything at the
    first point) and takes it back at this point's contents, the pieces covering it; where the output window is idle its
    buffer goes back as it came; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  by_cases h0 : t.val = 0
  · have h1 : ¬t.val = 127 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1 t (fun h => h1 ((hcond0_1 t).mp h))) (noFlush0_1 t (fun h => h1 ((hcond0_1 t).mp h)))]
    rw [outsAt0_A V c t h0 h1]
    unfold sout0_A_0; (try dsimp only)
    rw [PhiS_castSucc V c t, PhiS_zero V c _ _ h0, PhiA0_eq]
    iintro ⟨⟨⟨HS0, Hr⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _)
        iexact Hr
      iexact Hg
    isplitl [Ho]; · iexact Ho
    isplitl [H0]; · iexact H0
    iexists _; iexact H1
  · by_cases h1 : t.val = 127
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C_1 sout0_C_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- After the last point the invariant gives it back. -/
theorem hout0 (c : Dev nD) : (dat0 V c).Φ (Fin.last cfg0.N) ⊢ Pipeline.ΦA spec0 c :=
  Phi_out0 V c _ (by rw [Fin.val_last]; have : cfg0.N = 128 := N_0; omega)

/-! ## What the found pieces are -/

/-- The origin of a rank-2 rectangle, as a constant function. -/
theorem hz0 : (![0, 0] : Fin 2 → Nat) = fun _ => 0 := funext fun a => by fin_cases a <;> rfl

/-- The first point leaves in the accumulator the labels block's column sums added to the zero vector: the zero vector
    is stored, read back whole, and the sum stored over it. -/
theorem sout0_A_0_eq (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) :
    sout0_A_0 c i arg1 harg1 arg2 harg2 arg3 harg3 hc0 hc1 x0 = k0_pay2 x0 (k0_pay1 (F := F)) := by
  unfold sout0_A_0
  rw [View.read_writes_eq_canon _ _ _ (scover0_A_0 c i arg1 harg1 arg2 harg2 arg3 harg3 hc0 hc1 x0)]
  unfold kernelRun0_A
  dsimp only
  sl_unfold_words
  rw [View.canon_cons_unit_zero (S := S1x512) hz0, View.readCov_unit_zero (S := S1x512) _ hz0]
  simp only [View.readAt_eq_ld, harg1.read_unread, View.ld_unit_zero (S := S8192x1) hz0]

/-- A middle point leaves in the accumulator the labels block's column sums added to what it found there. -/
theorem sout0_B_0_eq (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) :
    sout0_B_0 c i arg1 harg1 arg2 harg2 arg3 harg3 hc0 hc1 x0 xs0 = k0_pay2 x0 xs0 := by
  unfold sout0_B_0
  rw [View.read_writes_eq_canon _ _ _ (scover0_B_0 c i arg1 harg1 arg2 harg2 arg3 harg3 hc0 hc1 x0 xs0)]
  unfold kernelRun0_B
  dsimp only
  sl_unfold_words
  rw [View.canon_unit_zero hz0]
  simp only [View.readAt_eq_ld, harg1.read_unread, harg3.read_unread, View.ld_unit_zero (S := S8192x1) hz0, View.ld_unit_zero (S := S1x512) hz0]

/-- So does the last point. -/
theorem sout0_C_0_eq (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) :
    sout0_C_0 c i arg1 harg1 arg2 harg2 arg3 harg3 hc0 hc1 x0 xs0 = k0_pay2 x0 xs0 := by
  unfold sout0_C_0
  rw [View.read_writes_eq_canon _ _ _ (scover0_C_0 c i arg1 harg1 arg2 harg2 arg3 harg3 hc0 hc1 x0 xs0)]
  unfold kernelRun0_C
  dsimp only
  sl_unfold_words
  rw [View.canon_unit_zero hz0]
  simp only [View.readAt_eq_ld, harg1.read_unread, harg3.read_unread, View.ld_unit_zero (S := S8192x1) hz0, View.ld_unit_zero (S := S1x512) hz0]

/-- And the last point leaves in the output block the accumulator it has just stored, read back whole. -/
theorem out0_C_1_eq (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) :
    out0_C_1 c i arg1 harg1 arg2 harg2 arg3 harg3 hc0 hc1 x0 xs0 = k0_pay2 x0 xs0 := by
  unfold out0_C_1
  rw [View.read_writes_eq_canon _ _ _ (cover0_C_1 c i arg1 harg1 arg2 harg2 arg3 harg3 hc0 hc1 x0 xs0)]
  unfold kernelRun0_C
  dsimp only
  sl_unfold_words
  rw [View.canon_unit_zero hz0]
  simp only [View.readAt_eq_ld, harg1.read_unread, harg3.read_unread, View.readCov_unit_zero (S := S1x512) _ hz0, View.ld_unit_zero (S := S8192x1) hz0, View.ld_unit_zero (S := S1x512) hz0]

/-! ## The accumulator point by point -/

/-- The accumulator after the first point: the first tile's column sums added to the zero vector the body stores first. -/
theorem acc_zero (c : Dev nD) (h : 0 < cfg0.N) :
    (outsAt0 V c 0 h).2 = k0_pay2 (iblk0 V c 0 ⟨0, h⟩) (k0_pay1 (F := F)) := by
  have e : outsAt0 V c 0 h = _ := outsAt0_A V c ⟨0, h⟩ rfl (by decide : ¬(0 : ℕ) = 127)
  rw [e]; dsimp only
  exact sout0_A_0_eq c (grid0.coords ⟨0, h⟩) (ms0_0 ⟨0, h⟩) (hs0_0 ⟨0, h⟩) (ms0_1 ⟨0, h⟩) (hs0_1 ⟨0, h⟩) scM0_0 (Memref.isWhole_whole _) _ _ (iblk0 V c 0 ⟨0, h⟩)

/-- The accumulator after a later point: that tile's column sums added to what the point before left. -/
theorem acc_succ (c : Dev nD) (n : ℕ) (h : n + 1 < cfg0.N) :
    (outsAt0 V c (n + 1) h).2 = k0_pay2 (iblk0 V c 0 ⟨n + 1, h⟩) (outsAt0 V c n (Nat.lt_of_succ_lt h)).2 := by
  by_cases h1 : n + 1 = 127
  · have e : outsAt0 V c (n + 1) h = _ := outsAt0_C V c ⟨n + 1, h⟩ (Nat.succ_ne_zero n) h1
    rw [e]; dsimp only
    exact sout0_C_0_eq c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) _ _ (iblk0 V c 0 ⟨n + 1, h⟩) (outsAt0 V c n (Nat.lt_of_succ_lt h)).2
  · have e : outsAt0 V c (n + 1) h = _ := outsAt0_B V c ⟨n + 1, h⟩ (Nat.succ_ne_zero n) h1
    rw [e]; dsimp only
    exact sout0_B_0_eq c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) _ _ (iblk0 V c 0 ⟨n + 1, h⟩) (outsAt0 V c n (Nat.lt_of_succ_lt h)).2

/-- At the last point the body copies the accumulator it has just updated into the output block. -/
theorem out_last (c : Dev nD) (h : 127 < cfg0.N) : (outsAt0 V c 127 h).1 = (outsAt0 V c 127 h).2 := by
  have e : outsAt0 V c 127 h = _ := outsAt0_C V c ⟨127, h⟩ (by decide : ¬(127 : ℕ) = 0) rfl
  rw [e]; dsimp only
  exact (out0_C_1_eq c (grid0.coords ⟨127, h⟩) (ms0_0 ⟨127, h⟩) (hs0_0 ⟨127, h⟩) (ms0_1 ⟨127, h⟩) (hs0_1 ⟨127, h⟩) scM0_0 (Memref.isWhole_whole _) _ _ (iblk0 V c 0 ⟨127, h⟩) _).trans
    (sout0_C_0_eq c (grid0.coords ⟨127, h⟩) (ms0_0 ⟨127, h⟩) (hs0_0 ⟨127, h⟩) (ms0_1 ⟨127, h⟩) (hs0_1 ⟨127, h⟩) scM0_0 (Memref.isWhole_whole _) _ _ (iblk0 V c 0 ⟨127, h⟩) _).symm

end Cert.Kernel.Hand

end
-- ==== Proof.CeFrameB.lean ====
/-
  The cross-entropy region (the program's second kernel call), at any float instance: what its body leaves in the output block at a grid point, the pipeline's proof data at the contents the region is entered with, and the body obligation.
-/
import proofs.«400365_j6073083757069_2_alg».proof.Proof.Gen.Kernel.Launch
import proofs.«400365_j6073083757069_2_alg».proof.Proof.Gen.Kernel.Skeleton
import proofs.«400365_j6073083757069_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is made at this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The score window's current staging buffer holds its block at every point, for any proof data whose array is the
    entry contents and whose body leaves the block in place: where the window is not fetched its block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the label window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

/-- The whole block of scores. -/
abbrev rScore : Rect S8192x128 := Rect.unit (s := S8192x128) ![0, 0] S8192x128.size inb_S8192x128_S8192x128_0_0
/-- The whole column of an 8192 by 1 block (the labels' and the output's). -/
abbrev rCol : Rect S8192x1 := Rect.unit (s := S8192x1) ![0, 0] S8192x1.size inb_S8192x1_S8192x1_0_0

/-- What the body leaves in the output block from the block of scores and the block of labels. -/
def out1_2 (x0 : Vec F S8192x128 .f32) (x1 : Vec F S8192x1 .i32) : Vec F S8192x1 .f32 :=
  View.canon [⟨rCol, k1_pay1 (View.ld x0 rScore) (View.ld x1 rCol)⟩]

/-- The one store tiles the output block, so it covers it. -/
theorem cover1_2 (p0 : Vec F S8192x1 .f32) (y : S8192x1.Idx) :
    ∃ pc ∈ ([⟨rCol, p0⟩] : List (View.Piece (Elt F) S8192x1 .f32)), y ∈ pc.1.set :=
  View.cover_of_tiled [⟨rCol, p0⟩] S8192x1.size (by rfl) y

/-- The body's one store covers the block, so the block holds the payload. -/
theorem out1_2_eq (x0 : Vec F S8192x128 .f32) (x1 : Vec F S8192x1 .i32) : out1_2 x0 x1 = k1_pay1 x0 x1 := by
  have hz : (![0, 0] : Fin 2 → ℕ) = fun _ => 0 := by funext a; fin_cases a <;> rfl
  unfold out1_2
  rw [View.canon_unit_zero hz]
  simp only [View.ld_unit_zero (S := S8192x128) hz, View.ld_unit_zero (S := S8192x1) hz]

/-! ## The body's triple -/

set_option maxHeartbeats 1000000 in
/-- The kernel body on whole staging memrefs, the two inputs' at contents `x0`, `x1` and the output's at anything, runs
    to the continuation holding the inputs' as they were and the output's at `out1_2 x0 x1`. -/
theorem sound_kernel1 (c : Dev nD) (E : Set ℕ) (i : grid1.Coords)
    (arg1 : Memref sig .tc .vmem S8192x128 .f32) (harg1 : arg1.IsWhole)
    (arg2 : Memref sig .tc .vmem S8192x1 .i32) (harg2 : arg2.IsWhole)
    (arg3 : Memref sig .tc .vmem S8192x1 .f32) (harg3 : arg3.IsWhole)
    (x0 : Vec F S8192x128 .f32) (x1 : Vec F S8192x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__ce_kernel i arg1 harg1 arg2 harg2 arg3 harg3) K := by
  simp only [cc1__ce_kernel_eq_skeleton]; unfold cc1__ce_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunB.lean ====
/-
  The whole program as a run: the buffer contents at every boundary between a stretch of host operations and a kernel
  region, folded from the launch memory; every pipeline's proof data at its region's entry contents; each region as a
  segment entered from one boundary's contents and left at the next one's; and the launch: every weakly fair execution
  terminates and every unscoped buffer ends at the last boundary's contents. Nothing here depends on the float
  instance.
-/
import proofs.«400365_j6073083757069_2_alg».proof.Proof.HistFrameB
import proofs.«400365_j6073083757069_2_alg».proof.Proof.CeFrameB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first stretch of host operations (the histogram region's entry). -/
abbrev W1 : Dev nD → Valuation τ sig (Elt F) := fun c => StableHlo.after hostOps0 (W0 m c)
/-- The same read at the core's references. -/
abbrev V1 : (c : Dev nD) → (b : Ref sig .tc) → Buf (Elt F) ((c : Thread nD τ).loc b) := fun c b => W1 m c b
/-- At the histogram region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the cross-entropy region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the cross-entropy region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch: the contents the program ends with. -/
abbrev W5 : Dev nD → Valuation τ sig (Elt F) := fun c => StableHlo.after hostOps2 (W4 m c)

/-! ## The proof data family and what rides beside the buffers -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What rides beside the buffers ends owing nothing. -/
theorem R_dues (c : Dev nD) : (R (F := F) c) ⊢ (iprop(∃ W, owes (c : Thread nD τ) (0 : CellTallies nD τ sig Unit) W) : sProp 𝕄) := by
  iintro ⟨-, HO⟩
  iexact HO
/-- The last thread state without the dues: every unscoped buffer at the final contents. -/
abbrev Tₙ (c : Dev nD) : sProp 𝕄 := StableHlo.held (c : Thread nD τ) (Pipeline.ucRefs τ sig) (W5 m c)

/-! ## The regions as segments -/

set_option backward.isDefEq.respectTransparency.types false in
/-- The histogram region: entered from every unscoped buffer at `W1`, left at `W2`; its arrays split out of the unscoped
    buffers and put back at the exit contents; the generator register and the scoped rest into the invariant before the
    first point and out of the invariant after the last; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    have h := hout0 (V1 m) c
    unfold Pipeline.ΦA at h
    rw [Pipeline.ownSems0_none, show (pdats m 0 c).Φ (Fin.last _) = (dat0 (V1 m) c).Φ (Fin.last cfg0.N) from rfl]
    iintro Hphi
    ihave Hq := h $$ Hphi
    icases Hq with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The cross-entropy region: entered from every unscoped buffer at `W3`, left at `W4`; the class's invariant throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and in
    every final state every unscoped buffer of every core holds the final contents `W5`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => sep_mono .rfl (R_dues c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      show iprop(StableHlo.held (c : Thread nD τ) (Pipeline.ucRefs τ sig) (W5 m c) ∗ SI s') ⊢ _
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h => h)

end Cert.Kernel.Hand

end
-- ==== Proof.KerTailB.lean ====
/-
  The kernel program's host steps around its two regions, read off the boundary contents: the group words the first
  stretch computes from the labels and the subgroups, the label column the second stretch lays out for the
  cross-entropy region, and the closing stretch — each sample's cross-entropy over the count its group word selects,
  summed over the samples — as one function of the two regions' output arrays and the group words. Nothing here
  depends on the float instance.
-/
import proofs.«400365_j6073083757069_2_alg».proof.Proof.RunB

set_option maxRecDepth 16384

noncomputable section

namespace Cert.Kernel.Hand

open Cert.Kernel Cert.Kernel.Gen
open Idealize.ShloMosaic Idealize.ShloMosaic.TcCoe Idealize.ShloMosaic.StableHlo
open Idealize.SL.Sem

variable {F : FTy → Type} [FloatOps F]
open Facts₀ Facts

/-- A sample's group word: four times its label plus its subgroup. -/
def gidOfK (t s : IVec S1048576 32) : IVec S1048576 32 :=
  addi (muli t (broadcastInDim S1048576 ![] Facts₀.bcast_S_S1048576 (constantI S_ 32 4#32))) s

/-- The group word as a row index into the 512 counts: 512 added when it is negative. -/
def gidIdxK (g : IVec S1048576 32) : IVec S1048576x1 32 :=
  broadcastInDim S1048576x1 ![0] Facts₀.bcast_S1048576_S1048576x1_0
    (select (cmpi .slt g (broadcastInDim S1048576 ![] Facts₀.bcast_S_S1048576 (constantI S_ 32 0#32)))
      (addi g (broadcastInDim S1048576 ![] Facts₀.bcast_S_S1048576 (constantI S_ 32 512#32))) g)

/-- The closing steps: each sample's value over the count its group word selects, summed over the samples. -/
def tailOfK (ce : FVec F S1048576 .f32) (cnt : FVec F S512 .f32) (g : IVec S1048576 32) : FVec F S_ .f32 :=
  Host.reduceAdd (Host.divf ce (Host.gather Cert.Kernel.gather_S512_S1048576x1_S1048576_n_0_n_n_0_1_1 cnt (gidIdxK g)))
    (constant S_ .f32 0x00000000#32) Facts₀.reducesTo_S1048576_S_d0 Facts₀.h_S_

variable (m : (ℓ : Loc nD τ sig) → Buf (Elt F) ℓ)

/-! ## The first stretch -/

theorem W1_arg0 (c : Dev nD) : W1 m c (Proc.devRef .tc main_arg0) = m ((c : Thread nD τ).loc main_arg0) := by
  show StableHlo.after hostOps0 (W0 m c) (Proc.devRef .tc main_arg0) = _
  after_results
theorem W1_arg1 (c : Dev nD) : W1 m c (Proc.devRef .tc main_arg1) = m ((c : Thread nD τ).loc main_arg1) := by
  show StableHlo.after hostOps0 (W0 m c) (Proc.devRef .tc main_arg1) = _
  after_results
theorem W1_arg2 (c : Dev nD) : W1 m c (Proc.devRef .tc main_arg2) = m ((c : Thread nD τ).loc main_arg2) := by
  show StableHlo.after hostOps0 (W0 m c) (Proc.devRef .tc main_arg2) = _
  after_results
/-- The group words. -/
theorem W1_v2 (c : Dev nD) : (W1 m c (Proc.devRef .tc main_v2) : IVec S1048576 32)
    = gidOfK (m ((c : Thread nD τ).loc main_arg1)) (m ((c : Thread nD τ).loc main_arg2)) := by
  show StableHlo.after hostOps0 (W0 m c) (Proc.devRef .tc main_v2) = _
  after_results; rfl
/-- The group words as a column: the histogram region's input array. -/
theorem W1_v3 (c : Dev nD) : (W1 m c (Proc.devRef .tc main_v3) : IVec S1048576x1 32)
    = shapeCast S1048576x1 (gidOfK (m ((c : Thread nD τ).loc main_arg1)) (m ((c : Thread nD τ).loc main_arg2))) Facts₀.shapeCasts_S1048576_S1048576x1 := by
  show StableHlo.after hostOps0 (W0 m c) (Proc.devRef .tc main_v3) = _
  after_results; rfl

/-! ## The second stretch -/

theorem W3_arg0 (c : Dev nD) : W3 m c (Proc.devRef .tc main_arg0) = m ((c : Thread nD τ).loc main_arg0) := by
  show StableHlo.after hostOps1 (W2 m c) (Proc.devRef .tc main_arg0) = _
  after_results
  exact (W2_of_ne m c main_arg0 (by decide)).trans (W1_arg0 m c)
/-- The labels as a column: the cross-entropy region's second input array. -/
theorem W3_v6 (c : Dev nD) : (W3 m c (Proc.devRef .tc main_v6) : IVec S1048576x1 32)
    = shapeCast S1048576x1 (m ((c : Thread nD τ).loc main_arg1) : IVec S1048576 32) Facts₀.shapeCasts_S1048576_S1048576x1 := by
  show StableHlo.after hostOps1 (W2 m c) (Proc.devRef .tc main_v6) = _
  after_results
  rw [show W2 m c (Proc.devRef .tc main_arg1) = m ((c : Thread nD τ).loc main_arg1) from
    (W2_of_ne m c main_arg1 (by decide)).trans (W1_arg1 m c)]
  rfl
/-- The 512 counts as a vector: the histogram region's output array, re-laid. -/
theorem W3_v5 (c : Dev nD) : (W3 m c (Proc.devRef .tc main_v5) : FVec F S512 .f32)
    = shapeCast S512 ((dat0 (V1 m) c).arrAt 1 cfg0.N : FVec F S1x512 .f32) Facts₀.shapeCasts_S1x512_S512 := by
  show StableHlo.after hostOps1 (W2 m c) (Proc.devRef .tc main_v5) = _
  after_results
  rw [show W2 m c (Proc.devRef .tc main_v4) = (dat0 (V1 m) c).arrAt 1 cfg0.N from W2_arr m c 1]
  rfl
theorem W3_v2 (c : Dev nD) : (W3 m c (Proc.devRef .tc main_v2) : IVec S1048576 32)
    = gidOfK (m ((c : Thread nD τ).loc main_arg1)) (m ((c : Thread nD τ).loc main_arg2)) := by
  show StableHlo.after hostOps1 (W2 m c) (Proc.devRef .tc main_v2) = _
  after_results
  exact (W2_of_ne m c main_v2 (by decide)).trans (W1_v2 m c)

/-! ## The closing stretch -/

theorem W4_v7 (c : Dev nD) : W4 m c (Proc.devRef .tc main_v7) = (dat1 (V3 m) c).arrAt 2 cfg1.N := W4_arr m c 2
theorem W4_v5 (c : Dev nD) : (W4 m c (Proc.devRef .tc main_v5) : FVec F S512 .f32)
    = shapeCast S512 ((dat0 (V1 m) c).arrAt 1 cfg0.N : FVec F S1x512 .f32) Facts₀.shapeCasts_S1x512_S512 :=
  (W4_of_ne m c main_v5 (by decide)).trans (W3_v5 m c)
theorem W4_v2 (c : Dev nD) : (W4 m c (Proc.devRef .tc main_v2) : IVec S1048576 32)
    = gidOfK (m ((c : Thread nD τ).loc main_arg1)) (m ((c : Thread nD τ).loc main_arg2)) :=
  (W4_of_ne m c main_v2 (by decide)).trans (W3_v2 m c)

/-- The closing stretch from ANY contents: the result buffer ends at the closing steps applied to the cross-entropy
    column re-laid as a vector, the counts and the group words it finds. -/
theorem tail_of (W : Valuation τ sig (Elt F)) :
    (StableHlo.after hostOps2 W (Proc.devRef .tc main_v17) : FVec F S_ .f32)
      = tailOfK (shapeCast S1048576 (W (Proc.devRef .tc main_v7) : FVec F S1048576x1 .f32) Facts₀.shapeCasts_S1048576x1_S1048576)
          (W (Proc.devRef .tc main_v5)) (W (Proc.devRef .tc main_v2)) := by
  after_results
  rfl

/-- The result: the closing steps applied to the cross-entropy region's output array, re-laid as a vector, the counts
    and the group words. -/
theorem W5_v17 (c : Dev nD) : (W5 m c (Proc.devRef .tc main_v17) : FVec F S_ .f32)
    = tailOfK (shapeCast S1048576 ((dat1 (V3 m) c).arrAt 2 cfg1.N : FVec F S1048576x1 .f32) Facts₀.shapeCasts_S1048576x1_S1048576)
        (shapeCast S512 ((dat0 (V1 m) c).arrAt 1 cfg0.N : FVec F S1x512 .f32) Facts₀.shapeCasts_S1x512_S512)
        (gidOfK (m ((c : Thread nD τ).loc main_arg1)) (m ((c : Thread nD τ).loc main_arg2))) := by
  show StableHlo.after hostOps2 (W4 m c) (Proc.devRef .tc main_v17) = _
  rw [tail_of, W4_v7, W4_v5, W4_v2]

/-- No stretch and no region writes an argument. -/
theorem W5_arg0 (c : Dev nD) : W5 m c (Proc.devRef .tc main_arg0) = m ((c : Thread nD τ).loc main_arg0) := by
  show StableHlo.after hostOps2 (W4 m c) (Proc.devRef .tc main_arg0) = _
  after_results
  exact (W4_arr m c 0).trans (((dat1 (V3 m) c).arrAt_in 0 rfl _).trans ((A_eq1 (V3 m) c 0).trans (W3_arg0 m c)))
theorem W5_arg1 (c : Dev nD) : W5 m c (Proc.devRef .tc main_arg1) = m ((c : Thread nD τ).loc main_arg1) := by
  show StableHlo.after hostOps2 (W4 m c) (Proc.devRef .tc main_arg1) = _
  after_results
  refine (W4_of_ne m c main_arg1 (by decide)).trans ?_
  show StableHlo.after hostOps1 (W2 m c) (Proc.devRef .tc main_arg1) = _
  after_results
  exact (W2_of_ne m c main_arg1 (by decide)).trans (W1_arg1 m c)
theorem W5_arg2 (c : Dev nD) : W5 m c (Proc.devRef .tc main_arg2) = m ((c : Thread nD τ).loc main_arg2) := by
  show StableHlo.after hostOps2 (W4 m c) (Proc.devRef .tc main_arg2) = _
  after_results
  refine (W4_of_ne m c main_arg2 (by decide)).trans ?_
  show StableHlo.after hostOps1 (W2 m c) (Proc.devRef .tc main_arg2) = _
  after_results
  exact (W2_of_ne m c main_arg2 (by decide)).trans (W1_arg2 m c)

end Cert.Kernel.Hand

end
-- ==== Proof.HistFrame.lean ====
/-
  The histogram region (the first of the program's two kernel calls), at any float instance: what its body leaves in the output block and in the accumulator it carries from one grid point to the next, the pipeline's proof data at the contents the region is entered with, and the body obligation.
-/
import proofs.«400365_j6073083757069_2_alg».proof.Proof.Gen.KernelIdeal.Launch
import proofs.«400365_j6073083757069_2_alg».proof.Proof.Gen.KernelIdeal.Skeleton
import proofs.«400365_j6073083757069_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid coordinate -/

/-- The first conditional's condition ("this is the first point"), from the grid coordinate. -/
abbrev cond0_0 (i : grid0.Coords) : Prop :=
  (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second conditional's condition ("this is the last point"). -/
abbrev cond0_1 (i : grid0.Coords) : Prop := k0_cond2 i = 1#1
/-- It holds at point 127 only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

/-- The labels window is an input: never idle. -/
theorem liveAt0_0 : ∀ t : Fin cfg0.N, cfg0.idle 0 (grid0.coords t) = false := by decide +kernel
/-- Where the second conditional is not taken the output window is idle, -/
theorem idleAt0_1 : ∀ t : Fin cfg0.N, ¬cond0_1 (grid0.coords t) → cfg0.idle 1 (grid0.coords t) = true := by decide +kernel
/-- and its block is not written back there. -/
theorem noFlush0_1 : ∀ t : Fin cfg0.N, ¬cond0_1 (grid0.coords t) → (cfg0.win 1).flush t = false := by decide +kernel
/-- Where it is taken the output window is live. -/
theorem liveAt0_1 : ∀ t : Fin cfg0.N, cond0_1 (grid0.coords t) → cfg0.idle 1 (grid0.coords t) = false := by decide +kernel

/-! ## The memrefs the body is called with -/

/-- The output window's one staging buffer as a view: what the body leaves in the window is stated through it. -/
abbrev VO0_1 : View sig .tc .vmem S1x512 .f32 := (Memref.whole cc0_stg1_0 : Memref sig .tc .vmem S1x512 .f32).view
/-- Each window's current staging memref at point `t`, with its wholeness. -/
abbrev ms0_0 (t : Fin cfg0.N) : Memref sig .tc .vmem S8192x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
/-- The accumulator: a whole scoped buffer of the kernel's own, passed beside the windows. -/
abbrev scM0_0 : Memref sig .tc .vmem S1x512 .f32 := Memref.whole cc0_scratch0
/-- The same as a view. -/
abbrev VS0_0 : View sig .tc .vmem S1x512 .f32 := scM0_0.view

/-- The second call's staging buffers, each whole at some contents: scoped buffers this region never touches. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's entry invariant with the accumulator split off as a memref owned at some contents, beside the scoped
    buffers the region never touches and the generator register. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

/-! ## The body on any whole memrefs, case by case: the pieces its stores leave -/

set_option maxHeartbeats 1000000 in
/-- THE FIRST POINT (first conditional taken, second not). On whole memrefs — the labels' at its block `x0`, the output's at
    contents `xi1` handed back untouched, the accumulator's at anything — the body runs to the continuation holding the labels'
    buffer as it was, the output's as it was, and the accumulator with the pieces `LS0` written (last first); no piece
    goes to the output. The pieces are found by running the body. -/
noncomputable def kernelRun0_A (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) :
    Σ' (L1 : List (View.Piece (Elt F) S1x512 .f32)), { LS0 : List (View.Piece (Elt F) S1x512 .f32) //
      ∀ (xi1 : Vec F S1x512 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__hist_kernel i arg1 harg1 arg2 harg2 arg3 harg3) K } := by
  refine ⟨[], ?_, fun xi1 E K => ?run⟩
  case run =>
    simp only [cc0__hist_kernel_eq_skeleton]; unfold cc0__hist_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT (neither conditional taken). As at the first point, but the accumulator comes in at the contents
    `xs0` the point before left. -/
noncomputable def kernelRun0_B (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) :
    Σ' (L1 : List (View.Piece (Elt F) S1x512 .f32)), { LS0 : List (View.Piece (Elt F) S1x512 .f32) //
      ∀ (xi1 : Vec F S1x512 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__hist_kernel i arg1 harg1 arg2 harg2 arg3 harg3) K } := by
  refine ⟨[], ?_, fun xi1 E K => ?run⟩
  case run =>
    simp only [cc0__hist_kernel_eq_skeleton]; unfold cc0__hist_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST POINT (second conditional taken only). The output's buffer comes in at anything and leaves with the pieces
    `L1` written; the accumulator comes in at `xs0` and leaves with `LS0` written. -/
noncomputable def kernelRun0_C (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) :
    Σ' (L1 : List (View.Piece (Elt F) S1x512 .f32)), { LS0 : List (View.Piece (Elt F) S1x512 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__hist_kernel i arg1 harg1 arg2 harg2 arg3 harg3) K } := by
  refine ⟨?_, ?_, fun E K => ?run⟩
  case run =>
    simp only [cc0__hist_kernel_eq_skeleton]; unfold cc0__hist_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

/-! ## What each case leaves in the output's buffer and in the accumulator -/

/-- The first point stores nothing into the output window (idle there and not written back): junk read back, a placeholder
    nothing consults. -/
def out0_A_1 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) : Vec F S1x512 .f32 :=
  VO0_1.read (Elt F) (VO0_1.writes (Elt F) VO0_1.junk (kernelRun0_A c i arg1 harg1 arg2 harg2 arg3 harg3 hc0 hc1 x0).1)

/-- The first point's pieces for the accumulator cover it (two whole-rectangle stores). -/
theorem scover0_A_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) (y : S1x512.Idx) :
    ∃ pc ∈ (kernelRun0_A (F := F) c i arg1 harg1 arg2 harg2 arg3 harg3 hc0 hc1 x0).2.1, y ∈ pc.1.set :=
  View.cover_of_tiledL (kernelRun0_A c i arg1 harg1 arg2 harg2 arg3 harg3 hc0 hc1 x0).2.1 S1x512.size (by sl_kernel_rfl) y

/-- What the first point leaves in the accumulator: its pieces read back over junk. -/
def sout0_A_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) : Vec F S1x512 .f32 :=
  VS0_0.read (Elt F) (VS0_0.writes (Elt F) VS0_0.junk (kernelRun0_A c i arg1 harg1 arg2 harg2 arg3 harg3 hc0 hc1 x0).2.1)

/-- A middle point stores nothing into the output window either. -/
def out0_B_1 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) : Vec F S1x512 .f32 :=
  VO0_1.read (Elt F) (VO0_1.writes (Elt F) VO0_1.junk (kernelRun0_B c i arg1 harg1 arg2 harg2 arg3 harg3 hc0 hc1 x0 xs0).1)

/-- A middle point's one piece for the accumulator covers it. -/
theorem scover0_B_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) (y : S1x512.Idx) :
    ∃ pc ∈ (kernelRun0_B (F := F) c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x512.size (by sl_kernel_rfl) y

/-- What a middle point leaves in the accumulator. -/
def sout0_B_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) : Vec F S1x512 .f32 :=
  VS0_0.read (Elt F) (VS0_0.writes (Elt F) VS0_0.junk (kernelRun0_B c i arg1 harg1 arg2 harg2 arg3 harg3 hc0 hc1 x0 xs0).2.1)

/-- The last point's one piece for the output window covers its block. -/
theorem cover0_C_1 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) (y : S1x512.Idx) :
    ∃ pc ∈ (kernelRun0_C (F := F) c i arg1 harg1 arg2 harg2 arg3 harg3 hc0 hc1 x0 xs0).1, y ∈ pc.1.set :=
  View.cover_of_tiledL (kernelRun0_C c i arg1 harg1 arg2 harg2 arg3 harg3 hc0 hc1 x0 xs0).1 S1x512.size (by sl_kernel_rfl) y

/-- What the last point leaves in the output window's buffer. -/
def out0_C_1 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) : Vec F S1x512 .f32 :=
  VO0_1.read (Elt F) (VO0_1.writes (Elt F) VO0_1.junk (kernelRun0_C c i arg1 harg1 arg2 harg2 arg3 harg3 hc0 hc1 x0 xs0).1)

/-- The last point's one piece for the accumulator covers it. -/
theorem scover0_C_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) (y : S1x512.Idx) :
    ∃ pc ∈ (kernelRun0_C (F := F) c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x512.size (by sl_kernel_rfl) y

/-- What the last point leaves in the accumulator. -/
def sout0_C_0 (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) : Vec F S1x512 .f32 :=
  VS0_0.read (Elt F) (VS0_0.writes (Elt F) VS0_0.junk (kernelRun0_C c i arg1 harg1 arg2 harg2 arg3 harg3 hc0 hc1 x0 xs0).2.1)

-- the core's buffer contents when the region is entered: every statement below is made at this parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The labels window's current staging buffer holds its block at every point, for any proof data whose array is the
    entry contents and whose body leaves the block in place: the window is fetched at every point and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the accumulator hold after each point -/

/-- What the output block (first component) and the carried accumulator (second component) hold after the body at
    position `n`: the first point's case at 0; afterwards the last point's case at 127 and the middle case elsewhere, each
    run at the point's memrefs and labels block with the accumulator at what the point before left. -/
def outsAt0 (c : Dev nD) : (n : ℕ) → n < cfg0.N → Vec F S1x512 .f32 × Vec F S1x512 .f32
  | 0, hn =>
    (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => absurd ((hcond0_1 ⟨0, hn⟩).mp h) (by decide : (0 : ℕ) ≠ 127)) (iblk0 V c 0 ⟨0, hn⟩),
     sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => absurd ((hcond0_1 ⟨0, hn⟩).mp h) (by decide : (0 : ℕ) ≠ 127)) (iblk0 V c 0 ⟨0, hn⟩))
  | n + 1, hn =>
    if h1 : n + 1 = 127 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2)

/-- `outsAt0` at the first point. -/
theorem outsAt0_A (c : Dev nD) (t : Fin cfg0.N) (h0 : t.val = 0) (h1 : ¬t.val = 127) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

/-- `outsAt0` at a middle point: that case over what the point before left. -/
theorem outsAt0_B (c : Dev nD) (t : Fin cfg0.N) (h0 : ¬t.val = 0) (h1 : ¬t.val = 127) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: that case over what the point before left. -/
theorem outsAt0_C (c : Dev nD) (t : Fin cfg0.N) (h0 : ¬t.val = 0) (h1 : t.val = 127) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant and the pipeline's proof data -/

/-- The region's invariant before position `n`: before the first point what the launch hands over (every scoped buffer at
    anything); afterwards the same with the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz0 : n = 0) : PhiS V c n h = Pipeline.ΦA spec0 c := by
  subst hz0; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz0 : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz0
  | succ n => rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The labels window's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The labels' memref holds its block; the point's position says which of the three cases it is in,
    so that case's run applies; the invariant hands the body the accumulator at what the point before left (at anything at the
    first point) and takes it back at this point's contents, the pieces covering it; where the output window is idle its
    buffer goes back as it came; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  by_cases h0 : t.val = 0
  · have h1 : ¬t.val = 127 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1 t (fun h => h1 ((hcond0_1 t).mp h))) (noFlush0_1 t (fun h => h1 ((hcond0_1 t).mp h)))]
    rw [outsAt0_A V c t h0 h1]
    unfold sout0_A_0; (try dsimp only)
    rw [PhiS_castSucc V c t, PhiS_zero V c _ _ h0, PhiA0_eq]
    iintro ⟨⟨⟨HS0, Hr⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _)
        iexact Hr
      iexact Hg
    isplitl [Ho]; · iexact Ho
    isplitl [H0]; · iexact H0
    iexists _; iexact H1
  · by_cases h1 : t.val = 127
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C_1 sout0_C_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B_0; (try dsimp only)
      rw [PhiS_castSucc V c t, PhiS_pos V c _ _ h0]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _)
          iexact Hr
        iexact Hg
      isplitl [Ho]; · iexact Ho
      isplitl [H0]; · iexact H0
      iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- After the last point the invariant gives it back. -/
theorem hout0 (c : Dev nD) : (dat0 V c).Φ (Fin.last cfg0.N) ⊢ Pipeline.ΦA spec0 c :=
  Phi_out0 V c _ (by rw [Fin.val_last]; have : cfg0.N = 128 := N_0; omega)

/-! ## What the found pieces are -/

/-- The origin of a rank-2 rectangle, as a constant function. -/
theorem hz0 : (![0, 0] : Fin 2 → Nat) = fun _ => 0 := funext fun a => by fin_cases a <;> rfl

/-- The first point leaves in the accumulator the labels block's column sums added to the zero vector: the zero vector
    is stored, read back whole, and the sum stored over it. -/
theorem sout0_A_0_eq (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : cond0_0 i) (hc1 : ¬cond0_1 i)
    (x0 : Vec F S8192x1 .i32) :
    sout0_A_0 c i arg1 harg1 arg2 harg2 arg3 harg3 hc0 hc1 x0 = k0_pay2 x0 (k0_pay1 (F := F)) := by
  unfold sout0_A_0
  rw [View.read_writes_eq_canon _ _ _ (scover0_A_0 c i arg1 harg1 arg2 harg2 arg3 harg3 hc0 hc1 x0)]
  unfold kernelRun0_A
  dsimp only
  sl_unfold_words
  rw [View.canon_cons_unit_zero (S := S1x512) hz0, View.readCov_unit_zero (S := S1x512) _ hz0]
  simp only [View.readAt_eq_ld, harg1.read_unread, View.ld_unit_zero (S := S8192x1) hz0]

/-- A middle point leaves in the accumulator the labels block's column sums added to what it found there. -/
theorem sout0_B_0_eq (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : ¬cond0_1 i)
    (x0 : Vec F S8192x1 .i32) (xs0 : Vec F S1x512 .f32) :
    sout0_B_0 c i arg1 harg1 arg2 harg2 arg3 harg3 hc0 hc1 x0 xs0 = k0_pay2 x0 xs0 := by
  unfold sout0_B_0
  rw [View.read_writes_eq_canon _ _ _ (scover0_B_0 c i arg1 harg1 arg2 harg2 arg3 harg3 hc0 hc1 x0 xs0)]
  unfold kernelRun0_B
  dsimp only
  sl_unfold_words
  rw [View.canon_unit_zero hz0]
  simp only [View.readAt_eq_ld, harg1.read_unread, harg3.read_unread, View.ld_unit_zero (S := S8192x1) hz0, View.ld_unit_zero (S := S1x512) hz0]

/-- So does the last point. -/
theorem sout0_C_0_eq (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) :
    sout0_C_0 c i arg1 harg1 arg2 harg2 arg3 harg3 hc0 hc1 x0 xs0 = k0_pay2 x0 xs0 := by
  unfold sout0_C_0
  rw [View.read_writes_eq_canon _ _ _ (scover0_C_0 c i arg1 harg1 arg2 harg2 arg3 harg3 hc0 hc1 x0 xs0)]
  unfold kernelRun0_C
  dsimp only
  sl_unfold_words
  rw [View.canon_unit_zero hz0]
  simp only [View.readAt_eq_ld, harg1.read_unread, harg3.read_unread, View.ld_unit_zero (S := S8192x1) hz0, View.ld_unit_zero (S := S1x512) hz0]

/-- And the last point leaves in the output block the accumulator it has just stored, read back whole. -/
theorem out0_C_1_eq (c : Dev nD) (i : grid0.Coords) (arg1 : Memref sig .tc .vmem S8192x1 .i32) (harg1 : arg1.IsWhole) (arg2 : Memref sig .tc .vmem S1x512 .f32) (harg2 : arg2.IsWhole) (arg3 : Memref sig .tc .vmem S1x512 .f32) (harg3 : arg3.IsWhole) (hc0 : ¬cond0_0 i) (hc1 : cond0_1 i)
    (x0 : Vec F S8192x1 .i32) (xs0 : Vec F S1x512 .f32) :
    out0_C_1 c i arg1 harg1 arg2 harg2 arg3 harg3 hc0 hc1 x0 xs0 = k0_pay2 x0 xs0 := by
  unfold out0_C_1
  rw [View.read_writes_eq_canon _ _ _ (cover0_C_1 c i arg1 harg1 arg2 harg2 arg3 harg3 hc0 hc1 x0 xs0)]
  unfold kernelRun0_C
  dsimp only
  sl_unfold_words
  rw [View.canon_unit_zero hz0]
  simp only [View.readAt_eq_ld, harg1.read_unread, harg3.read_unread, View.readCov_unit_zero (S := S1x512) _ hz0, View.ld_unit_zero (S := S8192x1) hz0, View.ld_unit_zero (S := S1x512) hz0]

/-! ## The accumulator point by point -/

/-- The accumulator after the first point: the first tile's column sums added to the zero vector the body stores first. -/
theorem acc_zero (c : Dev nD) (h : 0 < cfg0.N) :
    (outsAt0 V c 0 h).2 = k0_pay2 (iblk0 V c 0 ⟨0, h⟩) (k0_pay1 (F := F)) := by
  have e : outsAt0 V c 0 h = _ := outsAt0_A V c ⟨0, h⟩ rfl (by decide : ¬(0 : ℕ) = 127)
  rw [e]; dsimp only
  exact sout0_A_0_eq c (grid0.coords ⟨0, h⟩) (ms0_0 ⟨0, h⟩) (hs0_0 ⟨0, h⟩) (ms0_1 ⟨0, h⟩) (hs0_1 ⟨0, h⟩) scM0_0 (Memref.isWhole_whole _) _ _ (iblk0 V c 0 ⟨0, h⟩)

/-- The accumulator after a later point: that tile's column sums added to what the point before left. -/
theorem acc_succ (c : Dev nD) (n : ℕ) (h : n + 1 < cfg0.N) :
    (outsAt0 V c (n + 1) h).2 = k0_pay2 (iblk0 V c 0 ⟨n + 1, h⟩) (outsAt0 V c n (Nat.lt_of_succ_lt h)).2 := by
  by_cases h1 : n + 1 = 127
  · have e : outsAt0 V c (n + 1) h = _ := outsAt0_C V c ⟨n + 1, h⟩ (Nat.succ_ne_zero n) h1
    rw [e]; dsimp only
    exact sout0_C_0_eq c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) _ _ (iblk0 V c 0 ⟨n + 1, h⟩) (outsAt0 V c n (Nat.lt_of_succ_lt h)).2
  · have e : outsAt0 V c (n + 1) h = _ := outsAt0_B V c ⟨n + 1, h⟩ (Nat.succ_ne_zero n) h1
    rw [e]; dsimp only
    exact sout0_B_0_eq c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) _ _ (iblk0 V c 0 ⟨n + 1, h⟩) (outsAt0 V c n (Nat.lt_of_succ_lt h)).2

/-- At the last point the body copies the accumulator it has just updated into the output block. -/
theorem out_last (c : Dev nD) (h : 127 < cfg0.N) : (outsAt0 V c 127 h).1 = (outsAt0 V c 127 h).2 := by
  have e : outsAt0 V c 127 h = _ := outsAt0_C V c ⟨127, h⟩ (by decide : ¬(127 : ℕ) = 0) rfl
  rw [e]; dsimp only
  exact (out0_C_1_eq c (grid0.coords ⟨127, h⟩) (ms0_0 ⟨127, h⟩) (hs0_0 ⟨127, h⟩) (ms0_1 ⟨127, h⟩) (hs0_1 ⟨127, h⟩) scM0_0 (Memref.isWhole_whole _) _ _ (iblk0 V c 0 ⟨127, h⟩) _).trans
    (sout0_C_0_eq c (grid0.coords ⟨127, h⟩) (ms0_0 ⟨127, h⟩) (hs0_0 ⟨127, h⟩) (ms0_1 ⟨127, h⟩) (hs0_1 ⟨127, h⟩) scM0_0 (Memref.isWhole_whole _) _ _ (iblk0 V c 0 ⟨127, h⟩) _).symm

end Cert.KernelIdeal.Hand

end
-- ==== Proof.CeFrame.lean ====
/-
  The cross-entropy region (the program's second kernel call), at any float instance: what its body leaves in the output block at a grid point, the pipeline's proof data at the contents the region is entered with, and the body obligation.
-/
import proofs.«400365_j6073083757069_2_alg».proof.Proof.Gen.KernelIdeal.Launch
import proofs.«400365_j6073083757069_2_alg».proof.Proof.Gen.KernelIdeal.Skeleton
import proofs.«400365_j6073083757069_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is made at this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The score window's current staging buffer holds its block at every point, for any proof data whose array is the
    entry contents and whose body leaves the block in place: where the window is not fetched its block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the label window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

/-- The whole block of scores. -/
abbrev rScore : Rect S8192x128 := Rect.unit (s := S8192x128) ![0, 0] S8192x128.size inb_S8192x128_S8192x128_0_0
/-- The whole column of an 8192 by 1 block (the labels' and the output's). -/
abbrev rCol : Rect S8192x1 := Rect.unit (s := S8192x1) ![0, 0] S8192x1.size inb_S8192x1_S8192x1_0_0

/-- What the body leaves in the output block from the block of scores and the block of labels. -/
def out1_2 (x0 : Vec F S8192x128 .f32) (x1 : Vec F S8192x1 .i32) : Vec F S8192x1 .f32 :=
  View.canon [⟨rCol, k1_pay1 (View.ld x0 rScore) (View.ld x1 rCol)⟩]

/-- The one store tiles the output block, so it covers it. -/
theorem cover1_2 (p0 : Vec F S8192x1 .f32) (y : S8192x1.Idx) :
    ∃ pc ∈ ([⟨rCol, p0⟩] : List (View.Piece (Elt F) S8192x1 .f32)), y ∈ pc.1.set :=
  View.cover_of_tiled [⟨rCol, p0⟩] S8192x1.size (by rfl) y

/-- The body's one store covers the block, so the block holds the payload. -/
theorem out1_2_eq (x0 : Vec F S8192x128 .f32) (x1 : Vec F S8192x1 .i32) : out1_2 x0 x1 = k1_pay1 x0 x1 := by
  have hz : (![0, 0] : Fin 2 → ℕ) = fun _ => 0 := by funext a; fin_cases a <;> rfl
  unfold out1_2
  rw [View.canon_unit_zero hz]
  simp only [View.ld_unit_zero (S := S8192x128) hz, View.ld_unit_zero (S := S8192x1) hz]

/-! ## The body's triple -/

set_option maxHeartbeats 1000000 in
/-- The kernel body on whole staging memrefs, the two inputs' at contents `x0`, `x1` and the output's at anything, runs
    to the continuation holding the inputs' as they were and the output's at `out1_2 x0 x1`. -/
theorem sound_kernel1 (c : Dev nD) (E : Set ℕ) (i : grid1.Coords)
    (arg1 : Memref sig .tc .vmem S8192x128 .f32) (harg1 : arg1.IsWhole)
    (arg2 : Memref sig .tc .vmem S8192x1 .i32) (harg2 : arg2.IsWhole)
    (arg3 : Memref sig .tc .vmem S8192x1 .f32) (harg3 : arg3.IsWhole)
    (x0 : Vec F S8192x128 .f32) (x1 : Vec F S8192x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__ce_kernel i arg1 harg1 arg2 harg2 arg3 harg3) K := by
  simp only [cc1__ce_kernel_eq_skeleton]; unfold cc1__ce_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program as a run: the buffer contents at every boundary between a stretch of host operations and a kernel
  region, folded from the launch memory; every pipeline's proof data at its region's entry contents; each region as a
  segment entered from one boundary's contents and left at the next one's; and the launch: every weakly fair execution
  terminates and every unscoped buffer ends at the last boundary's contents. Nothing here depends on the float
  instance.
-/
import proofs.«400365_j6073083757069_2_alg».proof.Proof.HistFrame
import proofs.«400365_j6073083757069_2_alg».proof.Proof.CeFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first stretch of host operations (the histogram region's entry). -/
abbrev W1 : Dev nD → Valuation τ sig (Elt F) := fun c => StableHlo.after hostOps0 (W0 m c)
/-- The same read at the core's references. -/
abbrev V1 : (c : Dev nD) → (b : Ref sig .tc) → Buf (Elt F) ((c : Thread nD τ).loc b) := fun c b => W1 m c b
/-- At the histogram region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the cross-entropy region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the cross-entropy region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch: the contents the program ends with. -/
abbrev W5 : Dev nD → Valuation τ sig (Elt F) := fun c => StableHlo.after hostOps2 (W4 m c)

/-! ## The proof data family and what rides beside the buffers -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What rides beside the buffers ends owing nothing. -/
theorem R_dues (c : Dev nD) : (R (F := F) c) ⊢ (iprop(∃ W, owes (c : Thread nD τ) (0 : CellTallies nD τ sig Unit) W) : sProp 𝕄) := by
  iintro ⟨-, HO⟩
  iexact HO
/-- The last thread state without the dues: every unscoped buffer at the final contents. -/
abbrev Tₙ (c : Dev nD) : sProp 𝕄 := StableHlo.held (c : Thread nD τ) (Pipeline.ucRefs τ sig) (W5 m c)

/-! ## The regions as segments -/

set_option backward.isDefEq.respectTransparency.types false in
/-- The histogram region: entered from every unscoped buffer at `W1`, left at `W2`; its arrays split out of the unscoped
    buffers and put back at the exit contents; the generator register and the scoped rest into the invariant before the
    first point and out of the invariant after the last; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    have h := hout0 (V1 m) c
    unfold Pipeline.ΦA at h
    rw [Pipeline.ownSems0_none, show (pdats m 0 c).Φ (Fin.last _) = (dat0 (V1 m) c).Φ (Fin.last cfg0.N) from rfl]
    iintro Hphi
    ihave Hq := h $$ Hphi
    icases Hq with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The cross-entropy region: entered from every unscoped buffer at `W3`, left at `W4`; the class's invariant throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and in
    every final state every unscoped buffer of every core holds the final contents `W5`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => sep_mono .rfl (R_dues c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      show iprop(StableHlo.held (c : Thread nD τ) (Pipeline.ucRefs τ sig) (W5 m c) ∗ SI s') ⊢ _
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h => h)

end Cert.KernelIdeal.Hand

end
-- ==== Proof.KerTail.lean ====
/-
  The kernel program's host steps around its two regions, read off the boundary contents: the group words the first
  stretch computes from the labels and the subgroups, the label column the second stretch lays out for the
  cross-entropy region, and the closing stretch — each sample's cross-entropy over the count its group word selects,
  summed over the samples — as one function of the two regions' output arrays and the group words. Nothing here
  depends on the float instance.
-/
import proofs.«400365_j6073083757069_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]
open Facts₀ Facts

/-- A sample's group word: four times its label plus its subgroup. -/
def gidOfK (t s : IVec S1048576 32) : IVec S1048576 32 :=
  addi (muli t (broadcastInDim S1048576 ![] Facts₀.bcast_S_S1048576 (constantI S_ 32 4#32))) s

/-- The group word as a row index into the 512 counts: 512 added when it is negative. -/
def gidIdxK (g : IVec S1048576 32) : IVec S1048576x1 32 :=
  broadcastInDim S1048576x1 ![0] Facts₀.bcast_S1048576_S1048576x1_0
    (select (cmpi .slt g (broadcastInDim S1048576 ![] Facts₀.bcast_S_S1048576 (constantI S_ 32 0#32)))
      (addi g (broadcastInDim S1048576 ![] Facts₀.bcast_S_S1048576 (constantI S_ 32 512#32))) g)

/-- The closing steps: each sample's value over the count its group word selects, summed over the samples. -/
def tailOfK (ce : FVec F S1048576 .f32) (cnt : FVec F S512 .f32) (g : IVec S1048576 32) : FVec F S_ .f32 :=
  Host.reduceAdd (Host.divf ce (Host.gather Cert.KernelIdeal.gather_S512_S1048576x1_S1048576_n_0_n_n_0_1_1 cnt (gidIdxK g)))
    (constant S_ .f32 0x00000000#32) Facts₀.reducesTo_S1048576_S_d0 Facts₀.h_S_

variable (m : (ℓ : Loc nD τ sig) → Buf (Elt F) ℓ)

/-! ## The first stretch -/

theorem W1_arg0 (c : Dev nD) : W1 m c (Proc.devRef .tc main_arg0) = m ((c : Thread nD τ).loc main_arg0) := by
  show StableHlo.after hostOps0 (W0 m c) (Proc.devRef .tc main_arg0) = _
  after_results
theorem W1_arg1 (c : Dev nD) : W1 m c (Proc.devRef .tc main_arg1) = m ((c : Thread nD τ).loc main_arg1) := by
  show StableHlo.after hostOps0 (W0 m c) (Proc.devRef .tc main_arg1) = _
  after_results
theorem W1_arg2 (c : Dev nD) : W1 m c (Proc.devRef .tc main_arg2) = m ((c : Thread nD τ).loc main_arg2) := by
  show StableHlo.after hostOps0 (W0 m c) (Proc.devRef .tc main_arg2) = _
  after_results
/-- The group words. -/
theorem W1_v2 (c : Dev nD) : (W1 m c (Proc.devRef .tc main_v2) : IVec S1048576 32)
    = gidOfK (m ((c : Thread nD τ).loc main_arg1)) (m ((c : Thread nD τ).loc main_arg2)) := by
  show StableHlo.after hostOps0 (W0 m c) (Proc.devRef .tc main_v2) = _
  after_results; rfl
/-- The group words as a column: the histogram region's input array. -/
theorem W1_v3 (c : Dev nD) : (W1 m c (Proc.devRef .tc main_v3) : IVec S1048576x1 32)
    = shapeCast S1048576x1 (gidOfK (m ((c : Thread nD τ).loc main_arg1)) (m ((c : Thread nD τ).loc main_arg2))) Facts₀.shapeCasts_S1048576_S1048576x1 := by
  show StableHlo.after hostOps0 (W0 m c) (Proc.devRef .tc main_v3) = _
  after_results; rfl

/-! ## The second stretch -/

theorem W3_arg0 (c : Dev nD) : W3 m c (Proc.devRef .tc main_arg0) = m ((c : Thread nD τ).loc main_arg0) := by
  show StableHlo.after hostOps1 (W2 m c) (Proc.devRef .tc main_arg0) = _
  after_results
  exact (W2_of_ne m c main_arg0 (by decide)).trans (W1_arg0 m c)
/-- The labels as a column: the cross-entropy region's second input array. -/
theorem W3_v6 (c : Dev nD) : (W3 m c (Proc.devRef .tc main_v6) : IVec S1048576x1 32)
    = shapeCast S1048576x1 (m ((c : Thread nD τ).loc main_arg1) : IVec S1048576 32) Facts₀.shapeCasts_S1048576_S1048576x1 := by
  show StableHlo.after hostOps1 (W2 m c) (Proc.devRef .tc main_v6) = _
  after_results
  rw [show W2 m c (Proc.devRef .tc main_arg1) = m ((c : Thread nD τ).loc main_arg1) from
    (W2_of_ne m c main_arg1 (by decide)).trans (W1_arg1 m c)]
  rfl
/-- The 512 counts as a vector: the histogram region's output array, re-laid. -/
theorem W3_v5 (c : Dev nD) : (W3 m c (Proc.devRef .tc main_v5) : FVec F S512 .f32)
    = shapeCast S512 ((dat0 (V1 m) c).arrAt 1 cfg0.N : FVec F S1x512 .f32) Facts₀.shapeCasts_S1x512_S512 := by
  show StableHlo.after hostOps1 (W2 m c) (Proc.devRef .tc main_v5) = _
  after_results
  rw [show W2 m c (Proc.devRef .tc main_v4) = (dat0 (V1 m) c).arrAt 1 cfg0.N from W2_arr m c 1]
  rfl
theorem W3_v2 (c : Dev nD) : (W3 m c (Proc.devRef .tc main_v2) : IVec S1048576 32)
    = gidOfK (m ((c : Thread nD τ).loc main_arg1)) (m ((c : Thread nD τ).loc main_arg2)) := by
  show StableHlo.after hostOps1 (W2 m c) (Proc.devRef .tc main_v2) = _
  after_results
  exact (W2_of_ne m c main_v2 (by decide)).trans (W1_v2 m c)

/-! ## The closing stretch -/

theorem W4_v7 (c : Dev nD) : W4 m c (Proc.devRef .tc main_v7) = (dat1 (V3 m) c).arrAt 2 cfg1.N := W4_arr m c 2
theorem W4_v5 (c : Dev nD) : (W4 m c (Proc.devRef .tc main_v5) : FVec F S512 .f32)
    = shapeCast S512 ((dat0 (V1 m) c).arrAt 1 cfg0.N : FVec F S1x512 .f32) Facts₀.shapeCasts_S1x512_S512 :=
  (W4_of_ne m c main_v5 (by decide)).trans (W3_v5 m c)
theorem W4_v2 (c : Dev nD) : (W4 m c (Proc.devRef .tc main_v2) : IVec S1048576 32)
    = gidOfK (m ((c : Thread nD τ).loc main_arg1)) (m ((c : Thread nD τ).loc main_arg2)) :=
  (W4_of_ne m c main_v2 (by decide)).trans (W3_v2 m c)

/-- The closing stretch from ANY contents: the result buffer ends at the closing steps applied to the cross-entropy
    column re-laid as a vector, the counts and the group words it finds. -/
theorem tail_of (W : Valuation τ sig (Elt F)) :
    (StableHlo.after hostOps2 W (Proc.devRef .tc main_v17) : FVec F S_ .f32)
      = tailOfK (shapeCast S1048576 (W (Proc.devRef .tc main_v7) : FVec F S1048576x1 .f32) Facts₀.shapeCasts_S1048576x1_S1048576)
          (W (Proc.devRef .tc main_v5)) (W (Proc.devRef .tc main_v2)) := by
  after_results
  rfl

/-- The result: the closing steps applied to the cross-entropy region's output array, re-laid as a vector, the counts
    and the group words. -/
theorem W5_v17 (c : Dev nD) : (W5 m c (Proc.devRef .tc main_v17) : FVec F S_ .f32)
    = tailOfK (shapeCast S1048576 ((dat1 (V3 m) c).arrAt 2 cfg1.N : FVec F S1048576x1 .f32) Facts₀.shapeCasts_S1048576x1_S1048576)
        (shapeCast S512 ((dat0 (V1 m) c).arrAt 1 cfg0.N : FVec F S1x512 .f32) Facts₀.shapeCasts_S1x512_S512)
        (gidOfK (m ((c : Thread nD τ).loc main_arg1)) (m ((c : Thread nD τ).loc main_arg2))) := by
  show StableHlo.after hostOps2 (W4 m c) (Proc.devRef .tc main_v17) = _
  rw [tail_of, W4_v7, W4_v5, W4_v2]

/-- No stretch and no region writes an argument. -/
theorem W5_arg0 (c : Dev nD) : W5 m c (Proc.devRef .tc main_arg0) = m ((c : Thread nD τ).loc main_arg0) := by
  show StableHlo.after hostOps2 (W4 m c) (Proc.devRef .tc main_arg0) = _
  after_results
  exact (W4_arr m c 0).trans (((dat1 (V3 m) c).arrAt_in 0 rfl _).trans ((A_eq1 (V3 m) c 0).trans (W3_arg0 m c)))
theorem W5_arg1 (c : Dev nD) : W5 m c (Proc.devRef .tc main_arg1) = m ((c : Thread nD τ).loc main_arg1) := by
  show StableHlo.after hostOps2 (W4 m c) (Proc.devRef .tc main_arg1) = _
  after_results
  refine (W4_of_ne m c main_arg1 (by decide)).trans ?_
  show StableHlo.after hostOps1 (W2 m c) (Proc.devRef .tc main_arg1) = _
  after_results
  exact (W2_of_ne m c main_arg1 (by decide)).trans (W1_arg1 m c)
theorem W5_arg2 (c : Dev nD) : W5 m c (Proc.devRef .tc main_arg2) = m ((c : Thread nD τ).loc main_arg2) := by
  show StableHlo.after hostOps2 (W4 m c) (Proc.devRef .tc main_arg2) = _
  after_results
  refine (W4_of_ne m c main_arg2 (by decide)).trans ?_
  show StableHlo.after hostOps1 (W2 m c) (Proc.devRef .tc main_arg2) = _
  after_results
  exact (W2_of_ne m c main_arg2 (by decide)).trans (W1_arg2 m c)

end Cert.KernelIdeal.Hand

end
-- ==== Proof.LibRowSoftmax.lean ====
/-
  Row softmax on the extended reals, free of any program: normalising by a product with the reciprocal of the
  denominator against normalising by a quotient.

  For a row of scores `s : ι → EReal` the row maximum is the fold of `max` from −∞, each entry is shifted by it and
  exponentiated (`Ideal.exp`), and the row's denominator is the sum of those exponentials.  A weight is then either the
  exponential TIMES `Ideal.div 1` of the denominator (`wMul`), or `Ideal.div` of the exponential BY the denominator
  (`wDiv`).  The two agree as soon as the denominator is not zero (`wMul_eq_wDiv`; at a zero denominator and a zero
  numerator the first is `0 · ⊤ = 0` and the second the junk value `⊥`).  For a nonempty row of real scores the maximum
  is real (`rowMax_real`), every shifted score is real, every exponential is a positive real, so the denominator is
  positive (`rowDen_ne_zero`).  Also: a finite sum of coerced reals is the coerced real sum (`coe_sum`), and an array
  with no infinite entry is the coercion of a real array (`exists_real`).
-/
import Idealize.ShloMosaic.PureOps.Ideal.Laws

noncomputable section

namespace Cert.Attn

open Idealize.ShloMosaic

/-! ## A row -/

variable {ι : Type} [Fintype ι]

/-- The row's maximum, folded from −∞. -/
def rowMax (s : ι → EReal) : EReal := (Finset.univ : Finset ι).fold max ⊥ s

/-- An entry's exponential after the shift by the row's maximum. -/
def rowExp (s : ι → EReal) (j : ι) : EReal := Ideal.exp (s j - rowMax s)

/-- The row's denominator. -/
def rowDen (s : ι → EReal) : EReal := ∑ j, rowExp s j

/-- A weight, normalised by a PRODUCT with the denominator's reciprocal. -/
def wMul (s : ι → EReal) (j : ι) : EReal := rowExp s j * Ideal.div 1 (rowDen s)

/-- A weight, normalised by a QUOTIENT by the denominator. -/
def wDiv (s : ι → EReal) (j : ι) : EReal := Ideal.div (rowExp s j) (rowDen s)

/-- The exponential is never negative. -/
theorem exp_nonneg (x : EReal) : 0 ≤ Ideal.exp x := by
  induction x using EReal.rec with
  | bot => exact le_of_eq rfl
  | coe r => rw [Ideal.exp_coe]; exact_mod_cast (Real.exp_pos r).le
  | top => exact le_top

/-- Off a zero denominator the two normalisations are one number. -/
theorem wMul_eq_wDiv (s : ι → EReal) (j : ι) (h : rowDen s ≠ 0) : wMul s j = wDiv s j := by
  unfold wMul wDiv
  rw [Ideal.div, if_neg h, Ideal.div, if_neg h, one_mul]

/-- A nonempty row of real scores has a real maximum. -/
theorem rowMax_real [Nonempty ι] (s : ι → EReal) (hs : ∀ j, s j ≠ ⊥ ∧ s j ≠ ⊤) :
    rowMax s ≠ ⊤ ∧ rowMax s ≠ ⊥ := by
  constructor
  · refine ne_of_lt ?_
    unfold rowMax
    rw [Finset.fold_max_lt]
    exact ⟨bot_lt_top, fun j _ => lt_top_iff_ne_top.mpr (hs j).2⟩
  · refine ne_of_gt ?_
    unfold rowMax
    rw [Finset.lt_fold_max]
    obtain ⟨j0⟩ := ‹Nonempty ι›
    exact Or.inr ⟨j0, Finset.mem_univ _, bot_lt_iff_ne_bot.mpr (hs j0).1⟩

/-- A nonempty row of real scores has a positive denominator: every exponential is nonnegative and each is the
    exponential of a real number. -/
theorem rowDen_ne_zero [Nonempty ι] (s : ι → EReal) (hs : ∀ j, s j ≠ ⊥ ∧ s j ≠ ⊤) : rowDen s ≠ 0 := by
  obtain ⟨hM1, hM2⟩ := rowMax_real s hs
  obtain ⟨j0⟩ := ‹Nonempty ι›
  refine ne_of_gt (lt_of_lt_of_le ?_ (Finset.single_le_sum (f := rowExp s) (fun j _ => exp_nonneg _) (Finset.mem_univ j0)))
  unfold rowExp
  generalize rowMax s = M at hM1 hM2
  obtain ⟨h1, h2⟩ := hs j0
  generalize s j0 = x at h1 h2
  lift M to ℝ using ⟨hM1, hM2⟩
  lift x to ℝ using ⟨h2, h1⟩
  rw [← EReal.coe_sub, Ideal.exp_coe]
  exact_mod_cast Real.exp_pos _

/-- A finite sum of real numbers, taken in the extended reals, is the real sum. -/
theorem coe_sum {κ : Type} (s : Finset κ) (f : κ → ℝ) : (∑ d ∈ s, (f d : EReal)) = ((∑ d ∈ s, f d : ℝ) : EReal) := by
  classical
  refine Finset.induction_on s ?_ ?_
  · simp
  · intro a s ha ih
    rw [Finset.sum_insert ha, Finset.sum_insert ha, ih, EReal.coe_add]

/-- An array of real numbers is the coercion of a real array. -/
theorem exists_real {κ : Type} (f : κ → EReal) (hf : ∀ i, f i ≠ ⊥ ∧ f i ≠ ⊤) : ∃ g : κ → ℝ, ∀ i, f i = (g i : EReal) :=
  ⟨fun i => (f i).toReal, fun i => (EReal.coe_toReal (hf i).2 (hf i).1).symm⟩

end Cert.Attn

end
-- ==== Proof.Spec.lean ====
/-
  What both programs compute, free of any program.

  A sample is a row of 128 real scores and a label word. Its cross-entropy is the row's maximum plus the logarithm of
  the sum of the exponentials of the scores shifted by that maximum, minus the score at the label: the sum over the
  128 classes of the score where the class is the label and of zero elsewhere, so a label that names no class
  subtracts nothing. A group word is a 32-bit word per sample; the count of group `g` is the number of samples whose
  word, read signed, is `g`, taken in the extended reals as a sum of ones.
-/
import Idealize.ShloMosaic.PureOps.Ideal.Laws
import Idealize.ShloMosaic.Lib.ValueIdx
import proofs.«400365_j6073083757069_2_alg».proof.Proof.LibRowSoftmax

noncomputable section

namespace Cert.Proof.Spec

open Idealize.ShloMosaic Idealize.ShloMosaic.ValueIdx Cert.Attn

/-- The score a label word selects from a row: the one-hot sum over the 128 classes. -/
def picked (s : Fin 128 → EReal) (t : BitVec 32) : EReal :=
  ∑ c : Fin 128, if BitVec.ofNat 32 c.val = t then s c else 0

/-- One sample's cross-entropy from its row of scores and its label word. -/
def ceOf (s : Fin 128 → EReal) (t : BitVec 32) : EReal :=
  (rowMax s + Ideal.log (rowDen s)) - picked s t

/-- How many samples carry the group word `g`, as an extended real. -/
def cntOf (gid : Fin 1048576 → BitVec 32) (g : Fin 512) : EReal :=
  ∑ _n ∈ Finset.univ.filter (fun n : Fin 1048576 => (gid n).toInt = (g.val : Int)), (1 : EReal)

end Cert.Proof.Spec

end
-- ==== Proof.CeKernel.lean ====
/-
  The cross-entropy kernel on the extended reals: what its body computes at a row of a block is the specification's
  cross-entropy of that row, and the array the region leaves is the specification's column.
-/
import proofs.«400365_j6073083757069_2_alg».proof.Proof.CeFrame
import proofs.«400365_j6073083757069_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)

/-! ## Layout operations of a column, read at an index -/

/-- A vector of length `a` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions of a block of scores, read at a row -/

/-- The index a lane reduction inserts at row `r` and lane `k` is `(r, k)`. -/
theorem lift_row (r : Fin 8192) (k : Fin 128) :
    (reduces_S8192x128_S8192).lift (ix1 r) k = (ix2 r k : S8192x128.Idx) :=
  funext fun a => match a with
    | ⟨0, _⟩ => Fin.ext rfl
    | ⟨1, _⟩ => Fin.ext rfl

/-- The bit pattern of negative infinity denotes the bottom of the extended reals. -/
theorem ofBits_neg_inf_f32 : Ideal.ofBits .f32 0xFF800000#32 = (⊥ : EReal) := by simp [Ideal.ofBits, Ideal.ieee]

/-- The lane maximum of a block at row `r` is the maximum of that row. -/
theorem laneMax_apply (src : FVec Ideal S8192x128 .f32) (hφ : FTy.f32 = FTy.f32 ∨ FTy.f32 = FTy.bf16)
    (hacc : (0xFF800000#32 : BitVec 32) = 0xFF800000#32) (r : Fin 8192) :
    multiReduction (F := Ideal) .maximumf [1] S8192 src 0xFF800000#32 reduces_S8192x128_S8192 hφ hacc (ix1 r)
      = Cert.Attn.rowMax (fun k : Fin 128 => src (ix2 r k)) := by
  refine (Ideal.multiReduction_maximumf_single src 0xFF800000#32 reduces_S8192x128_S8192 hφ hacc (ix1 r)).trans ?_
  unfold Cert.Attn.rowMax
  show (Finset.univ : Finset (Fin 128)).fold max (Ideal.ofBits .f32 0xFF800000#32) (fun k : Fin 128 => src ((reduces_S8192x128_S8192).lift (ix1 r) k)) = _
  rw [ofBits_neg_inf_f32]
  exact congrArg (fun f : Fin 128 → EReal => (Finset.univ : Finset (Fin 128)).fold max (⊥ : EReal) f) (funext fun k => congrArg src (lift_row r k))

/-- The lane sum of a block at row `r` is the sum of that row. -/
theorem laneSum_apply (src : FVec Ideal S8192x128 .f32) (hφ : FTy.f32 = FTy.f32 ∨ FTy.f32 = FTy.bf16)
    (hacc : (0x00000000#32 : BitVec 32) = 0x00000000#32) (r : Fin 8192) :
    multiReduction (F := Ideal) .add [1] S8192 src 0x00000000#32 reduces_S8192x128_S8192 hφ hacc (ix1 r)
      = ∑ k : Fin 128, src (ix2 r k) := by
  refine (Ideal.multiReduction_add_single src 0x00000000#32 reduces_S8192x128_S8192 hφ hacc (ix1 r)).trans ?_
  show ∑ k : Fin 128, src ((reduces_S8192x128_S8192).lift (ix1 r) k) = _
  exact Finset.sum_congr rfl fun k _ => congrArg src (lift_row r k)

/-- The lane number at `(r, c)` is the word of `c`. -/
theorem laneIota_apply (r : Fin 8192) (c : Fin 128) :
    iota .tc S8192x128 32 [1] iota_S8192x128_d1_w32 (ix2 r c) = BitVec.ofNat 32 c.val :=
  iota_single_apply .tc S8192x128 32 1 iota_S8192x128_d1_w32 (ix2 r c)

/-- A word comparison for equality, as a select's condition, is the equality. -/
theorem select_cmpi_eq {α : Type} (a b : BitVec 32) (x y : α) :
    Scalar.select (IntOp.cmpi .eq a b) x y = if a = b then x else y := by
  by_cases h : a = b
  · have hc : IntOp.cmpi .eq a b = 1#1 := by subst h; simp [IntOp.cmpi]
    rw [hc, select_one, if_pos h]
  · have hb : (a == b) = false := beq_eq_false_iff_ne.mpr h
    have hc : IntOp.cmpi .eq a b = 0#1 := by
      show BitVec.ofBool (a == b) = 0#1
      rw [hb]; rfl
    rw [hc, select_zero, if_neg h]

/-! ## Pointwise operations read at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : ℕ} (p : CmpIPredicate) (a b : IVec s w) (i : s.Idx) : cmpi p a b i = IntOp.cmpi p (a i) (b i) := rfl

/-! ## The pieces of the body's payload, read at a row -/

/-- The column of lane maxima at row `r`. -/
theorem maxCol_apply (x0 : FVec Ideal S8192x128 .f32) (hφ : FTy.f32 = FTy.f32 ∨ FTy.f32 = FTy.bf16)
    (hacc : (0xFF800000#32 : BitVec 32) = 0xFF800000#32) (hc : S8192.ShapeCasts S8192x1) (r : Fin 8192) (u : Fin 1) :
    shapeCast S8192x1 (multiReduction (F := Ideal) .maximumf [1] S8192 x0 0xFF800000#32 reduces_S8192x128_S8192 hφ hacc) hc (ix2 r u)
      = Cert.Attn.rowMax (fun k : Fin 128 => x0 (ix2 r k)) :=
  (shapeCast_a_a1_apply _ hc r u).trans (laneMax_apply x0 hφ hacc r)

/-- The column of lane sums at row `r`. -/
theorem sumCol_apply (x0 : FVec Ideal S8192x128 .f32) (hφ : FTy.f32 = FTy.f32 ∨ FTy.f32 = FTy.bf16)
    (hacc : (0x00000000#32 : BitVec 32) = 0x00000000#32) (hc : S8192.ShapeCasts S8192x1) (r : Fin 8192) (u : Fin 1) :
    shapeCast S8192x1 (multiReduction (F := Ideal) .add [1] S8192 x0 0x00000000#32 reduces_S8192x128_S8192 hφ hacc) hc (ix2 r u)
      = ∑ k : Fin 128, x0 (ix2 r k) :=
  (shapeCast_a_a1_apply _ hc r u).trans (laneSum_apply x0 hφ hacc r)

/-- A score shifted by a column's entry of its row, exponentiated. -/
theorem expShift_apply (x0 : FVec Ideal S8192x128 .f32) (m : FVec Ideal S8192x1 .f32) (hb : S8192x1.Broadcasts S8192x128)
    (r : Fin 8192) (k : Fin 128) :
    exp (subf x0 (broadcastTo S8192x128 m hb)) (ix2 r k) = Ideal.exp (x0 (ix2 r k) - m (ix2 r (0 : Fin 1))) := by
  show Ideal.exp (x0 (ix2 r k) - broadcastTo S8192x128 m hb (ix2 r k)) = _
  rw [broadcastTo_a1_ab_apply]

/-- The score kept where the lane is the row's label, zero elsewhere. -/
theorem oneHot_apply (x0 : FVec Ideal S8192x128 .f32) (x1 : IVec S8192x1 32) (hs : S8192x1.ShapeCasts S8192x1)
    (hb : S8192x1.Broadcasts S8192x128) (r : Fin 8192) (k : Fin 128) :
    select (cmpi .eq (iota .tc S8192x128 32 [1] iota_S8192x128_d1_w32) (broadcastTo S8192x128 (shapeCast S8192x1 x1 hs) hb))
        x0 (broadcast S8192x128 (Scalar.ofBits (F := Ideal) .f32 0x00000000#32)) (ix2 r k)
      = if BitVec.ofNat 32 k.val = x1 (ix2 r (0 : Fin 1)) then x0 (ix2 r k) else 0 := by
  show Scalar.select (IntOp.cmpi .eq (iota .tc S8192x128 32 [1] iota_S8192x128_d1_w32 (ix2 r k))
      (broadcastTo S8192x128 (shapeCast S8192x1 x1 hs) hb (ix2 r k))) (x0 (ix2 r k)) (Ideal.ofBits .f32 0x00000000#32) = _
  rw [laneIota_apply, broadcastTo_a1_ab_apply, shapeCast_self, select_cmpi_eq, Ideal.ofBits_zero_f32]

/-- The body's payload at row `r` of a block is the cross-entropy of that row of scores at that row's label: the row's
    maximum, plus the logarithm of the sum of the exponentials of the scores shifted by it, minus the one-hot sum. -/
theorem k1_pay1_apply (x0 : Vec Ideal S8192x128 .f32) (x1 : Vec Ideal S8192x1 .i32) (r : Fin 8192) :
    k1_pay1 (F := Ideal) x0 x1 (ix2 r (0 : Fin 1))
      = Cert.Proof.Spec.ceOf (fun k : Fin 128 => x0 (ix2 r k)) (x1 (ix2 r (0 : Fin 1))) := by
  unfold k1_pay1
  rw [subf_apply, addf_apply, log_apply]
  rw [maxCol_apply, sumCol_apply, sumCol_apply]
  unfold Cert.Proof.Spec.ceOf Cert.Proof.Spec.picked Cert.Attn.rowDen Cert.Attn.rowExp
  refine congrArg₂ (fun a b : EReal => a - b)
    (congrArg (fun z : EReal => Cert.Attn.rowMax (fun k : Fin 128 => x0 (ix2 r k)) + Ideal.log z)
      (Finset.sum_congr rfl fun k _ => ?_))
    (Finset.sum_congr rfl fun k _ => ?_)
  · exact (expShift_apply x0 _ _ r k).trans (by rw [maxCol_apply])
  · exact oneHot_apply x0 x1 _ _ r k

/-! ## From the blocks to the array -/

-- the core's buffer contents when the region is entered, on the extended reals
variable (V : (c : Dev nD) → (b : Ref sig .tc) → Buf (Elt Ideal) ((c : Thread nD τ).loc b))

/-- The specification's column from the whole array of scores and the whole array of labels: at row `n` the
    cross-entropy of row `n` of the scores at label `n`. -/
def ceCol (a0 : S1048576x128.Idx → EReal) (a1 : S1048576x1.Idx → BitVec 32) : S1048576x1.Idx → EReal :=
  fun i => Cert.Proof.Spec.ceOf (fun k : Fin 128 => a0 (ix2 (⟨(i 0).val, idx2_lt0 i⟩ : Fin 1048576) k))
    (a1 (ix2 (⟨(i 0).val, idx2_lt0 i⟩ : Fin 1048576) (0 : Fin 1)))

theorem zero_offsets : (![0, 0] : Fin 2 → Nat) = fun _ => 0 := funext fun a => by fin_cases a <;> rfl

/-- The three windows move together: at point `t` each is at block row `t`, block column 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the specification's column of the arrays as the region finds them. -/
theorem flushed_eq_ceCol (c : Dev nD) (t : Fin cfg1.N) :
    (dat1 V c).flushed 2 t = ((cfg1.win 2).blk t).view.read (Elt Ideal) (ceCol (V c main_arg0) (V c main_v6)) := by
  show (cfg1.win 2).cut (grid1.coords t) ((dat1 V c).after 2 t) = _
  rw [after1_2, out1_2_eq]
  obtain ⟨e00, e01, e10, e11, e20, e21⟩ := index_facts t
  funext j
  obtain ⟨p, q, rfl⟩ : ∃ (p : Fin 8192) (q : Fin 1), j = ix2 p q := ⟨j 0, j 1, eq_ix2 j⟩
  obtain rfl : q = 0 := Subsingleton.elim _ _
  show k1_pay1 (F := Ideal) (iblk1 V c 0 t) (iblk1 V c 1 t) (ix2 p (0 : Fin 1))
    = ceCol (V c main_arg0) (V c main_v6) (((cfg1.win 2).blk t).view.emb (ix2 p (0 : Fin 1)))
  refine (k1_pay1_apply _ _ p).trans ?_
  unfold ceCol
  refine congrArg₂ Cert.Proof.Spec.ceOf (funext fun k => ?_) ?_
  · show V c main_arg0 (((cfg1.win 0).blk t).view.emb (ix2 p k)) = V c main_arg0 _
    refine congrArg (V c main_arg0) (funext fun a => Fin.ext ?_)
    match a with
    | ⟨0, _⟩ =>
      show win1_0.index t (0 : Fin 2) * 8192 + 1 * p.val = win1_2.index t (0 : Fin 2) * 8192 + 1 * p.val
      omega
    | ⟨1, _⟩ =>
      show win1_0.index t (1 : Fin 2) * 128 + 1 * k.val = k.val
      omega
  · show V c main_v6 (((cfg1.win 1).blk t).view.emb (ix2 p (0 : Fin 1))) = V c main_v6 _
    refine congrArg (V c main_v6) (funext fun a => Fin.ext ?_)
    match a with
    | ⟨0, _⟩ =>
      show win1_1.index t (0 : Fin 2) * 8192 + 1 * p.val = win1_2.index t (0 : Fin 2) * 8192 + 1 * p.val
      omega
    | ⟨1, _⟩ =>
      show win1_1.index t (1 : Fin 2) * 1 + 1 * 0 = 0
      omega

/-- An index of the output array is in point `t`'s block iff each coordinate is in the block's range on its axis. -/
theorem mem_outBlock (t : Fin cfg1.N) (i : S1048576x1.Idx) :
    i ∈ ((cfg1.win 2).blk t).view.set ↔ ∀ a : Fin 2, win1_2.index t a * S8192x1.size a ≤ (i a).val
      ∧ (i a).val < win1_2.index t a * S8192x1.size a + S8192x1.size a := by
  show i ∈ ((View.whole main_v7).slice (win1_2.rect t)).set ↔ _
  rw [View.set_slice_whole, Rect.mem_set_unit]
  exact Iff.rfl

/-- Row `n` of the output array is in the block of point `n / 8192`, which is written back. -/
theorem outBlocks_cover (i : S1048576x1.Idx) :
    ∃ t : Fin cfg1.N, (cfg1.win 2).flush t = true ∧ i ∈ ((cfg1.win 2).blk t).view.set := by
  have h0 : (i 0).val < 1048576 := idx2_lt0 i
  have h1 : (i 1).val < 1 := idx2_lt1 i
  have hN : cfg1.N = 128 := N_1
  refine ⟨⟨(i 0).val / 8192, by rw [hN]; omega⟩, flush1_2 _, ?_⟩
  rw [mem_outBlock]
  obtain ⟨-, -, -, -, e20, e21⟩ := index_facts ⟨(i 0).val / 8192, by rw [hN]; omega⟩
  intro a
  match a with
  | ⟨0, _⟩ =>
    show win1_2.index _ (0 : Fin 2) * 8192 ≤ (i 0).val ∧ (i 0).val < win1_2.index _ (0 : Fin 2) * 8192 + 8192
    rw [e20]
    show (i 0).val / 8192 * 8192 ≤ (i 0).val ∧ (i 0).val < (i 0).val / 8192 * 8192 + 8192
    omega
  | ⟨1, _⟩ =>
    show win1_2.index _ (1 : Fin 2) * 1 ≤ (i 1).val ∧ (i 1).val < win1_2.index _ (1 : Fin 2) * 1 + 1
    rw [e21]
    omega

/-- The array the region leaves in its output window is the specification's column of the arrays it was entered with. -/
theorem arrAt_eq_ceCol (c : Dev nD) : (dat1 V c).arrAt 2 cfg1.N = ceCol (V c main_arg0) (V c main_v6) :=
  (dat1 V c).arrAt_eq_of_cover 2 (ceCol (V c main_arg0) (V c main_v6)) (fun t _ => flushed_eq_ceCol V c t) outBlocks_cover

/-- Row `n` of the array the region leaves is the cross-entropy of row `n` of the scores at label `n`. -/
theorem arrAt_ce_apply (c : Dev nD) (n : Fin 1048576) :
    ((dat1 V c).arrAt 2 cfg1.N : S1048576x1.Idx → EReal) (ix2 n (0 : Fin 1))
      = Cert.Proof.Spec.ceOf (fun k : Fin 128 => (V c main_arg0 : S1048576x128.Idx → EReal) (ix2 n k))
          ((V c main_v6 : S1048576x1.Idx → BitVec 32) (ix2 n (0 : Fin 1))) := by
  rw [arrAt_eq_ceCol]
  rfl

end Cert.KernelIdeal.Hand

end
-- ==== Proof.HistPay.lean ====
/-
  The histogram body's two stored values, read entry by entry at the exact instance.

  The body keeps a row of 512 running counts. Its first stored value is the zero row. Its second adds to the running
  row, at column q, the number of rows of the tile's label column whose word equals q: the tile's 8192 labels are
  spread along the columns, compared with the column number, the comparison bit is widened to a word and read as a
  real (one where the words agree, zero elsewhere), and the resulting 8192 by 512 block is summed down each column.
-/
import proofs.«400365_j6073083757069_2_alg».proof.Proof.Gen.KernelIdeal.Skeleton
import proofs.«400365_j6073083757069_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The comparison bit of two 32-bit words, widened to a word and read as a real: one where they agree, zero
    elsewhere. -/
theorem onehot_word (a b : BitVec 32) :
    FloatOps.sitofp (F := Ideal) .f32 ((IntOp.cmpi .eq a b).setWidth 32) = if a = b then (1 : EReal) else 0 := by
  by_cases h : a = b
  · subst h
    rw [if_pos rfl]
    have e : IntOp.cmpi .eq a a = 1#1 := by simp [IntOp.cmpi]
    rw [e]
    show (((((1#1 : BitVec 1).setWidth 32).toInt : ℤ) : ℝ) : EReal) = 1
    rw [show ((1#1 : BitVec 1).setWidth 32).toInt = 1 by decide, Int.cast_one, EReal.coe_one]
  · rw [if_neg h]
    have hb : (a == b) = false := beq_eq_false_iff_ne.2 h
    have e : IntOp.cmpi .eq a b = 0#1 := by simp [IntOp.cmpi, hb]
    rw [e]
    show (((((0#1 : BitVec 1).setWidth 32).toInt : ℤ) : ℝ) : EReal) = 0
    rw [show ((0#1 : BitVec 1).setWidth 32).toInt = 0 by decide, Int.cast_zero, EReal.coe_zero]

/-- A column [a, 1] spread over b columns reads, at (p, c), the column's entry in row p. -/
theorem broadcastTo_labelCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first stored value is the zero row. -/
theorem pay1_apply (q : Fin 512) : k0_pay1 (F := Ideal) (ix2 (0 : Fin 1) q) = 0 := by
  unfold k0_pay1
  refine (congrFun (shapeCast_self _ _) _).trans ?_
  exact Ideal.ofBits_zero_f32

/-- Column q of the block with the summed axis put back at row r is the entry (r, q). -/
theorem lift_col (h : S8192x512.Reduces [0] S512) (q : Fin 512) (r : Fin 8192) :
    h.lift (ix1 q) r = ix2 r q :=
  funext fun a => Fin.ext (by match a with | ⟨0, _⟩ => rfl | ⟨1, _⟩ => rfl)

/-- The sum down the rows of an 8192 by 512 block, read at column q: the sum over the 8192 rows of the entries of
    that column. -/
theorem colsum_apply (src : FVec Ideal S8192x512 .f32) (h : S8192x512.Reduces [0] S512) (hφ : FKind.Formats .f32)
    (hacc : (0x00000000#32 : BitVec 32) = FKind.add.neutral .f32 hφ) (q : Fin 512) :
    multiReduction (F := Ideal) .add [0] S512 src 0x00000000#32 h hφ hacc (ix1 q) = ∑ r : Fin 8192, src (ix2 r q) := by
  refine (Ideal.multiReduction_add_single src 0x00000000#32 h hφ hacc (ix1 q)).trans ?_
  exact Finset.sum_congr rfl fun r _ => congrArg src (lift_col h q r)

/-- The second stored value at column q: the running count there plus the number of rows of the label column whose
    word is q, as a sum of ones and zeros over the 8192 rows. -/
theorem pay2_apply (v3 : Vec Ideal S8192x1 .i32) (v10 : Vec Ideal S1x512 .f32) (q : Fin 512) :
    k0_pay2 (F := Ideal) v3 v10 (ix2 (0 : Fin 1) q)
      = v10 (ix2 (0 : Fin 1) q) + ∑ r : Fin 8192, (if BitVec.ofNat 32 q.val = v3 (ix2 r (0 : Fin 1)) then (1 : EReal) else 0) := by
  unfold k0_pay2
  refine (congrFun (shapeCast_self _ _) _).trans ?_
  refine (addf_apply _ _ _).trans ?_
  refine congrArg (v10 (ix2 (0 : Fin 1) q) + ·) ?_
  refine (shapeCast_a_1a_apply _ _ (0 : Fin 1) q).trans ?_
  refine (colsum_apply _ _ _ _ q).trans ?_
  refine Finset.sum_congr rfl fun r _ => ?_
  -- the column number along axis 1, and the label of row r spread along the columns
  have e1 : iota .tc S8192x512 32 [1] iota_S8192x512_d1_w32 (ix2 r q) = BitVec.ofNat 32 q.val :=
    iota_single_apply .tc S8192x512 32 1 iota_S8192x512_d1_w32 (ix2 r q)
  have e2 : broadcastTo S8192x512 (shapeCast S8192x1 v3 shapeCasts_S8192x1_S8192x1) broadcasts_S8192x1_S8192x512 (ix2 r q)
      = v3 (ix2 r (0 : Fin 1)) :=
    (broadcastTo_labelCol_apply _ _ r q).trans (congrFun (shapeCast_self v3 _) _)
  refine (congrArg₂ (fun a b : BitVec 32 => FloatOps.sitofp (F := Ideal) .f32 ((IntOp.cmpi .eq a b).setWidth 32)) e1 e2).trans ?_
  exact onehot_word _ _

end Cert.KernelIdeal.Hand

end
-- ==== Proof.HistValue.lean ====
/-
  What the histogram region leaves in its output array.

  The region walks the column of 1048576 group words in 128 tiles of 8192 rows and keeps a row of 512 running counts.
  The first point adds tile 0's counts to the zero row; every later point adds its tile's counts to what the point
  before left; the last point copies the row into the output block, which is the whole output array and is written
  back there and nowhere else. So the array ends, at column q, at the sum over the tiles of the number of rows whose
  word is q. Row r of tile t is sample t * 8192 + r, each sample is one row of one tile, and a column number below 512
  equals a word exactly when the word read signed is that number: the sum is the number of samples whose group word,
  read signed, is q.
-/
import proofs.«400365_j6073083757069_2_alg».proof.Proof.HistFrame
import proofs.«400365_j6073083757069_2_alg».proof.Proof.HistPay
import proofs.«400365_j6073083757069_2_alg».proof.Proof.Spec
import Idealize.ShloMosaic.Lib.Pipeline.Value

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

namespace Hist

/-! ## Counting, free of the program -/

/-- A column number below 512, as a 32-bit word, equals a word exactly when that word read signed is the number:
    both are below 2^31, where the signed and the unsigned readings agree. -/
theorem word_eq_iff (q : Fin 512) (w : BitVec 32) : BitVec.ofNat 32 q.val = w ↔ w.toInt = (q.val : Int) := by
  have hq := q.isLt
  constructor
  · intro h
    subst h
    rw [BitVec.toInt_eq_toNat_cond, BitVec.toNat_ofNat]
    have e : q.val % 2 ^ 32 = q.val := Nat.mod_eq_of_lt (by omega)
    rw [e, if_pos (by omega)]
  · intro h
    rw [BitVec.toInt_eq_toNat_cond] at h
    have hw := w.isLt
    apply BitVec.eq_of_toNat_eq
    rw [BitVec.toNat_ofNat]
    split at h
    · have : w.toNat = q.val := by omega
      rw [this]; exact Nat.mod_eq_of_lt (by omega)
    · omega

/-- Row r of tile t is sample t * 8192 + r. -/
def sampleOf (t : Fin 128) (r : Fin 8192) : Fin 1048576 :=
  ⟨t.val * 8192 + r.val, by have := t.isLt; have := r.isLt; omega⟩

/-- Every sample is exactly one row of one tile: its quotient and remainder by 8192. -/
def sampleEquiv : Fin 128 × Fin 8192 ≃ Fin 1048576 where
  toFun p := sampleOf p.1 p.2
  invFun n := (⟨n.val / 8192, by have := n.isLt; omega⟩, ⟨n.val % 8192, Nat.mod_lt _ (by decide)⟩)
  left_inv p := by
    obtain ⟨t, r⟩ := p
    have := t.isLt; have := r.isLt
    refine Prod.ext (Fin.ext ?_) (Fin.ext ?_)
    · show (t.val * 8192 + r.val) / 8192 = t.val; omega
    · show (t.val * 8192 + r.val) % 8192 = r.val; omega
  right_inv n := Fin.ext (by show n.val / 8192 * 8192 + n.val % 8192 = n.val; omega)

/-- The number of rows of tile t whose group word is the column number q, as a sum of ones and zeros. -/
def tileCnt (gid : Fin 1048576 → BitVec 32) (q : Fin 512) (t : Fin 128) : EReal :=
  ∑ r : Fin 8192, if BitVec.ofNat 32 q.val = gid (sampleOf t r) then (1 : EReal) else 0

/-- The 128 tiles' counts add up to the count over all samples: the double sum over tiles and rows is the sum over
    samples, and a sum of an indicator is the sum of ones over the samples it selects. -/
theorem sum_tileCnt (gid : Fin 1048576 → BitVec 32) (q : Fin 512) :
    ∑ t : Fin 128, tileCnt gid q t = Cert.Proof.Spec.cntOf gid q := by
  unfold tileCnt Cert.Proof.Spec.cntOf
  rw [← Finset.sum_product', Finset.univ_product_univ, Finset.sum_filter]
  refine (Equiv.sum_comp sampleEquiv (fun n => if BitVec.ofNat 32 q.val = gid n then (1 : EReal) else 0)).trans ?_
  exact Finset.sum_congr rfl fun n _ => if_congr (word_eq_iff q (gid n)) rfl rfl

/-- The tiles up to the first point: tile 0 alone. -/
theorem sum_upto_zero (x : Fin 128 → EReal) : (∑ t : Fin 128, if t.val ≤ 0 then x t else 0) = x ⟨0, by decide⟩ := by
  have e : ∀ t : Fin 128, (if t.val ≤ 0 then x t else 0) = (if t = ⟨0, by decide⟩ then x t else 0) := by
    intro t
    by_cases h1 : t.val ≤ 0
    · rw [if_pos h1, if_pos (Fin.ext (by show t.val = 0; omega))]
    · rw [if_neg h1, if_neg (fun e => h1 (by have := congrArg Fin.val e; simp at this; omega))]
  rw [Finset.sum_congr rfl fun t _ => e t, Finset.sum_ite_eq' Finset.univ (⟨0, by decide⟩ : Fin 128) x, if_pos (Finset.mem_univ _)]

/-- The tiles up to point n + 1: those up to point n, and tile n + 1 added after them. -/
theorem sum_upto_succ (x : Fin 128 → EReal) (n : ℕ) (h : n + 1 < 128) :
    (∑ t : Fin 128, if t.val ≤ n + 1 then x t else 0) = (∑ t : Fin 128, if t.val ≤ n then x t else 0) + x ⟨n + 1, h⟩ := by
  have e : ∀ t : Fin 128, (if t.val ≤ n + 1 then x t else 0)
      = (if t.val ≤ n then x t else 0) + (if t = ⟨n + 1, h⟩ then x t else 0) := by
    intro t
    by_cases h1 : t.val ≤ n
    · have h2 : t ≠ ⟨n + 1, h⟩ := fun e => by have := congrArg Fin.val e; simp at this; omega
      rw [if_pos h1, if_pos (by omega), if_neg h2, add_zero]
    · by_cases h3 : t.val = n + 1
      · have h2 : t = ⟨n + 1, h⟩ := Fin.ext h3
        rw [if_neg h1, if_pos (by omega), if_pos h2, zero_add]
      · have h2 : t ≠ ⟨n + 1, h⟩ := fun e => h3 (congrArg Fin.val e)
        rw [if_neg h1, if_neg (by omega), if_neg h2, add_zero]
  rw [Finset.sum_congr rfl fun t _ => e t, Finset.sum_add_distrib, Finset.sum_ite_eq' Finset.univ (⟨n + 1, h⟩ : Fin 128) x,
    if_pos (Finset.mem_univ _)]

/-- The tiles up to the last point: all of them. -/
theorem sum_upto_last (x : Fin 128 → EReal) : (∑ t : Fin 128, if t.val ≤ 127 then x t else 0) = ∑ t : Fin 128, x t :=
  Finset.sum_congr rfl fun t _ => if_pos (by have := t.isLt; omega)

/-! ## A tile of the column of group words, read at a row -/

/-- The column of group words as the region finds it. -/
abbrev gidArr (c : Dev nD) : Vec Ideal S1048576x1 .i32 := V c main_v3

/-- The group words as a sequence over the samples. -/
abbrev gidOf (c : Dev nD) : Fin 1048576 → BitVec 32 := fun n => gidArr V c (ix2 n (0 : Fin 1))

/-- The tile of that column the body reads at point t. -/
abbrev gidBlk (c : Dev nD) (t : Fin cfg0.N) : Vec Ideal S8192x1 .i32 := iblk0 V c 0 t

/-- The tile's block index at point t is (t, 0). -/
theorem gid_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row r of the tile at point t is sample t * 8192 + r of the column: a block's element sits at the block index times
    the block size plus its own coordinate. -/
theorem gidBlk_apply (c : Dev nD) (t : Fin cfg0.N) (r : Fin 8192) (n : Fin 1048576) (hn : n.val = t.val * 8192 + r.val) :
    gidBlk V c t (ix2 r (0 : Fin 1)) = gidArr V c (ix2 n (0 : Fin 1)) := by
  show ((cfg0.win 0).blk t).view.read (Elt Ideal) (V c (Pipeline.arrRef spec0 0)) (ix2 r (0 : Fin 1)) = _
  rw [View.read_apply]
  show V c main_v3 (((cfg0.win 0).blk t).view.emb (ix2 r (0 : Fin 1))) = V c main_v3 (ix2 n (0 : Fin 1))
  refine congrArg (V c main_v3) (funext fun a => Fin.ext ?_)
  have hi := gid_index t
  match a with
  | ⟨0, _⟩ =>
    refine (Pipeline.Window.rect_emb_val win0_0 t (ix2 r (0 : Fin 1)) (0 : Fin 2)).trans ?_
    rw [hi.1, hn]
    rfl
  | ⟨1, _⟩ =>
    refine (Pipeline.Window.rect_emb_val win0_0 t (ix2 r (0 : Fin 1)) (1 : Fin 2)).trans ?_
    rw [hi.2]
    rfl

/-- The count the body adds at point t, column q, is tile t's count. -/
theorem blk_count (c : Dev nD) (t : Fin cfg0.N) (q : Fin 512) :
    (∑ r : Fin 8192, if BitVec.ofNat 32 q.val = gidBlk V c t (ix2 r (0 : Fin 1)) then (1 : EReal) else 0)
      = tileCnt (gidOf V c) q ⟨t.val, lt_of_lt_of_eq t.isLt N_0⟩ :=
  Finset.sum_congr rfl fun r _ => by
    have e := gidBlk_apply V c t r (sampleOf ⟨t.val, lt_of_lt_of_eq t.isLt N_0⟩ r) rfl
    exact if_congr (by rw [e]) rfl rfl

/-! ## The accumulator, point by point -/

/-- After point n the accumulator holds, at column q, the counts of tiles 0 to n added in order: the first point adds
    tile 0 to the zero row, each later point adds its tile to what the point before left. -/
theorem acc_apply (c : Dev nD) (q : Fin 512) : ∀ (n : ℕ) (h : n < cfg0.N),
    (outsAt0 V c n h).2 (ix2 (0 : Fin 1) q) = ∑ t : Fin 128, if t.val ≤ n then tileCnt (gidOf V c) q t else 0
  | 0, h => by
    rw [sum_upto_zero]
    refine (congrFun (acc_zero V c h) (ix2 (0 : Fin 1) q)).trans ?_
    refine (pay2_apply (gidBlk V c ⟨0, h⟩) (k0_pay1 (F := Ideal)) q).trans ?_
    rw [pay1_apply q, zero_add]
    exact blk_count V c ⟨0, h⟩ q
  | n + 1, h => by
    rw [sum_upto_succ _ n (lt_of_lt_of_eq h N_0)]
    refine (congrFun (acc_succ V c n h) (ix2 (0 : Fin 1) q)).trans ?_
    refine (pay2_apply (gidBlk V c ⟨n + 1, h⟩) ((outsAt0 V c n (Nat.lt_of_succ_lt h)).2) q).trans ?_
    exact congrArg₂ (· + ·) (acc_apply c q n (Nat.lt_of_succ_lt h)) (blk_count V c ⟨n + 1, h⟩ q)

/-! ## The output array: the last point's accumulator -/

theorem last_lt : 127 < cfg0.N := lt_of_lt_of_eq (by decide : 127 < 128) N_0.symm

/-- The last grid point. -/
abbrev lastPt : Fin cfg0.N := ⟨127, last_lt⟩

/-- The accumulator the last point leaves, as contents of the output array. -/
abbrev accLast (c : Dev nD) : Vec Ideal S1x512 .f32 := (outsAt0 V c 127 last_lt).2

/-- The output window's block index is (0, 0) at every point: its one block is the whole array. -/
theorem out_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The only write-back is the last point's, and what it writes is that accumulator: the body copies the accumulator
    into the output block there, and block (0, 0) of the array read back is the array. -/
theorem out_flushed (c : Dev nD) (t : Fin cfg0.N) (hf : (cfg0.win 1).flush t = true) :
    (dat0 V c).flushed 1 t = ((cfg0.win 1).blk t).view.read (Elt Ideal) (accLast V c) := by
  have h127 : t.val = 127 := by
    have h1 := (flush0_1 t).mp hf
    have h2 : t.val < 128 := lt_of_lt_of_eq t.isLt N_0
    omega
  obtain rfl : t = lastPt := Fin.ext h127
  have e : (dat0 V c).after 1 lastPt = accLast V c := (after0_1 V c lastPt).trans (out_last V c last_lt)
  show (cfg0.win 1).cut (grid0.coords lastPt) ((dat0 V c).after 1 lastPt) = _
  rw [e]
  funext y
  rw [View.read_apply]
  show accLast V c y = accLast V c (((cfg0.win 1).blk lastPt).view.emb y)
  refine congrArg (accLast V c) (funext fun a => Fin.ext ?_)
  have hi := out_index lastPt
  match a with
  | ⟨0, _⟩ =>
    refine Eq.symm ((Pipeline.Window.rect_emb_val win0_1 lastPt y (0 : Fin 2)).trans ?_)
    rw [hi.1, Nat.zero_mul, Nat.zero_add]
    rfl
  | ⟨1, _⟩ =>
    refine Eq.symm ((Pipeline.Window.rect_emb_val win0_1 lastPt y (1 : Fin 2)).trans ?_)
    rw [hi.2, Nat.zero_mul, Nat.zero_add]
    rfl

/-- Every entry of the output array lies in the block the last point writes back. -/
theorem out_cover (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨lastPt, (flush0_1 lastPt).mpr rfl, ?_⟩
  show i ∈ ((View.whole main_v4).slice (win0_1.rect lastPt)).set
  rw [View.set_slice_whole, Rect.mem_set_unit]
  intro a
  have hi := out_index lastPt
  match a with
  | ⟨0, _⟩ =>
    have h0 : (i 0 : Nat) < 1 := (i 0).isLt
    show win0_1.index lastPt 0 * win0_1.size 0 ≤ (i 0 : Nat)
      ∧ (i 0 : Nat) < win0_1.index lastPt 0 * win0_1.size 0 + win0_1.xsize (grid0.coords lastPt) 0
    rw [hi.1, show win0_1.xsize (grid0.coords lastPt) 0 = 1 from by decide +kernel]
    omega
  | ⟨1, _⟩ =>
    have h1 : (i 1 : Nat) < 512 := (i 1).isLt
    show win0_1.index lastPt 1 * win0_1.size 1 ≤ (i 1 : Nat)
      ∧ (i 1 : Nat) < win0_1.index lastPt 1 * win0_1.size 1 + win0_1.xsize (grid0.coords lastPt) 1
    rw [hi.2, show win0_1.xsize (grid0.coords lastPt) 1 = 512 from by decide +kernel]
    omega

end Hist

open Hist in
/-- The array the histogram region leaves in its output window: at column q, the number of samples whose group word,
    read signed, is q. -/
theorem hist_array (c : Dev nD) (q : Fin 512) :
    ((dat0 V c).arrAt 1 cfg0.N : S1x512.Idx → EReal) (ix2 (0 : Fin 1) q)
      = Cert.Proof.Spec.cntOf (fun n : Fin 1048576 => V c main_v3 (ix2 n (0 : Fin 1))) q := by
  have e := (dat0 V c).arrAt_eq_of_cover 1 (accLast V c) (out_flushed V c) (out_cover c)
  refine (congrFun e (ix2 (0 : Fin 1) q)).trans ?_
  refine (acc_apply V c q 127 last_lt).trans ?_
  rw [sum_upto_last]
  exact sum_tileCnt _ q

end Cert.KernelIdeal.Hand

end
-- ==== Proof.RefTerms.lean ====
/-
  The reference program's result as a composition of named pieces, each a pure function of arrays: the group word of
  a sample, the count of each group by an accumulating scatter of ones, the row maximum, the shifted scores, the
  log-softmax, the entry of each row taken at its label (the label wrapped when negative, the entry replaced by a
  not-a-number where the wrapped label names no class), its negation, and the closing quotient by the sample's group
  count summed over the samples.
-/
import proofs.«400365_j6073083757069_2_alg».proof.ReferenceIdeal

noncomputable section

namespace Cert.ReferenceIdeal.RefValue

open Cert.ReferenceIdeal Idealize.ShloMosaic

variable {F : FTy → Type} [FloatOps F] [Facts]
open Facts₀ Facts

/-- A sample's group word: four times its label plus its subgroup. -/
def gidOf (t s : IVec S1048576 32) : IVec S1048576 32 :=
  addi (muli t (broadcastInDim S1048576 ![] bcast_S_S1048576 (constantI S_ 32 4#32))) s

/-- The group word as a row index into the 512 counts: 512 added when it is negative. -/
def gidIdx (g : IVec S1048576 32) : IVec S1048576x1 32 :=
  broadcastInDim S1048576x1 ![0] bcast_S1048576_S1048576x1_0
    (select (cmpi .slt g (broadcastInDim S1048576 ![] bcast_S_S1048576 (constantI S_ 32 0#32)))
      (addi g (broadcastInDim S1048576 ![] bcast_S_S1048576 (constantI S_ 32 512#32))) g)

/-- The closing steps: each sample's value over the count its group word selects, summed over the samples. -/
def tailOf (ce : FVec F S1048576 .f32) (cnt : FVec F S512 .f32) (g : IVec S1048576 32) : FVec F S_ .f32 :=
  Host.reduceAdd (Host.divf ce (Host.gather gather_S512_S1048576x1_S1048576_n_0_n_n_0_1_1 cnt (gidIdx g)))
    (constant S_ .f32 0x00000000#32) reducesTo_S1048576_S_d0 h_S_

/-- The counts: ones scattered and added at the group words, from zeros. -/
def cntRef (g : IVec S1048576 32) : FVec F S512 .f32 :=
  Host.scatterAdd scatter_S512_S1048576x1_S1048576_n_0_0_1 (broadcastInDim S512 ![] bcast_S_S512 (constant S_ .f32 0x00000000#32))
    (broadcastInDim S1048576x1 ![0] bcast_S1048576_S1048576x1_0 g)
    (broadcastInDim S1048576 ![] bcast_S_S1048576 (constant S_ .f32 0x3F800000#32))

/-- Each row's maximum. -/
def rowMaxRef (x : FVec F S1048576x128 .f32) : FVec F S1048576 .f32 :=
  maximumf (broadcastInDim S1048576 ![] bcast_S_S1048576 (constant S_ .f32 0xFF800000#32))
    (Host.reduce FloatOps.maximumf x (constant S_ .f32 0xFF800000#32) reducesTo_S1048576x128_S1048576_d1 h_S_)

/-- The scores less their row's maximum. -/
def shiftedRef (x : FVec F S1048576x128 .f32) : FVec F S1048576x128 .f32 :=
  subf x (broadcastInDim S1048576x128 ![0, 1] bcast_S1048576x1_S1048576x128_0_1
    (broadcastInDim S1048576x1 ![0] bcast_S1048576_S1048576x1_0 (rowMaxRef x)))

/-- The log-softmax of each row. -/
def logpRef (x : FVec F S1048576x128 .f32) : FVec F S1048576x128 .f32 :=
  subf (shiftedRef x) (broadcastInDim S1048576x128 ![0, 1] bcast_S1048576x1_S1048576x128_0_1
    (Host.log (broadcastInDim S1048576x1 ![0] bcast_S1048576_S1048576x1_0
      (Host.reduceAdd (Host.exp (shiftedRef x)) (constant S_ .f32 0x00000000#32) reducesTo_S1048576x128_S1048576_d1 h_S_))))

/-- The label as a column index: 128 added when it is negative. -/
def idxRef (t : IVec S1048576 32) : IVec S1048576x1x1 32 :=
  shapeCast S1048576x1x1
    (select (cmpi .slt (broadcastInDim S1048576x1 ![0] bcast_S1048576_S1048576x1_0 t) (broadcastInDim S1048576x1 ![] bcast_S_S1048576x1 (constantI S_ 32 0#32)))
      (addi (broadcastInDim S1048576x1 ![0] bcast_S1048576_S1048576x1_0 t) (broadcastInDim S1048576x1 ![] bcast_S_S1048576x1 (constantI S_ 32 128#32)))
      (broadcastInDim S1048576x1 ![0] bcast_S1048576_S1048576x1_0 t))
    shapeCasts_S1048576x1_S1048576x1x1

/-- Whether the column index names one of the 128 classes. -/
def inbRef (t : IVec S1048576 32) : IVec S1048576x1 1 :=
  Host.reduce IntOp.andi
    (andi (cmpi .sge (idxRef t) (broadcastInDim S1048576x1x1 ![] bcast_S_S1048576x1x1 (constantI S_ 32 0#32)))
      (cmpi .sle (idxRef t) (broadcastInDim S1048576x1x1 ![0, 1, 2] bcast_S1x1x1_S1048576x1x1_0_1_2 (broadcastInDim S1x1x1 ![2] bcast_S1_S1x1x1_2 (constantI S1 32 127#32)))))
    (constantI S_ 1 1#1) reducesTo_S1048576x1x1_S1048576x1_d2 h_S_

/-- Each row's entry at its column index, a not-a-number where the index names no class. -/
def takenRef (lp : FVec F S1048576x128 .f32) (t : IVec S1048576 32) : FVec F S1048576x1 .f32 :=
  select (inbRef t) (Host.gather gather_S1048576x128_S1048576x1x1_S1048576x1_n_1_0_0_1_2_11 lp (idxRef t))
    (broadcastInDim S1048576x1 ![] bcast_S_S1048576x1 (constant S_ .f32 0x7FC00000#32))

/-- Each sample's cross-entropy: the negated log-softmax entry at its label. -/
def ceRef (x : FVec F S1048576x128 .f32) (t : IVec S1048576 32) : FVec F S1048576 .f32 :=
  Host.negf (shapeCast S1048576 (takenRef (logpRef x) t) shapeCasts_S1048576x1_S1048576)

/-- The reference's result from its three argument arrays. -/
def resultRef (x : FVec F S1048576x128 .f32) (t s : IVec S1048576 32) : FVec F S_ .f32 :=
  tailOf (ceRef x t) (cntRef (F := F) (gidOf t s)) (gidOf t s)

end Cert.ReferenceIdeal.RefValue

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.LibGatherBatched.lean ====
/-
  A batched entry gather read at an index, over generic extents: `N` rows of width `C`, one start index per row.

  The operand is `[N, C]`, the start indices `[N, 1, 1]` (the index vector on the last axis, of length one), the result
  `[N, 1]`. Operand axis 0 is a BATCHING axis paired with axis 0 of the start indices: result row `n` reads operand
  row `n`. Operand axis 1 is collapsed and start-indexed: in its row, result `(n, 0)` reads the column its index word
  names, the word read signed and clamped into `[0, C − 1]`. There is no offset axis. This is what a row-wise
  `take_along_axis` of one entry per row prints as.

  The dimension-number record is written out here with its well-formedness as an argument, so that a program's own
  record of the same fields is this one by unfolding.
-/
import Idealize.ShloMosaic.PureOps.Ideal
import Idealize.ShloMosaic.Lib.ValueIdx
import proofs.«400365_j6073083757069_2_alg».proof.Proof.LibGatherScatter

namespace Cert.Proof.GS

open Idealize.ShloMosaic Idealize.ShloMosaic.ValueIdx

/-- Batched entry gather: operand `[N, C]`, start indices `[N, 1, 1]`, result `[N, 1]`; axis 0 a batching axis on both
    sides, axis 1 collapsed and start-indexed, the index vector on the start indices' axis 2, no offset axis. -/
abbrev gathB (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

variable {α : Type}

/-- THE BATCHED ENTRY GATHER AT `(n, 0)`: the operand at row `n`, column `row (idx (n, 0, 0))` (the index word read
    signed and clamped into `[0, C − 1]`). On axis 0 (batching) the operand coordinate is the result's row; on axis 1
    (collapsed, start-indexed) it is the clamped start. -/
theorem gather_gathB_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (n : Fin N) :
    Host.gather (gathB N C wf) x idx (ix2 n (0 : Fin 1))
      = x (ix2 n (row hC (idx (ix3 n (0 : Fin 1) (0 : Fin 1))))) := by
  unfold Host.gather
  congr 1
  funext a
  refine Fin.ext ?_
  match a with
  | ⟨0, _⟩ =>
    show (gathB N C wf).start (ix2 n (0 : Fin 1)) idx 0 + (gathB N C wf).batchCoord (ix2 n (0 : Fin 1)) 0
      + (gathB N C wf).offCoord (ix2 n (0 : Fin 1)) 0 = n.val
    have hb : (0 : Fin 2) ∈ (gathB N C wf).operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show (gathB N C wf).start (ix2 n (0 : Fin 1)) idx 1 + (gathB N C wf).batchCoord (ix2 n (0 : Fin 1)) 1
      + (gathB N C wf).offCoord (ix2 n (0 : Fin 1)) 1 = min (idx (ix3 n (0 : Fin 1) (0 : Fin 1))).toInt.toNat (C - 1)
    have hnb : (1 : Fin 2) ∉ (gathB N C wf).operandBatchingDims :=
      show (1 : Fin 2) ∉ ([0] : List (Fin 2)) by decide
    have hc : (1 : Fin 2) ∈ (gathB N C wf).collapsedSliceDims := List.mem_singleton.mpr rfl
    rw [GatherDims.batchCoord_eq_zero _ _ _ hnb,
      GatherDims.offCoord_eq_zero _ _ _ (fun h => ((GatherDims.mem_sKept _ _).mp h).1 hc)]
    unfold GatherDims.start
    rw [dif_pos (show (1 : Fin 2) ∈ (gathB N C wf).startIndexMap from List.mem_singleton.mpr rfl)]
    show min (idx _).toInt.toNat (C - 1) = min (idx (ix3 n (0 : Fin 1) (0 : Fin 1))).toInt.toNat (C - 1)
    congr 3
    congr 1
    funext b
    refine Fin.ext ?_
    match b with
    | ⟨0, _⟩ => rfl
    | ⟨1, _⟩ => rfl
    | ⟨2, _⟩ => rfl

end Cert.Proof.GS
-- ==== Proof.RefCe.lean ====
/-
  The reference's per-sample cross-entropy read at a sample, against the program-free specification.

  For a score array with no infinite entry and labels in `[0, 128)`, the value the reference computes for sample `n`
  — the negated log-softmax entry of row `n` at its label — is `Spec.ceOf` of the row and the label: the row's maximum
  plus the logarithm of the sum of the exponentials of the shifted scores, less the score at the label.

  The steps, each at an index: the row maximum is the fold of `max` from −∞ over the row; the shifted score is the score
  less that maximum; the log-softmax entry is the shifted score less the logarithm of the row's denominator; a label
  that is not negative is its own column index and one below 128 passes the range test, so the row's entry at the
  label is taken; and on real numbers `−((a − M) − L) = (M + L) − a`, the logarithm of the denominator being real
  because the denominator is a positive real, a finite sum of exponentials of reals. The one-hot sum of the
  specification at a label in range has exactly one term that is not zero, the score at the label.
-/
import proofs.«400365_j6073083757069_2_alg».proof.Proof.RefTerms
import proofs.«400365_j6073083757069_2_alg».proof.Proof.Spec
import proofs.«400365_j6073083757069_2_alg».proof.Proof.LibRowSoftmax
import proofs.«400365_j6073083757069_2_alg».proof.Proof.LibGatherBatched
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Cert.ReferenceIdeal Idealize.ShloMosaic Idealize.ShloMosaic.ValueIdx Cert.Attn
open Facts₀ Facts

/-! ## The algebra on the extended reals -/

/-- A word whose signed value lies in `[0, 128)` is the word of exactly one class: its signed value. -/
theorem ofNat_eq_iff (w : BitVec 32) (h0 : 0 ≤ w.toInt) (h1 : w.toInt < 128) (c : Fin 128) :
    BitVec.ofNat 32 c.val = w ↔ c.val = w.toInt.toNat := by
  have hw : w.toInt = (w.toNat : Int) := by
    have h := BitVec.toInt_eq_toNat_cond w
    have := w.isLt
    split at h <;> omega
  rw [← BitVec.toNat_inj, BitVec.toNat_ofNat, hw, Int.toNat_natCast]
  have := c.isLt
  omega

/-- The one-hot sum at a label in `[0, 128)` is the score at the label. -/
theorem picked_eq (s : Fin 128 → EReal) (w : BitVec 32) (h0 : 0 ≤ w.toInt) (h1 : w.toInt < 128) :
    Cert.Proof.Spec.picked s w = s ⟨w.toInt.toNat, by omega⟩ := by
  unfold Cert.Proof.Spec.picked
  rw [Finset.sum_eq_single (⟨w.toInt.toNat, by omega⟩ : Fin 128)]
  · rw [if_pos ((ofNat_eq_iff w h0 h1 _).mpr rfl)]
  · intro c _ hc
    rw [if_neg (fun e => hc (Fin.ext ((ofNat_eq_iff w h0 h1 c).mp e)))]
  · intro h; exact absurd (Finset.mem_univ _) h

/-- The logarithm of a real row's denominator is a real number: the denominator is a sum of exponentials of reals. -/
theorem log_rowDen_real (s : Fin 128 → EReal) (hs : ∀ j, s j ≠ ⊥ ∧ s j ≠ ⊤) :
    ∃ l : ℝ, Ideal.log (rowDen s) = (l : EReal) := by
  obtain ⟨g, hg⟩ := exists_real s hs
  obtain ⟨hM1, hM2⟩ := rowMax_real s hs
  obtain ⟨m, hm⟩ : ∃ m : ℝ, rowMax s = (m : EReal) := ⟨(rowMax s).toReal, (EReal.coe_toReal hM1 hM2).symm⟩
  have hden : rowDen s = ((∑ j : Fin 128, Real.exp (g j - m) : ℝ) : EReal) := by
    rw [← coe_sum]
    unfold rowDen rowExp
    refine Finset.sum_congr rfl (fun j _ => ?_)
    rw [hg j, hm, ← EReal.coe_sub, Ideal.exp_coe]
  have hpos : 0 < ∑ j : Fin 128, Real.exp (g j - m) :=
    Finset.sum_pos (fun j _ => Real.exp_pos _) ⟨0, Finset.mem_univ _⟩
  refine ⟨Real.log (∑ j : Fin 128, Real.exp (g j - m)), ?_⟩
  rw [hden, Ideal.log_coe, if_neg (not_le.mpr hpos)]

/-- For real numbers `a`, `M`, `L`: the negation of `(a − M) − L` is `(M + L) − a`. -/
theorem neg_sub_sub_eq (a M L : EReal) (ha : a ≠ ⊥ ∧ a ≠ ⊤) (hM : M ≠ ⊤ ∧ M ≠ ⊥) (l : ℝ) (hL : L = (l : EReal)) :
    -((a - M) - L) = (M + L) - a := by
  subst hL
  lift a to ℝ using ⟨ha.2, ha.1⟩
  lift M to ℝ using hM
  rw [← EReal.coe_sub, ← EReal.coe_sub, ← EReal.coe_neg, ← EReal.coe_add, ← EReal.coe_sub]
  congr 1
  ring

/-! ## The reference's pieces at an index -/

variable [Facts]

/-- The score array reduces over its class axis to one entry per sample. -/
theorem red_d1 : S1048576x128.Reduces [1] S1048576 := by decide

/-- The row `n` with class `k` inserted is the index `(n, k)`. -/
theorem lift_d1 (n : Fin 1048576) (k : Fin 128) : red_d1.lift (ix1 n) k = ix2 n k := by
  funext a
  refine Fin.ext ?_
  match a with
  | ⟨0, _⟩ => rfl
  | ⟨1, _⟩ => rfl

/-- The bit pattern of −∞ is the bottom of the extended reals. -/
theorem ofBits_neg_inf : Ideal.ofBits .f32 0xFF800000#32 = (⊥ : EReal) := by
  simp [Ideal.ofBits, Ideal.ieee]

/-- The reference's row maximum at `n` is the fold of `max` from −∞ over row `n`. -/
theorem rowMaxRef_apply (x : FVec Ideal S1048576x128 .f32) (n : Fin 1048576) :
    rowMaxRef (F := Ideal) x (ix1 n) = rowMax (fun k : Fin 128 => x (ix2 n k)) := by
  unfold rowMaxRef
  rw [maximumf_apply, StableHlo.Predicate.bcast_scalar _ h_S_, constant_apply, ofBits_neg_inf,
    Host.reduce_eq_fold_single FloatOps.maximumf x _ reducesTo_S1048576x128_S1048576_d1 red_d1 h_S_ (ix1 n)]
  rw [constant_apply, ofBits_neg_inf, max_bot_left]
  unfold rowMax
  refine Finset.fold_congr ?_
  intro k _
  exact congrArg x (lift_d1 n k)

/-! ## Broadcasts read at an index -/

/-- A column spread over the classes reads, at `(n, k)`, the column at `(n, 0)`. -/
theorem bcast_col_apply {α : Type} (v : S1048576x1.Idx → α) (n : Fin 1048576) (k : Fin 128) :
    broadcastInDim S1048576x128 ![0, 1] bcast_S1048576x1_S1048576x128_0_1 v (ix2 n k) = v (ix2 n (0 : Fin 1)) :=
  broadcastInDim_apply _ _ _ (ix2 n k) (ix2 n (0 : Fin 1)) (fun a => match a with | ⟨0, _⟩ => rfl | ⟨1, _⟩ => rfl)

/-- A vector read as a column reads, at `(n, 0)`, the vector at `n`. -/
theorem bcast_col1_apply {α : Type} (v : S1048576.Idx → α) (n : Fin 1048576) :
    broadcastInDim S1048576x1 ![0] bcast_S1048576_S1048576x1_0 v (ix2 n (0 : Fin 1)) = v (ix1 n) :=
  broadcastInDim_apply _ _ _ (ix2 n (0 : Fin 1)) (ix1 n) (fun a => match a with | ⟨0, _⟩ => rfl)

/-- The host's exponential and logarithm at an index are the extended reals'. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl
theorem hostNegf_apply {s : Shape} (v : FVec Ideal s .f32) (i : s.Idx) : Host.negf v i = -(v i) := rfl

/-- The shifted score at `(n, k)`: the score less its row's maximum. -/
theorem shiftedRef_apply (x : FVec Ideal S1048576x128 .f32) (n : Fin 1048576) (k : Fin 128) :
    shiftedRef (F := Ideal) x (ix2 n k) = x (ix2 n k) - rowMax (fun k : Fin 128 => x (ix2 n k)) := by
  unfold shiftedRef
  rw [subf_apply, bcast_col_apply, bcast_col1_apply, rowMaxRef_apply]

/-- The sum of the exponentials of row `n`'s shifted scores is the row's denominator. -/
theorem sumExpRef_apply (x : FVec Ideal S1048576x128 .f32) (n : Fin 1048576) :
    Host.reduceAdd (Host.exp (shiftedRef (F := Ideal) x)) (constant S_ .f32 0x00000000#32)
        reducesTo_S1048576x128_S1048576_d1 h_S_ (ix1 n)
      = rowDen (fun k : Fin 128 => x (ix2 n k)) := by
  show Ideal.hostReduceAdd reducesTo_S1048576x128_S1048576_d1 (Host.exp (shiftedRef (F := Ideal) x))
      (constant (F := Ideal) S_ .f32 0x00000000#32 (Shape.Idx.first h_S_)) (ix1 n) = _
  rw [Ideal.hostReduceAdd_single _ red_d1, constant_apply, Ideal.ofBits_zero_f32, zero_add]
  unfold rowDen rowExp
  refine Finset.sum_congr rfl (fun k _ => ?_)
  refine (congrArg (fun i => Host.exp (shiftedRef (F := Ideal) x) i) (lift_d1 n k)).trans ?_
  exact congrArg Ideal.exp (shiftedRef_apply x n k)

/-- The log-softmax at `(n, k)`: the shifted score less the logarithm of the row's denominator. -/
theorem logpRef_apply (x : FVec Ideal S1048576x128 .f32) (n : Fin 1048576) (k : Fin 128) :
    logpRef (F := Ideal) x (ix2 n k)
      = (x (ix2 n k) - rowMax (fun k : Fin 128 => x (ix2 n k))) - Ideal.log (rowDen (fun k : Fin 128 => x (ix2 n k))) := by
  unfold logpRef
  rw [subf_apply, shiftedRef_apply, bcast_col_apply, hostLog_apply, bcast_col1_apply, sumExpRef_apply]

/-! ## The label as a column index -/

/-- A splat word broadcast to any shape reads the word. -/
theorem bcast_constantI_apply {s t : Shape} (dims : Fin s.rank → Fin t.rank) (h : s.BroadcastsInDim t dims) (w : Nat)
    (b : BitVec w) (j : t.Idx) : broadcastInDim t dims h (constantI s w b) j = b := rfl

/-- The one-entry index vectors reduce over their last axis to one entry per sample. -/
theorem red_d2 : S1048576x1x1.Reduces [2] S1048576x1 := by decide

/-- The entry `(n, 0)` with `0` inserted on the last axis is `(n, 0, 0)`. -/
theorem lift_d2 (n : Fin 1048576) (k : Fin 1) :
    red_d2.lift (ix2 n (0 : Fin 1)) k = ix3 n (0 : Fin 1) (0 : Fin 1) := by
  funext a
  refine Fin.ext ?_
  match a with
  | ⟨0, _⟩ => rfl
  | ⟨1, _⟩ => rfl
  | ⟨2, _⟩ => show k.val = 0; omega

/-- A fold over the one coordinate of a unit axis is one application of the operation. -/
theorem fold_fin1 {β : Type} (op : β → β → β) [Std.Commutative op] [Std.Associative op] (b : β) (f : Fin 1 → β) :
    (Finset.univ : Finset (Fin 1)).fold op b f = op (f 0) b := by
  rw [Finset.univ_unique, Finset.fold_singleton]; rfl

/-- A label that is not negative is its own column index: the wrap-around does not fire. -/
theorem idxRef_apply (t : IVec S1048576 32) (n : Fin 1048576) (h0 : 0 ≤ (t (ix1 n)).toInt) :
    idxRef t (ix3 n (0 : Fin 1) (0 : Fin 1)) = t (ix1 n) := by
  unfold idxRef
  rw [shapeCast_apply _ _ (ix3 n (0 : Fin 1) (0 : Fin 1)) (ix2 n (0 : Fin 1))
    (by rw [Shape.rowMajor_val_two, Shape.rowMajor_val_three]; show n.val * 1 + 0 = (n.val * 1 + 0) * 1 + 0; omega)]
  rw [select_apply, bcast_col1_apply]
  have hc : cmpi .slt (broadcastInDim S1048576x1 ![0] bcast_S1048576_S1048576x1_0 t)
      (broadcastInDim S1048576x1 ![] bcast_S_S1048576x1 (constantI S_ 32 0#32)) (ix2 n (0 : Fin 1)) = 0#1 := by
    show IntOp.cmpi .slt (broadcastInDim S1048576x1 ![0] bcast_S1048576_S1048576x1_0 t (ix2 n (0 : Fin 1)))
      (broadcastInDim S1048576x1 ![] bcast_S_S1048576x1 (constantI S_ 32 0#32) (ix2 n (0 : Fin 1))) = 0#1
    rw [bcast_col1_apply, bcast_constantI_apply]
    show BitVec.ofBool ((t (ix1 n)).slt 0#32) = 0#1
    have e : (t (ix1 n)).slt 0#32 = false := by
      unfold BitVec.slt
      rw [show (0#32 : BitVec 32).toInt = 0 from rfl]
      exact decide_eq_false (by omega)
    rw [e]; rfl
  rw [hc, select_zero]

/-- Whether a label in `[0, 128)` names a class: it does. -/
theorem inbRef_apply (t : IVec S1048576 32) (n : Fin 1048576) (h0 : 0 ≤ (t (ix1 n)).toInt)
    (h1 : (t (ix1 n)).toInt < 128) : inbRef t (ix2 n (0 : Fin 1)) = 1#1 := by
  unfold inbRef
  rw [Host.reduce_eq_fold_single IntOp.andi _ _ reducesTo_S1048576x1x1_S1048576x1_d2 red_d2 h_S_ (ix2 n (0 : Fin 1))]
  refine (fold_fin1 IntOp.andi _ _).trans ?_
  show IntOp.andi (IntOp.andi
      (IntOp.cmpi .sge (idxRef t (red_d2.lift (ix2 n (0 : Fin 1)) (0 : Fin 1))) 0#32)
      (IntOp.cmpi .sle (idxRef t (red_d2.lift (ix2 n (0 : Fin 1)) (0 : Fin 1))) 127#32)) 1#1 = 1#1
  rw [lift_d2, idxRef_apply t n h0]
  have e1 : IntOp.cmpi .sge (t (ix1 n)) 0#32 = 1#1 := by
    show BitVec.ofBool ((0#32 : BitVec 32).sle (t (ix1 n))) = 1#1
    have e : (0#32 : BitVec 32).sle (t (ix1 n)) = true := by
      unfold BitVec.sle
      rw [show (0#32 : BitVec 32).toInt = 0 from rfl]
      exact decide_eq_true h0
    rw [e]; rfl
  have e2 : IntOp.cmpi .sle (t (ix1 n)) 127#32 = 1#1 := by
    show BitVec.ofBool ((t (ix1 n)).sle 127#32) = 1#1
    have e : (t (ix1 n)).sle 127#32 = true := by
      unfold BitVec.sle
      rw [show (127#32 : BitVec 32).toInt = 127 from by decide]
      exact decide_eq_true (by omega)
    rw [e]; rfl
  rw [e1, e2]; rfl

/-! ## The entry taken at the label, and the sample's cross-entropy -/

/-- The entry each row takes: for a label in `[0, 128)` the test passes and the row's entry at the label's class is
    read (the batched gather reads row `n` at the clamped column index, and the clamp leaves such a label alone). -/
theorem takenRef_apply (lp : FVec Ideal S1048576x128 .f32) (t : IVec S1048576 32) (n : Fin 1048576)
    (h0 : 0 ≤ (t (ix1 n)).toInt) (h1 : (t (ix1 n)).toInt < 128) :
    takenRef (F := Ideal) lp t (ix2 n (0 : Fin 1))
      = lp (ix2 n (⟨(t (ix1 n)).toInt.toNat, by omega⟩ : Fin 128)) := by
  unfold takenRef
  rw [select_apply, inbRef_apply t n h0 h1, select_one]
  refine (Cert.Proof.GS.gather_gathB_apply (N := 1048576) (C := 128) (by decide)
    gather_S1048576x128_S1048576x1x1_S1048576x1_n_1_0_0_1_2_11_wf lp (idxRef t) n).trans ?_
  rw [idxRef_apply t n h0, Cert.Proof.GS.row_of_toInt _ _ (⟨(t (ix1 n)).toInt.toNat, by omega⟩ : Fin 128)
    (Int.toNat_of_nonneg h0).symm]

/-- THE SAMPLE'S CROSS-ENTROPY: for real scores and labels in `[0, 128)`, the reference's value at sample `n` is the
    row's maximum plus the logarithm of its denominator, less the score at the label. -/
theorem ceRef_apply (x : FVec Ideal S1048576x128 .f32) (t : IVec S1048576 32)
    (hx : ∀ i, x i ≠ ⊥ ∧ x i ≠ ⊤)
    (ht : ∀ n : Fin 1048576, 0 ≤ (t (ix1 n)).toInt ∧ (t (ix1 n)).toInt < 128) (n : Fin 1048576) :
    ceRef (F := Ideal) x t (ix1 n) = Cert.Proof.Spec.ceOf (fun k : Fin 128 => x (ix2 n k)) (t (ix1 n)) := by
  obtain ⟨h0, h1⟩ := ht n
  have hs : ∀ k : Fin 128, (fun k : Fin 128 => x (ix2 n k)) k ≠ ⊥ ∧ (fun k : Fin 128 => x (ix2 n k)) k ≠ ⊤ :=
    fun k => hx (ix2 n k)
  obtain ⟨l, hl⟩ := log_rowDen_real _ hs
  unfold ceRef Cert.Proof.Spec.ceOf
  rw [hostNegf_apply, shapeCast_apply _ _ (ix1 n) (ix2 n (0 : Fin 1))
      (by rw [Shape.rowMajor_val_two, Shape.rowMajor_val_one]; show n.val * 1 + 0 = n.val; omega),
    takenRef_apply _ t n h0 h1, logpRef_apply, picked_eq _ _ h0 h1]
  exact neg_sub_sub_eq _ _ _ (hx _) (rowMax_real _ hs) l hl

end Cert.ReferenceIdeal.RefValue
end
-- ==== Proof.RefCnt.lean ====
/-
  The reference's group counts read at a group: the accumulating scatter of ones from zeros has, at group `q`, the
  number of samples whose group word read signed is `q`, as a sum of ones in the extended reals.
-/
import proofs.«400365_j6073083757069_2_alg».proof.Proof.RefTerms
import proofs.«400365_j6073083757069_2_alg».proof.Proof.Spec
import proofs.«400365_j6073083757069_2_alg».proof.Proof.LibGatherScatter
import Idealize.ShloMosaic.PureOps.Ideal.Laws
import Idealize.ShloMosaic.Lib.ValueIdx
import Idealize.ShloMosaic.Lib.StableHlo.Predicate

open scoped BigOperators

noncomputable section

namespace Cert.ReferenceIdeal.RefValue

open Cert.ReferenceIdeal Idealize.ShloMosaic Idealize.ShloMosaic.ValueIdx
open Facts₀ Facts

/-- The single-precision pattern of one is the real number one. -/
theorem ofBits_one_f32 : Ideal.ofBits .f32 0x3F800000#32 = 1 := by
  simp [Ideal.ofBits, Ideal.ieee, -EReal.coe_mul]; norm_num

/-- The group words laid out as a column read, at row `n`, the word of sample `n`. -/
theorem gidCol_apply [Facts] (g : IVec S1048576 32) (n : Fin 1048576) :
    broadcastInDim S1048576x1 ![0] bcast_S1048576_S1048576x1_0 g (ix2 n (0 : Fin 1)) = g (ix1 n) := by
  simp only [broadcastInDim]
  congr 1
  funext a
  obtain rfl : a = 0 := Subsingleton.elim _ _
  refine Fin.ext ?_
  split
  · next h1 => exact absurd h1 (by decide)
  · rfl

/-- THE COUNTS AT A GROUP: zero plus a one for every sample whose group word read signed is the group. -/
theorem cntRef_apply [Facts] (g : IVec S1048576 32) (q : Fin 512) :
    cntRef (F := Ideal) g (ix1 q) = Cert.Proof.Spec.cntOf (fun n : Fin 1048576 => g (ix1 n)) q := by
  unfold cntRef Cert.Proof.Spec.cntOf
  have hrec : scatter_S512_S1048576x1_S1048576_n_0_0_1
      = Cert.Proof.GS.scat1 512 1048576 scatter_S512_S1048576x1_S1048576_n_0_0_1_wf := rfl
  rw [hrec]
  refine (Cert.Proof.GS.scatterAdd_scat1_apply _ _ _ _ q).trans ?_
  have h0 : broadcastInDim S512 ![] bcast_S_S512 (constant (F := Ideal) S_ .f32 0x00000000#32) (ix1 q) = 0 :=
    Ideal.ofBits_zero_f32
  rw [h0, zero_add]
  refine Finset.sum_congr ?_ fun n _ => ?_
  · congr 1
    funext n
    rw [gidCol_apply]
  · exact ofBits_one_f32

end Cert.ReferenceIdeal.RefValue

end
-- ==== Proof.PreFacts.lean ====
/-
  The precondition read back: when the precondition function is all ones, every score is a finite real (neither
  infinity) and every label word, read signed, lies in [0, 128).
-/
import proofs.«400365_j6073083757069_2_alg».proof.Pre_finite_inputs
import Idealize.ShloMosaic.PureOps.Ideal.Laws
import Idealize.ShloMosaic.Lib.ValueIdx
import Idealize.ShloMosaic.Lib.ReduceAll
import Idealize.ShloMosaic.Lib.StableHlo.Predicate

noncomputable section

namespace Cert.Proof.PreFacts

open Idealize.ShloMosaic Idealize.ShloMosaic.ValueIdx Cert.Pre_finite_inputs
open Facts

/-- The rank-0 shape has one index. -/
instance : Subsingleton S_.Idx := ⟨fun a b => funext fun d => d.elim0⟩

/-- The single-precision pattern of plus infinity is the top of the extended reals. -/
theorem ofBits_inf_f32 : Ideal.ofBits .f32 0x7F800000#32 = ⊤ := by simp [Ideal.ofBits, Ideal.ieee]

/-- An extended real whose absolute value, `max a (-a)`, is below plus infinity is neither infinity. -/
theorem finite_of_abs_lt_top (a : EReal) (h : max a (-a) < ⊤) : a ≠ ⊥ ∧ a ≠ ⊤ := by
  constructor
  · rintro rfl; simp at h
  · rintro rfl; simp at h

/-- A word that compares signed-greater-or-equal to zero reads signed as a non-negative integer. -/
theorem toInt_nonneg_of_sge {a : BitVec 32} (h : IntOp.cmpi .sge a 0#32 = 1#1) : 0 ≤ a.toInt := by
  unfold IntOp.cmpi at h
  have h' := (StableHlo.Predicate.ofBool_eq_one_iff _).1 h
  simp only [BitVec.sle, decide_eq_true_eq] at h'
  simpa using h'

/-- A word that compares signed-less than 128 reads signed below 128. -/
theorem toInt_lt_of_slt {a : BitVec 32} (h : IntOp.cmpi .slt a 128#32 = 1#1) : a.toInt < 128 := by
  unfold IntOp.cmpi at h
  have h' := (StableHlo.Predicate.ofBool_eq_one_iff _).1 h
  simp only [BitVec.slt, decide_eq_true_eq] at h'
  have e : (128#32 : BitVec 32).toInt = 128 := by decide
  rwa [e] at h'

/-- THE PRECONDITION DECODED. -/
theorem of_pre [Facts] (x : FVec Ideal S1048576x128 .f32) (t s : IVec S1048576 32)
    (h : fn (F := Ideal) x t s = fun _ => 1#1) :
    (∀ i, x i ≠ ⊥ ∧ x i ≠ ⊤) ∧ (∀ n : Fin 1048576, 0 ≤ (t (ix1 n)).toInt ∧ (t (ix1 n)).toInt < 128) := by
  have h0 := congrFun h ix0
  dsimp only [fn] at h0
  obtain ⟨h12, h3⟩ := IntOp.andi_eq_one.1 h0
  obtain ⟨h1, h2⟩ := IntOp.andi_eq_one.1 h12
  refine ⟨fun i => ?_, fun n => ⟨?_, ?_⟩⟩
  · have hi : Ideal.cmp .olt (max (x i) (-(x i))) (Ideal.ofBits .f32 0x7F800000#32) = 1#1 :=
      Host.reduce_andi_all _ _ _ _ _ h1 i
    rw [ofBits_inf_f32] at hi
    unfold Ideal.cmp at hi
    have hlt := (StableHlo.Predicate.ofBool_eq_one_iff _).1 hi
    simp only [decide_eq_true_eq] at hlt
    exact finite_of_abs_lt_top _ hlt
  · have hn : IntOp.cmpi .sge (t (ix1 n)) 0#32 = 1#1 := Host.reduce_andi_all _ _ _ _ _ h2 (ix1 n)
    exact toInt_nonneg_of_sge hn
  · have hn : IntOp.cmpi .slt (t (ix1 n)) 128#32 = 1#1 := Host.reduce_andi_all _ _ _ _ _ h3 (ix1 n)
    exact toInt_lt_of_slt hn

end Cert.Proof.PreFacts

end
-- ==== Proof.LibColumnCasts.lean ====
/-
  A vector and the column that holds it: an `[a]` array cast to `[a, 1]` reads, at `(i, u)`, the operand at `i`, and an
  `[a, 1]` array cast to `[a]` reads, at `i`, the operand at `(i, 0)` — both by the row-major position, which a trailing
  unit axis does not change.
-/
import Idealize.ShloMosaic.Lib.Pipeline.Value
import Idealize.ShloMosaic.Lib.ValueIdx

namespace Cert.Proof.Casts

open Idealize.ShloMosaic Idealize.ShloMosaic.ValueIdx

variable {α : Type}

/-- A column cast to the vector it holds reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Proof.Casts
-- ==== Proof.Bridge.lean ====
/-
  The two programs compute one number. At the ideal instance the kernel program's result is the closing steps — each
  sample's value over the count its group word selects, summed — applied to the cross-entropy region's column and the
  histogram region's counts; the reference's result is the same closing steps applied to its negated log-softmax entry
  at the label and its scattered counts. Under the precondition (every score real, every label one of the 128
  classes) the two columns are, entry by entry, the specification's cross-entropy of the sample's row and label, and
  the two count vectors are, entry by entry, the specification's count of the group word; the group words are computed
  by the same two integer operations. So the closing steps are applied to equal arguments.
-/
import proofs.«400365_j6073083757069_2_alg».proof.Defs
import proofs.«400365_j6073083757069_2_alg».proof.Proof.KerTail
import proofs.«400365_j6073083757069_2_alg».proof.Proof.CeKernel
import proofs.«400365_j6073083757069_2_alg».proof.Proof.HistValue
import proofs.«400365_j6073083757069_2_alg».proof.Proof.RefCe
import proofs.«400365_j6073083757069_2_alg».proof.Proof.RefCnt
import proofs.«400365_j6073083757069_2_alg».proof.Proof.PreFacts
import proofs.«400365_j6073083757069_2_alg».proof.Proof.LibColumnCasts
import Idealize.ShloMosaic.Lib.ValueLayout

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-- The kernel program's cross-entropy column, re-laid as a vector, at sample `n`: the specification's cross-entropy of
    the sample's row of scores and its label. -/
theorem ceK_apply (c : Dev nD) (n : Fin 1048576) :
    shapeCast S1048576 ((dat1 (V3 m) c).arrAt 2 cfg1.N : FVec Ideal S1048576x1 .f32) Facts₀.shapeCasts_S1048576x1_S1048576 (ix1 n)
      = Cert.Proof.Spec.ceOf (fun k : Fin 128 => (m ((c : Thread nD τ).loc main_arg0) : FVec Ideal S1048576x128 .f32) (ix2 n k))
          ((m ((c : Thread nD τ).loc main_arg1) : IVec S1048576 32) (ix1 n)) := by
  rw [Cert.Proof.Casts.shapeCast_a1_a_apply, arrAt_ce_apply (V3 m) c n]
  have h0 : (V3 m c main_arg0 : FVec Ideal S1048576x128 .f32) = m ((c : Thread nD τ).loc main_arg0) := W3_arg0 m c
  have h1 : (V3 m c main_v6 : IVec S1048576x1 32) (ix2 n (0 : Fin 1)) = (m ((c : Thread nD τ).loc main_arg1) : IVec S1048576 32) (ix1 n) := by
    rw [show (V3 m c main_v6 : IVec S1048576x1 32) = _ from W3_v6 m c]
    exact Cert.Proof.Casts.shapeCast_a_a1_apply _ _ n 0
  rw [h0, h1]

/-- The kernel program's counts, re-laid as a vector, at group `q`: the specification's count of the group word. -/
theorem cntK_apply (c : Dev nD) (q : Fin 512) :
    shapeCast S512 ((dat0 (V1 m) c).arrAt 1 cfg0.N : FVec Ideal S1x512 .f32) Facts₀.shapeCasts_S1x512_S512 (ix1 q)
      = Cert.Proof.Spec.cntOf (fun n : Fin 1048576 => gidOfK (m ((c : Thread nD τ).loc main_arg1)) (m ((c : Thread nD τ).loc main_arg2)) (ix1 n)) q := by
  rw [shapeCast_1a_a_apply, hist_array (V1 m) c q]
  congr 1
  funext n
  rw [show (V1 m c main_v3 : IVec S1048576x1 32) = _ from W1_v3 m c]
  exact Cert.Proof.Casts.shapeCast_a_a1_apply _ _ n 0

/-- THE RESULT: under the precondition the kernel program's result is the reference's result of the same arguments. -/
theorem result_eq [Cert.Pre_finite_inputs.Facts] [Cert.ReferenceIdeal.Facts] (c : Dev nD)
    (hpre : Cert.Pre_finite_inputs.fn (F := Ideal) (m ((c : Thread nD τ).loc main_arg0)) (m ((c : Thread nD τ).loc main_arg1))
      (m ((c : Thread nD τ).loc main_arg2)) = fun _ => 1#1) :
    (W5 m c (Proc.devRef .tc main_v17) : FVec Ideal S_ .f32)
      = Cert.ReferenceIdeal.RefValue.resultRef (F := Ideal) (m ((c : Thread nD τ).loc main_arg0)) (m ((c : Thread nD τ).loc main_arg1))
          (m ((c : Thread nD τ).loc main_arg2)) := by
  obtain ⟨hx, ht⟩ := Cert.Proof.PreFacts.of_pre _ _ _ hpre
  rw [W5_v17]
  unfold Cert.ReferenceIdeal.RefValue.resultRef
  have hce : shapeCast S1048576 ((dat1 (V3 m) c).arrAt 2 cfg1.N : FVec Ideal S1048576x1 .f32) Facts₀.shapeCasts_S1048576x1_S1048576
      = Cert.ReferenceIdeal.RefValue.ceRef (F := Ideal) (m ((c : Thread nD τ).loc main_arg0)) (m ((c : Thread nD τ).loc main_arg1)) := by
    funext i
    obtain ⟨n, rfl⟩ : ∃ n : Fin 1048576, i = ix1 n := ⟨i 0, eq_ix1 i⟩
    rw [ceK_apply]
    exact (Cert.ReferenceIdeal.RefValue.ceRef_apply _ _ hx ht n).symm
  have hcnt : shapeCast S512 ((dat0 (V1 m) c).arrAt 1 cfg0.N : FVec Ideal S1x512 .f32) Facts₀.shapeCasts_S1x512_S512
      = Cert.ReferenceIdeal.RefValue.cntRef (F := Ideal)
          (Cert.ReferenceIdeal.RefValue.gidOf (m ((c : Thread nD τ).loc main_arg1)) (m ((c : Thread nD τ).loc main_arg2))) := by
    funext i
    obtain ⟨q, rfl⟩ : ∃ q : Fin 512, i = ix1 q := ⟨i 0, eq_ix1 i⟩
    rw [cntK_apply]
    exact (Cert.ReferenceIdeal.RefValue.cntRef_apply _ q).symm
  rw [hce, hcnt]
  generalize Cert.ReferenceIdeal.RefValue.ceRef (F := Ideal) (m ((c : Thread nD τ).loc main_arg0)) (m ((c : Thread nD τ).loc main_arg1)) = A
  generalize Cert.ReferenceIdeal.RefValue.cntRef (F := Ideal)
    (Cert.ReferenceIdeal.RefValue.gidOf (m ((c : Thread nD τ).loc main_arg1)) (m ((c : Thread nD τ).loc main_arg2))) = B
  rfl

end Cert.Proof.Bridge

end
-- ==== Proof.RefStages.lean ====
/-
  The reference program's run, read stretch by stretch: its sixty-two host operations are cut into seven consecutive
  stretches; from ANY contents of the buffers each stretch leaves in its result buffer the corresponding named piece of
  the reference's result (the log-softmax, the wrapped column index, its range test, the entry taken, its negation and
  the group words, the group counts, the closing quotient and sum) applied to what its input buffers held, and leaves
  every buffer it does not write as it was. Chaining the seven from the launch contents gives the run: the result buffer
  ends at `resultRef` of the three arguments' launch contents, and the arguments end as launched.
-/
import proofs.«400365_j6073083757069_2_alg».proof.Proof.RefRun
import proofs.«400365_j6073083757069_2_alg».proof.Proof.RefTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one written buffer is among the references of a list writes within that list. -/
theorem writes_single {op : HloOp τ sig (Elt F)} {y : Ref sig .tc} {L : List (Ref sig .tc)}
    (hw : op.writes = {Proc.devRef .tc y}) (hy : y ∈ L) :
    op.writes ⊆ (L.map (Proc.devRef (τ := τ) .tc)).toFinset := by
  rw [hw, Finset.singleton_subset_iff, List.mem_toFinset]
  exact List.mem_map_of_mem hy

/-! ## The typed references' transports are the identity

A typed reference moves contents between the value's type and the buffer's type along an equation of types that holds
by computation at each literal reference, so each transport is the identity there; stated for the references at which a
stretch begins or ends, so that a stretch's result is read free of transports. -/

/-- Reading back at a typed reference what was stored through it is the identity. -/
theorem ofBuf_toBuf {T : BufTy} (x : TRef sig T) (v : T.Contents (Elt F)) : x.ofBuf (x.toBuf v) = v := by
  obtain ⟨r, h, a, b⟩ := x
  subst h
  rfl

theorem ofBuf_main_arg0 (v : (⟨S1048576x128, .f32⟩ : BufTy).Contents (Elt F)) : (TRef.of (T := ⟨S1048576x128, .f32⟩) main_arg0).ofBuf (Val := Elt F) v = v := rfl
theorem ofBuf_main_v0 (v : (⟨S1048576x128, .f32⟩ : BufTy).Contents (Elt F)) : (TRef.of (T := ⟨S1048576x128, .f32⟩) main_v0).ofBuf (Val := Elt F) v = v := rfl
theorem toBuf_main_v0 (v : (⟨S1048576x128, .f32⟩ : BufTy).Contents (Elt F)) : (TRef.of (T := ⟨S1048576x128, .f32⟩) main_v0).toBuf (Val := Elt F) v = v := rfl
theorem ofBuf_main_v1 (v : (⟨S1048576x1, .i32⟩ : BufTy).Contents (Elt F)) : (TRef.of (T := ⟨S1048576x1, .i32⟩) main_v1).ofBuf (Val := Elt F) v = v := rfl
theorem toBuf_main_call1_v4 (v : (⟨S1048576x1, .i32⟩ : BufTy).Contents (Elt F)) : (TRef.of (T := ⟨S1048576x1, .i32⟩) main_call1_v4).toBuf (Val := Elt F) v = v := rfl
theorem ofBuf_main_call1_v5 (v : (⟨S1048576x1x1, .i32⟩ : BufTy).Contents (Elt F)) : (TRef.of (T := ⟨S1048576x1x1, .i32⟩) main_call1_v5).ofBuf (Val := Elt F) v = v := rfl
theorem ofBuf_main_call1_v12 (v : (⟨S1048576x1, .i1⟩ : BufTy).Contents (Elt F)) : (TRef.of (T := ⟨S1048576x1, .i1⟩) main_call1_v12).ofBuf (Val := Elt F) v = v := rfl
theorem toBuf_main_call1_v12 (v : (⟨S1048576x1, .i1⟩ : BufTy).Contents (Elt F)) : (TRef.of (T := ⟨S1048576x1, .i1⟩) main_call1_v12).toBuf (Val := Elt F) v = v := rfl
theorem toBuf_main_v2 (v : (⟨S1048576x1, .f32⟩ : BufTy).Contents (Elt F)) : (TRef.of (T := ⟨S1048576x1, .f32⟩) main_v2).toBuf (Val := Elt F) v = v := rfl

/-! ## The operations, cut into seven stretches -/

/-- The row-wise log-softmax of the scores: fifteen operations, ending in `main_v0`. -/
abbrev opsA : List (HloOp τ sig (Elt F)) :=
  [ TRef.nullary (TRef.of (T := ⟨S_, .f32⟩) main_call0_cst) (constant S_ .f32 0xFF800000#32),
    TRef.binary (TRef.of (T := ⟨S1048576x128, .f32⟩) main_arg0) (TRef.of (T := ⟨S_, .f32⟩) main_call0_cst) (TRef.of (T := ⟨S1048576, .f32⟩) main_call0_v0) (fun x v => Host.reduce FloatOps.maximumf x v reducesTo_S1048576x128_S1048576_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_call0_v0) (TRef.of (T := ⟨S1048576, .f32⟩) main_call0_v2) maximumf,
    TRef.unary (TRef.of (T := ⟨S1048576, .f32⟩) main_call0_v2) (TRef.of (T := ⟨S1048576x1, .f32⟩) main_call0_v3) (broadcastInDim S1048576x1 ![0] bcast_S1048576_S1048576x1_0),
    TRef.unary (TRef.of (T := ⟨S1048576x1, .f32⟩) main_call0_v3) (TRef.of (T := ⟨S1048576x128, .f32⟩) main_call0_v4) (broadcastInDim S1048576x128 ![0, 1] bcast_S1048576x1_S1048576x128_0_1),
    TRef.binary (TRef.of (T := ⟨S1048576x128, .f32⟩) main_arg0) (TRef.of (T := ⟨S1048576x128, .f32⟩) main_call0_v4) (TRef.of (T := ⟨S1048576x128, .f32⟩) main_call0_v5) subf,
    TRef.unary (TRef.of (T := ⟨S1048576x128, .f32⟩) main_call0_v5) (TRef.of (T := ⟨S1048576x128, .f32⟩) main_call0_v6) Host.exp,
    TRef.nullary (TRef.of (T := ⟨S_, .f32⟩) main_call0_cst_1) (constant S_ .f32 0x00000000#32),
    TRef.binary (TRef.of (T := ⟨S1048576x128, .f32⟩) main_call0_v6) (TRef.of (T := ⟨S_, .f32⟩) main_call0_cst_1) (TRef.of (T := ⟨S1048576, .f32⟩) main_call0_v7) (fun x v => Host.reduceAdd x v reducesTo_S1048576x128_S1048576_d1 h_S_),
    TRef.unary (TRef.of (T := ⟨S1048576, .f32⟩) main_call0_v7) (TRef.of (T := ⟨S1048576x1, .f32⟩) main_call0_v8) (broadcastInDim S1048576x1 ![0] bcast_S1048576_S1048576x1_0),
    TRef.unary (TRef.of (T := ⟨S1048576x1, .f32⟩) main_call0_v8) (TRef.of (T := ⟨S1048576x1, .f32⟩) main_call0_v9) Host.log,
    TRef.unary (TRef.of (T := ⟨S1048576x1, .f32⟩) main_call0_v9) (TRef.of (T := ⟨S1048576x128, .f32⟩) main_call0_v10) (broadcastInDim S1048576x128 ![0, 1] bcast_S1048576x1_S1048576x128_0_1),
    TRef.binary (TRef.of (T := ⟨S1048576x128, .f32⟩) main_call0_v5) (TRef.of (T := ⟨S1048576x128, .f32⟩) main_call0_v10) (TRef.of (T := ⟨S1048576x128, .f32⟩) main_v0) subf ]

/-- The labels as a column and their wrap into a column index: nine operations, ending in `main_call1_v5`. -/
abbrev opsB1 : List (HloOp τ sig (Elt F)) :=
  [ unary main_arg1 main_v1 (broadcastInDim S1048576x1 ![0] bcast_S1048576_S1048576x1_0 : (⟨S1048576, .i32⟩ : BufTy).Contents (Elt F) → (⟨S1048576x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1048576x1, .i32⟩) main_call1_v0) (broadcastInDim S1048576x1 ![] bcast_S_S1048576x1),
    TRef.binary (TRef.of (T := ⟨S1048576x1, .i32⟩) main_v1) (TRef.of (T := ⟨S1048576x1, .i32⟩) main_call1_v0) (TRef.of (T := ⟨S1048576x1, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S1048576x1, .i32⟩) main_call1_v2) (broadcastInDim S1048576x1 ![] bcast_S_S1048576x1),
    TRef.binary (TRef.of (T := ⟨S1048576x1, .i32⟩) main_v1) (TRef.of (T := ⟨S1048576x1, .i32⟩) main_call1_v2) (TRef.of (T := ⟨S1048576x1, .i32⟩) main_call1_v3) addi,
    TRef.ternary (TRef.of (T := ⟨S1048576x1, .i1⟩) main_call1_v1) (TRef.of (T := ⟨S1048576x1, .i32⟩) main_call1_v3) (TRef.of (T := ⟨S1048576x1, .i32⟩) main_v1) (TRef.of (T := ⟨S1048576x1, .i32⟩) main_call1_v4) select,
    TRef.reshape (TRef.of (T := ⟨S1048576x1, .i32⟩) main_call1_v4) (TRef.of (T := ⟨S1048576x1x1, .i32⟩) main_call1_v5) rfl shapeCasts_S1048576x1_S1048576x1x1 ]

/-- Whether the column index names a class: ten operations, ending in `main_call1_v12`. -/
abbrev opsB2 : List (HloOp τ sig (Elt F)) :=
  [ TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S1048576x1x1, .i32⟩) main_call1_v6) (broadcastInDim S1048576x1x1 ![] bcast_S_S1048576x1x1),
    TRef.binary (TRef.of (T := ⟨S1048576x1x1, .i32⟩) main_call1_v5) (TRef.of (T := ⟨S1048576x1x1, .i32⟩) main_call1_v6) (TRef.of (T := ⟨S1048576x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1048576x1x1, .i32⟩) main_call1_v9) (broadcastInDim S1048576x1x1 ![0, 1, 2] bcast_S1x1x1_S1048576x1x1_0_1_2),
    TRef.binary (TRef.of (T := ⟨S1048576x1x1, .i32⟩) main_call1_v5) (TRef.of (T := ⟨S1048576x1x1, .i32⟩) main_call1_v9) (TRef.of (T := ⟨S1048576x1x1, .i1⟩) main_call1_v10) (cmpi .sle),
    TRef.binary (TRef.of (T := ⟨S1048576x1x1, .i1⟩) main_call1_v7) (TRef.of (T := ⟨S1048576x1x1, .i1⟩) main_call1_v10) (TRef.of (T := ⟨S1048576x1x1, .i1⟩) main_call1_v11) andi,
    TRef.nullary (TRef.of (T := ⟨S_, .i1⟩) main_call1_c_3) (constantI S_ 1 1#1),
    TRef.binary (TRef.of (T := ⟨S1048576x1x1, .i1⟩) main_call1_v11) (TRef.of (T := ⟨S_, .i1⟩) main_call1_c_3) (TRef.of (T := ⟨S1048576x1, .i1⟩) main_call1_v12) (fun x v => Host.reduce IntOp.andi x v reducesTo_S1048576x1x1_S1048576x1_d2 h_S_) ]

/-- The entry taken at the column index, or a not-a-number: four operations, ending in `main_v2`. -/
abbrev opsB3 : List (HloOp τ sig (Elt F)) :=
  [ TRef.binary (TRef.of (T := ⟨S1048576x128, .f32⟩) main_v0) (TRef.of (T := ⟨S1048576x1x1, .i32⟩) main_call1_v5) (TRef.of (T := ⟨S1048576x1, .f32⟩) main_call1_v13) (fun x i => Host.gather gather_S1048576x128_S1048576x1x1_S1048576x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1048576x1, .f32⟩) main_call1_v14) (broadcastInDim S1048576x1 ![] bcast_S_S1048576x1),
    TRef.ternary (TRef.of (T := ⟨S1048576x1, .i1⟩) main_call1_v12) (TRef.of (T := ⟨S1048576x1, .f32⟩) main_call1_v13) (TRef.of (T := ⟨S1048576x1, .f32⟩) main_call1_v14) (TRef.of (T := ⟨S1048576x1, .f32⟩) main_v2) select ]

/-- The negated entry as a vector, and the group words: six operations, ending in `main_v4` and `main_v7`. -/
abbrev opsC1 : List (HloOp τ sig (Elt F)) :=
  [ reshape main_v2 main_v3 rfl shapeCasts_S1048576x1_S1048576,
    unary main_v3 main_v4 (Host.negf : (⟨S1048576, .f32⟩ : BufTy).Contents (Elt F) → (⟨S1048576, .f32⟩ : BufTy).Contents (Elt F)),
    nullary main_c (constantI S_ 32 4#32),
    unary main_c main_v5 (broadcastInDim S1048576 ![] bcast_S_S1048576 : (⟨S_, .i32⟩ : BufTy).Contents (Elt F) → (⟨S1048576, .i32⟩ : BufTy).Contents (Elt F)),
    binary main_arg1 main_v5 main_v6 (muli : (⟨S1048576, .i32⟩ : BufTy).Contents (Elt F) → (⟨S1048576, .i32⟩ : BufTy).Contents (Elt F) → (⟨S1048576, .i32⟩ : BufTy).Contents (Elt F)),
    binary main_v6 main_arg2 main_v7 (addi : (⟨S1048576, .i32⟩ : BufTy).Contents (Elt F) → (⟨S1048576, .i32⟩ : BufTy).Contents (Elt F) → (⟨S1048576, .i32⟩ : BufTy).Contents (Elt F)) ]

/-- The group counts by an accumulating scatter of ones: six operations, ending in `main_v11`. -/
abbrev opsC2 : List (HloOp τ sig (Elt F)) :=
  [ nullary main_cst (constant S_ .f32 0x3F800000#32),
    unary main_cst main_v8 (broadcastInDim S1048576 ![] bcast_S_S1048576 : (⟨S_, .f32⟩ : BufTy).Contents (Elt F) → (⟨S1048576, .f32⟩ : BufTy).Contents (Elt F)),
    nullary main_cst_0 (constant S_ .f32 0x00000000#32),
    unary main_cst_0 main_v9 (broadcastInDim S512 ![] bcast_S_S512 : (⟨S_, .f32⟩ : BufTy).Contents (Elt F) → (⟨S512, .f32⟩ : BufTy).Contents (Elt F)),
    unary main_v7 main_v10 (broadcastInDim S1048576x1 ![0] bcast_S1048576_S1048576x1_0 : (⟨S1048576, .i32⟩ : BufTy).Contents (Elt F) → (⟨S1048576x1, .i32⟩ : BufTy).Contents (Elt F)),
    ternary main_v9 main_v10 main_v8 main_v11 ((fun x i u => Host.scatterAdd scatter_S512_S1048576x1_S1048576_n_0_0_1 x i u) : (⟨S512, .f32⟩ : BufTy).Contents (Elt F) → (⟨S1048576x1, .i32⟩ : BufTy).Contents (Elt F) → (⟨S1048576, .f32⟩ : BufTy).Contents (Elt F) → (⟨S512, .f32⟩ : BufTy).Contents (Elt F)) ]

/-- The count of each sample's group, the quotient and the closing sum: twelve operations, ending in `main_v20`. -/
abbrev opsC3 : List (HloOp τ sig (Elt F)) :=
  [ nullary main_c_1 (constantI S_ 32 0#32),
    unary main_c_1 main_v12 (broadcastInDim S1048576 ![] bcast_S_S1048576 : (⟨S_, .i32⟩ : BufTy).Contents (Elt F) → (⟨S1048576, .i32⟩ : BufTy).Contents (Elt F)),
    binary main_v7 main_v12 main_v13 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 512#32),
    unary main_c_2 main_v14 (broadcastInDim S1048576 ![] bcast_S_S1048576 : (⟨S_, .i32⟩ : BufTy).Contents (Elt F) → (⟨S1048576, .i32⟩ : BufTy).Contents (Elt F)),
    binary main_v7 main_v14 main_v15 (addi : (⟨S1048576, .i32⟩ : BufTy).Contents (Elt F) → (⟨S1048576, .i32⟩ : BufTy).Contents (Elt F) → (⟨S1048576, .i32⟩ : BufTy).Contents (Elt F)),
    ternary main_v13 main_v15 main_v7 main_v16 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v16 main_v17 (broadcastInDim S1048576x1 ![0] bcast_S1048576_S1048576x1_0 : (⟨S1048576, .i32⟩ : BufTy).Contents (Elt F) → (⟨S1048576x1, .i32⟩ : BufTy).Contents (Elt F)),
    binary main_v11 main_v17 main_v18 ((fun x i => Host.gather gather_S512_S1048576x1_S1048576_n_0_n_n_0_1_1 x i) : (⟨S512, .f32⟩ : BufTy).Contents (Elt F) → (⟨S1048576x1, .i32⟩ : BufTy).Contents (Elt F) → (⟨S1048576, .f32⟩ : BufTy).Contents (Elt F)),
    binary main_v4 main_v18 main_v19 (Host.divf : (⟨S1048576, .f32⟩ : BufTy).Contents (Elt F) → (⟨S1048576, .f32⟩ : BufTy).Contents (Elt F) → (⟨S1048576, .f32⟩ : BufTy).Contents (Elt F)),
    nullary main_cst_3 (constant S_ .f32 0x00000000#32),
    binary main_v19 main_cst_3 main_v20 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)) ]

/-- The reference's operations are the seven stretches in order. -/
theorem ops_cut : (ValueP.ops : List (HloOp τ sig (Elt F))) = opsA ++ (opsB1 ++ (opsB2 ++ (opsB3 ++ (opsC1 ++ (opsC2 ++ opsC3))))) := rfl

/-! ## What each stretch writes, and that it leaves every other buffer alone -/

/-- The references the operations of `opsA` write. -/
abbrev wrA : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v0]
theorem opsA_writes : (opsA : List (HloOp τ sig (Elt F))).Forall fun op => op.writes ⊆ (wrA.map (Proc.devRef (τ := τ) .tc)).toFinset :=
  ⟨writes_single (y := main_call0_cst) rfl (by decide),
    writes_single (y := main_call0_v0) rfl (by decide),
    writes_single (y := main_call0_cst_0) rfl (by decide),
    writes_single (y := main_call0_v1) rfl (by decide),
    writes_single (y := main_call0_v2) rfl (by decide),
    writes_single (y := main_call0_v3) rfl (by decide),
    writes_single (y := main_call0_v4) rfl (by decide),
    writes_single (y := main_call0_v5) rfl (by decide),
    writes_single (y := main_call0_v6) rfl (by decide),
    writes_single (y := main_call0_cst_1) rfl (by decide),
    writes_single (y := main_call0_v7) rfl (by decide),
    writes_single (y := main_call0_v8) rfl (by decide),
    writes_single (y := main_call0_v9) rfl (by decide),
    writes_single (y := main_call0_v10) rfl (by decide),
    writes_single (y := main_v0) rfl (by decide)⟩
theorem keepA (W : Valuation τ sig (Elt F)) (r : Ref sig .tc) (h : r ∉ wrA) :
    after opsA W (Proc.devRef .tc r) = W (Proc.devRef .tc r) :=
  after_of_writes_sub opsA W opsA_writes h

/-- The references the operations of `opsB1` write. -/
abbrev wrB1 : List (Ref sig .tc) := [main_v1, main_call1_c, main_call1_v0, main_call1_v1, main_call1_c_0, main_call1_v2, main_call1_v3, main_call1_v4, main_call1_v5]
theorem opsB1_writes : (opsB1 : List (HloOp τ sig (Elt F))).Forall fun op => op.writes ⊆ (wrB1.map (Proc.devRef (τ := τ) .tc)).toFinset :=
  ⟨writes_single (y := main_v1) rfl (by decide),
    writes_single (y := main_call1_c) rfl (by decide),
    writes_single (y := main_call1_v0) rfl (by decide),
    writes_single (y := main_call1_v1) rfl (by decide),
    writes_single (y := main_call1_c_0) rfl (by decide),
    writes_single (y := main_call1_v2) rfl (by decide),
    writes_single (y := main_call1_v3) rfl (by decide),
    writes_single (y := main_call1_v4) rfl (by decide),
    writes_single (y := main_call1_v5) rfl (by decide)⟩
theorem keepB1 (W : Valuation τ sig (Elt F)) (r : Ref sig .tc) (h : r ∉ wrB1) :
    after opsB1 W (Proc.devRef .tc r) = W (Proc.devRef .tc r) :=
  after_of_writes_sub opsB1 W opsB1_writes h

/-- The references the operations of `opsB2` write. -/
abbrev wrB2 : List (Ref sig .tc) := [main_call1_c_1, main_call1_c_2, main_call1_v6, main_call1_v7, main_call1_v8, main_call1_v9, main_call1_v10, main_call1_v11, main_call1_c_3, main_call1_v12]
theorem opsB2_writes : (opsB2 : List (HloOp τ sig (Elt F))).Forall fun op => op.writes ⊆ (wrB2.map (Proc.devRef (τ := τ) .tc)).toFinset :=
  ⟨writes_single (y := main_call1_c_1) rfl (by decide),
    writes_single (y := main_call1_c_2) rfl (by decide),
    writes_single (y := main_call1_v6) rfl (by decide),
    writes_single (y := main_call1_v7) rfl (by decide),
    writes_single (y := main_call1_v8) rfl (by decide),
    writes_single (y := main_call1_v9) rfl (by decide),
    writes_single (y := main_call1_v10) rfl (by decide),
    writes_single (y := main_call1_v11) rfl (by decide),
    writes_single (y := main_call1_c_3) rfl (by decide),
    writes_single (y := main_call1_v12) rfl (by decide)⟩
theorem keepB2 (W : Valuation τ sig (Elt F)) (r : Ref sig .tc) (h : r ∉ wrB2) :
    after opsB2 W (Proc.devRef .tc r) = W (Proc.devRef .tc r) :=
  after_of_writes_sub opsB2 W opsB2_writes h

/-- The references the operations of `opsB3` write. -/
abbrev wrB3 : List (Ref sig .tc) := [main_call1_v13, main_call1_cst, main_call1_v14, main_v2]
theorem opsB3_writes : (opsB3 : List (HloOp τ sig (Elt F))).Forall fun op => op.writes ⊆ (wrB3.map (Proc.devRef (τ := τ) .tc)).toFinset :=
  ⟨writes_single (y := main_call1_v13) rfl (by decide),
    writes_single (y := main_call1_cst) rfl (by decide),
    writes_single (y := main_call1_v14) rfl (by decide),
    writes_single (y := main_v2) rfl (by decide)⟩
theorem keepB3 (W : Valuation τ sig (Elt F)) (r : Ref sig .tc) (h : r ∉ wrB3) :
    after opsB3 W (Proc.devRef .tc r) = W (Proc.devRef .tc r) :=
  after_of_writes_sub opsB3 W opsB3_writes h

/-- The references the operations of `opsC1` write. -/
abbrev wrC1 : List (Ref sig .tc) := [main_v3, main_v4, main_c, main_v5, main_v6, main_v7]
theorem opsC1_writes : (opsC1 : List (HloOp τ sig (Elt F))).Forall fun op => op.writes ⊆ (wrC1.map (Proc.devRef (τ := τ) .tc)).toFinset :=
  ⟨writes_single (y := main_v3) rfl (by decide),
    writes_single (y := main_v4) rfl (by decide),
    writes_single (y := main_c) rfl (by decide),
    writes_single (y := main_v5) rfl (by decide),
    writes_single (y := main_v6) rfl (by decide),
    writes_single (y := main_v7) rfl (by decide)⟩
theorem keepC1 (W : Valuation τ sig (Elt F)) (r : Ref sig .tc) (h : r ∉ wrC1) :
    after opsC1 W (Proc.devRef .tc r) = W (Proc.devRef .tc r) :=
  after_of_writes_sub opsC1 W opsC1_writes h

/-- The references the operations of `opsC2` write. -/
abbrev wrC2 : List (Ref sig .tc) := [main_cst, main_v8, main_cst_0, main_v9, main_v10, main_v11]
theorem opsC2_writes : (opsC2 : List (HloOp τ sig (Elt F))).Forall fun op => op.writes ⊆ (wrC2.map (Proc.devRef (τ := τ) .tc)).toFinset :=
  ⟨writes_single (y := main_cst) rfl (by decide),
    writes_single (y := main_v8) rfl (by decide),
    writes_single (y := main_cst_0) rfl (by decide),
    writes_single (y := main_v9) rfl (by decide),
    writes_single (y := main_v10) rfl (by decide),
    writes_single (y := main_v11) rfl (by decide)⟩
theorem keepC2 (W : Valuation τ sig (Elt F)) (r : Ref sig .tc) (h : r ∉ wrC2) :
    after opsC2 W (Proc.devRef .tc r) = W (Proc.devRef .tc r) :=
  after_of_writes_sub opsC2 W opsC2_writes h

/-- The references the operations of `opsC3` write. -/
abbrev wrC3 : List (Ref sig .tc) := [main_c_1, main_v12, main_v13, main_c_2, main_v14, main_v15, main_v16, main_v17, main_v18, main_v19, main_cst_3, main_v20]
theorem opsC3_writes : (opsC3 : List (HloOp τ sig (Elt F))).Forall fun op => op.writes ⊆ (wrC3.map (Proc.devRef (τ := τ) .tc)).toFinset :=
  ⟨writes_single (y := main_c_1) rfl (by decide),
    writes_single (y := main_v12) rfl (by decide),
    writes_single (y := main_v13) rfl (by decide),
    writes_single (y := main_c_2) rfl (by decide),
    writes_single (y := main_v14) rfl (by decide),
    writes_single (y := main_v15) rfl (by decide),
    writes_single (y := main_v16) rfl (by decide),
    writes_single (y := main_v17) rfl (by decide),
    writes_single (y := main_v18) rfl (by decide),
    writes_single (y := main_v19) rfl (by decide),
    writes_single (y := main_cst_3) rfl (by decide),
    writes_single (y := main_v20) rfl (by decide)⟩
theorem keepC3 (W : Valuation τ sig (Elt F)) (r : Ref sig .tc) (h : r ∉ wrC3) :
    after opsC3 W (Proc.devRef .tc r) = W (Proc.devRef .tc r) :=
  after_of_writes_sub opsC3 W opsC3_writes h

variable [Facts]

/-! ## What each stretch leaves in its result buffer, from any contents -/

attribute [local irreducible] Host.reduce Host.reduceAdd Host.gather Host.scatterAdd in
/-- The first stretch leaves the log-softmax of the scores in `main_v0`. -/
theorem stageA (W : Valuation τ sig (Elt F)) :
    after opsA W (Proc.devRef .tc main_v0) = logpRef (W (Proc.devRef .tc main_arg0)) := by
  after_results
  simp only [ofBuf_toBuf, ofBuf_main_arg0, toBuf_main_v0]
  rfl

attribute [local irreducible] Host.reduce Host.reduceAdd Host.gather Host.scatterAdd in
/-- The second stretch leaves the wrapped column index of the labels in `main_call1_v5`. -/
theorem stageB1 (W : Valuation τ sig (Elt F)) :
    after opsB1 W (Proc.devRef .tc main_call1_v5) = idxRef (W (Proc.devRef .tc main_arg1)) := by
  after_results
  simp only [ofBuf_toBuf, ofBuf_main_v1, toBuf_main_call1_v4]
  rfl

attribute [local irreducible] Host.reduce Host.reduceAdd Host.gather Host.scatterAdd in
/-- The third stretch leaves in `main_call1_v12` whether the index in `main_call1_v5` lies between 0 and 127. -/
theorem stageB2 (W : Valuation τ sig (Elt F)) :
    after opsB2 W (Proc.devRef .tc main_call1_v12)
      = Host.reduce IntOp.andi
          (andi (cmpi .sge (W (Proc.devRef .tc main_call1_v5)) (broadcastInDim S1048576x1x1 ![] bcast_S_S1048576x1x1 (constantI S_ 32 0#32)))
            (cmpi .sle (W (Proc.devRef .tc main_call1_v5)) (broadcastInDim S1048576x1x1 ![0, 1, 2] bcast_S1x1x1_S1048576x1x1_0_1_2 (broadcastInDim S1x1x1 ![2] bcast_S1_S1x1x1_2 (constantI S1 32 127#32)))))
          (constantI S_ 1 1#1) reducesTo_S1048576x1x1_S1048576x1_d2 h_S_ := by
  after_results
  simp only [ofBuf_toBuf, ofBuf_main_call1_v5, toBuf_main_call1_v12]

attribute [local irreducible] Host.reduce Host.reduceAdd Host.gather Host.scatterAdd in
/-- The fourth stretch leaves in `main_v2` the entry of `main_v0` gathered at `main_call1_v5` where `main_call1_v12` holds, else a not-a-number. -/
theorem stageB3 (W : Valuation τ sig (Elt F)) :
    after opsB3 W (Proc.devRef .tc main_v2)
      = select (W (Proc.devRef .tc main_call1_v12))
          (Host.gather gather_S1048576x128_S1048576x1x1_S1048576x1_n_1_0_0_1_2_11 (W (Proc.devRef .tc main_v0)) (W (Proc.devRef .tc main_call1_v5)))
          (broadcastInDim S1048576x1 ![] bcast_S_S1048576x1 (constant S_ .f32 0x7FC00000#32)) := by
  after_results
  simp only [ofBuf_toBuf, ofBuf_main_v0, ofBuf_main_call1_v5, ofBuf_main_call1_v12, toBuf_main_v2]

attribute [local irreducible] Host.reduce Host.reduceAdd Host.gather Host.scatterAdd in
/-- The fifth stretch leaves the negation of `main_v2`, as a vector, in `main_v4`. -/
theorem stageC1_v4 (W : Valuation τ sig (Elt F)) :
    after opsC1 W (Proc.devRef .tc main_v4) = Host.negf (shapeCast S1048576 (W (Proc.devRef .tc main_v2)) shapeCasts_S1048576x1_S1048576) := by
  after_results
  rfl

attribute [local irreducible] Host.reduce Host.reduceAdd Host.gather Host.scatterAdd in
/-- The fifth stretch leaves the group words in `main_v7`. -/
theorem stageC1_v7 (W : Valuation τ sig (Elt F)) :
    after opsC1 W (Proc.devRef .tc main_v7) = gidOf (W (Proc.devRef .tc main_arg1)) (W (Proc.devRef .tc main_arg2)) := by
  after_results
  rfl

attribute [local irreducible] Host.reduce Host.reduceAdd Host.gather Host.scatterAdd in
/-- The sixth stretch leaves the counts of the group words of `main_v7` in `main_v11`. -/
theorem stageC2 (W : Valuation τ sig (Elt F)) :
    after opsC2 W (Proc.devRef .tc main_v11) = cntRef (F := F) (W (Proc.devRef .tc main_v7)) := by
  after_results
  rfl

attribute [local irreducible] Host.reduce Host.reduceAdd Host.gather Host.scatterAdd in
/-- The seventh stretch leaves in `main_v20` the sum of `main_v4` over the counts `main_v11` taken at the group words `main_v7`. -/
theorem stageC3 (W : Valuation τ sig (Elt F)) :
    after opsC3 W (Proc.devRef .tc main_v20) = tailOf (W (Proc.devRef .tc main_v4)) (W (Proc.devRef .tc main_v11)) (W (Proc.devRef .tc main_v7)) := by
  after_results
  rfl

/-! ## The seven stretches chained -/

attribute [local irreducible] Host.reduce Host.reduceAdd Host.gather Host.scatterAdd in
/-- From any contents `V`, after all the operations the result buffer holds the reference's result of what `V` has in the
    three argument buffers, and those are as `V` has them: each stretch is read at the contents the stretches before it
    leave, of which only the named buffers' contents are kept. -/
theorem after_ops (V : Valuation τ sig (Elt F)) :
    after ValueP.ops V (Proc.devRef .tc main_v20) = resultRef (V (Proc.devRef .tc main_arg0)) (V (Proc.devRef .tc main_arg1)) (V (Proc.devRef .tc main_arg2))
      ∧ after ValueP.ops V (Proc.devRef .tc main_arg0) = V (Proc.devRef .tc main_arg0)
      ∧ after ValueP.ops V (Proc.devRef .tc main_arg1) = V (Proc.devRef .tc main_arg1)
      ∧ after ValueP.ops V (Proc.devRef .tc main_arg2) = V (Proc.devRef .tc main_arg2) := by
  rw [ops_cut, after_app, after_app, after_app, after_app, after_app, after_app]
  -- the log-softmax
  have x0 := keepA V main_arg0 (by decide)
  have x1 := keepA V main_arg1 (by decide)
  have x2 := keepA V main_arg2 (by decide)
  have xl := stageA V
  generalize after opsA V = V1 at x0 x1 x2 xl ⊢
  -- the column index
  have y0 := (keepB1 V1 main_arg0 (by decide)).trans x0
  have y1 := (keepB1 V1 main_arg1 (by decide)).trans x1
  have y2 := (keepB1 V1 main_arg2 (by decide)).trans x2
  have yl := (keepB1 V1 main_v0 (by decide)).trans xl
  have yi := (stageB1 V1).trans (by rw [x1])
  clear x0 x1 x2 xl
  generalize after opsB1 V1 = V2 at y0 y1 y2 yl yi ⊢
  -- whether it names a class
  have z0 := (keepB2 V2 main_arg0 (by decide)).trans y0
  have z1 := (keepB2 V2 main_arg1 (by decide)).trans y1
  have z2 := (keepB2 V2 main_arg2 (by decide)).trans y2
  have zl := (keepB2 V2 main_v0 (by decide)).trans yl
  have zi := (keepB2 V2 main_call1_v5 (by decide)).trans yi
  have zn : after opsB2 V2 (Proc.devRef .tc main_call1_v12) = inbRef (V (Proc.devRef .tc main_arg1)) := (stageB2 V2).trans (by rw [yi]; rfl)
  clear y0 y1 y2 yl yi
  generalize after opsB2 V2 = V3 at z0 z1 z2 zl zi zn ⊢
  -- the entry taken
  have u0 := (keepB3 V3 main_arg0 (by decide)).trans z0
  have u1 := (keepB3 V3 main_arg1 (by decide)).trans z1
  have u2 := (keepB3 V3 main_arg2 (by decide)).trans z2
  have ut : after opsB3 V3 (Proc.devRef .tc main_v2) = takenRef (logpRef (V (Proc.devRef .tc main_arg0))) (V (Proc.devRef .tc main_arg1)) :=
    (stageB3 V3).trans (by rw [zn, zl, zi]; rfl)
  clear z0 z1 z2 zl zi zn
  generalize after opsB3 V3 = V4 at u0 u1 u2 ut ⊢
  -- its negation, and the group words
  have v0 := (keepC1 V4 main_arg0 (by decide)).trans u0
  have v1 := (keepC1 V4 main_arg1 (by decide)).trans u1
  have v2 := (keepC1 V4 main_arg2 (by decide)).trans u2
  have vc : after opsC1 V4 (Proc.devRef .tc main_v4) = ceRef (V (Proc.devRef .tc main_arg0)) (V (Proc.devRef .tc main_arg1)) := (stageC1_v4 V4).trans (by rw [ut]; rfl)
  have vg : after opsC1 V4 (Proc.devRef .tc main_v7) = gidOf (V (Proc.devRef .tc main_arg1)) (V (Proc.devRef .tc main_arg2)) := (stageC1_v7 V4).trans (by rw [u1, u2])
  clear u0 u1 u2 ut
  generalize after opsC1 V4 = V5 at v0 v1 v2 vc vg ⊢
  -- the counts
  have w0 := (keepC2 V5 main_arg0 (by decide)).trans v0
  have w1 := (keepC2 V5 main_arg1 (by decide)).trans v1
  have w2 := (keepC2 V5 main_arg2 (by decide)).trans v2
  have wc := (keepC2 V5 main_v4 (by decide)).trans vc
  have wg := (keepC2 V5 main_v7 (by decide)).trans vg
  have wn : after opsC2 V5 (Proc.devRef .tc main_v11) = cntRef (F := F) (gidOf (V (Proc.devRef .tc main_arg1)) (V (Proc.devRef .tc main_arg2))) := (stageC2 V5).trans (by rw [vg])
  clear v0 v1 v2 vc vg
  generalize after opsC2 V5 = V6 at w0 w1 w2 wc wg wn ⊢
  -- the quotient and the sum
  refine ⟨(stageC3 V6).trans ?_, (keepC3 V6 main_arg0 (by decide)).trans w0, (keepC3 V6 main_arg1 (by decide)).trans w1,
    (keepC3 V6 main_arg2 (by decide)).trans w2⟩
  rw [wc, wn, wg]
  rfl

/-! ## The reference's run -/

/-- On every device, for any float values, from any memory with zero counters: every weakly fair execution of the
    reference's @main terminates with its result buffer at `resultRef` of the three argument buffers' launch contents,
    and those buffers as launched. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = resultRef (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v20).trans (after_ops (launchContents m c)).1,
     (h c main_arg0).trans (after_ops (launchContents m c)).2.1,
     (h c main_arg1).trans (after_ops (launchContents m c)).2.2.1,
     (h c main_arg2).trans (after_ops (launchContents m c)).2.2.2⟩) (ValueP.run_after m ρ)

end Cert.ReferenceIdeal.RefValue

end
-- ==== Proof.lean ====
/-
  The certificate. The kernel program is two kernel regions among three stretches of host operations: group words from
  the labels and the subgroups; a histogram region that counts each group word, tile by tile, in an accumulator it
  carries from one grid point to the next; a cross-entropy region that writes, per sample, the row maximum plus the
  logarithm of the sum of the shifted exponentials minus the score at the label; then each sample's value over its
  group's count, summed. The reference computes the negated log-softmax entry at the label over a scattered count,
  summed.

  Frames: both readings of the kernel program (the word-level one and the ideal one) run to the end from any memory,
  fault nowhere and leave every unscoped buffer at the final boundary contents, the arguments among them unchanged;
  the reference is a line of host operations. Nothing was rewritten by the ideal pass. At the ideal instance, under
  the precondition (every score real, every label one of the 128 classes), the two results are one number: the
  closing steps applied, on both sides, to the specification's cross-entropy column, the specification's counts and
  the same group words.
-/
import proofs.«400365_j6073083757069_2_alg».proof.Defs
import proofs.«400365_j6073083757069_2_alg».proof.Proof.Gen.Kernel
import proofs.«400365_j6073083757069_2_alg».proof.Proof.Gen.KernelIdeal
import proofs.«400365_j6073083757069_2_alg».proof.Proof.Gen.ReferenceIdeal
import proofs.«400365_j6073083757069_2_alg».proof.Proof.Gen.Pre_finite_inputs
import proofs.«400365_j6073083757069_2_alg».proof.Proof.KerTailB
import proofs.«400365_j6073083757069_2_alg».proof.Proof.Bridge
import proofs.«400365_j6073083757069_2_alg».proof.Proof.RefStages
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_arg0 m c),
     (h c _ (Cert.Kernel.Hand.mem_uc Cert.Kernel.main_arg1 (by decide))).trans (Cert.Kernel.Hand.W5_arg1 m c),
     (h c _ (Cert.Kernel.Hand.mem_uc Cert.Kernel.main_arg2 (by decide))).trans (Cert.Kernel.Hand.W5_arg2 m c)⟩)
    (Cert.Kernel.Hand.run_main (F := Bits) m ρ)

/-- The ideal kernel program runs and leaves its arguments as launched. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_arg0 m c),
     (h c _ (Cert.KernelIdeal.Hand.mem_uc Cert.KernelIdeal.main_arg1 (by decide))).trans (Cert.KernelIdeal.Hand.W5_arg1 m c),
     (h c _ (Cert.KernelIdeal.Hand.mem_uc Cert.KernelIdeal.main_arg2 (by decide))).trans (Cert.KernelIdeal.Hand.W5_arg2 m c)⟩)
    (Cert.KernelIdeal.Hand.run_main (F := Ideal) m ρ)

/-- The reference runs and leaves its arguments as launched. -/
theorem frame_ri : Cert.frame_ReferenceIdeal := fun m ρ _ =>
  (θ_run (Cert.ReferenceIdeal.defs (F := Ideal)) _ _).mono (fun _ h c => (h c).2)
    (Cert.ReferenceIdeal.RefValue.run_ref (F := Ideal) m ρ)

/-- The ideal pass rewrote nothing. -/
theorem preserves : Cert.preserves_Kernel_KernelIdeal := trivial

/-- From memories agreeing on the arguments both programs end with the same result. -/
theorem algebraic : Cert.algebraic_KernelIdeal_ReferenceIdeal := by
  intro m ρ m' ρ' hpre hagree
  refine ⟨fun c => Cert.KernelIdeal.Hand.W5 m c (Proc.devRef .tc Cert.KernelIdeal.main_v17), ?_, ?_⟩
  · exact (θ_run (Cert.KernelIdeal.defs (F := Ideal)) _ _).mono (fun r h c =>
      ⟨h c _ (Cert.KernelIdeal.Hand.mem_uc Cert.KernelIdeal.main_v17 (by decide)),
       (h c _ (Cert.KernelIdeal.Hand.mem_uc Cert.KernelIdeal.main_arg0 (by decide))).trans (Cert.KernelIdeal.Hand.W5_arg0 m c),
       (h c _ (Cert.KernelIdeal.Hand.mem_uc Cert.KernelIdeal.main_arg1 (by decide))).trans (Cert.KernelIdeal.Hand.W5_arg1 m c),
       (h c _ (Cert.KernelIdeal.Hand.mem_uc Cert.KernelIdeal.main_arg2 (by decide))).trans (Cert.KernelIdeal.Hand.W5_arg2 m c)⟩)
      (Cert.KernelIdeal.Hand.run_main (F := Ideal) m ρ)
  · refine (θ_run (Cert.ReferenceIdeal.defs (F := Ideal)) _ _).mono (fun r h c => ⟨(h c).1.trans ?_, (h c).2⟩)
      (Cert.ReferenceIdeal.RefValue.run_ref (F := Ideal) m' ρ')
    rw [(hagree c).1, (hagree c).2.1, (hagree c).2.2]
    exact (Cert.Proof.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
